-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S2002x1024 : Shape := ⟨2, ![2002, 1024]⟩
abbrev S256x1024 : Shape := ⟨2, ![256, 1024]⟩
abbrev S8000x256 : Shape := ⟨2, ![8000, 256]⟩
abbrev S64x1024 : Shape := ⟨2, ![64, 1024]⟩
abbrev S40257x64 : Shape := ⟨2, ![40257, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2002x1024 : S_.BroadcastsInDim S2002x1024 (![] : Fin 0 → Fin S2002x1024.rank)
  reducesTo_S2002x1024_S_d0_1 : S2002x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S8000x256 : S_.BroadcastsInDim S8000x256 (![] : Fin 0 → Fin S8000x256.rank)
  reducesTo_S8000x256_S_d0_1 : S8000x256.ReducesTo [0, 1] S_
  bcast_S_S64x1024 : S_.BroadcastsInDim S64x1024 (![] : Fin 0 → Fin S64x1024.rank)
  reducesTo_S64x1024_S_d0_1 : S64x1024.ReducesTo [0, 1] S_
  bcast_S_S40257x64 : S_.BroadcastsInDim S40257x64 (![] : Fin 0 → Fin S40257x64.rank)
  reducesTo_S40257x64_S_d0_1 : S40257x64.ReducesTo [0, 1] S_

variable [Facts]

def fn_part1 {F : FTy → Type} [FloatOps F] (main_arg5 : FVec F S64x1024 .f32) (main_arg6 : FVec F S40257x64 .f32) (main_v13 : IVec S_ 1) (main_v16 : IVec S8000x256 1) : IVec S_ 1 :=
  let main_c_5 : IVec S_ 1 := constantI S_ 1 1#1
  let main_v17 : IVec S_ 1 := (fun x v => Host.reduce IntOp.andi x v reducesTo_S8000x256_S_d0_1 h_S_) main_v16 main_c_5
  let main_v18 : IVec S_ 1 := andi main_v13 main_v17
  let main_v19 : FVec F S64x1024 .f32 := Host.absf main_arg5
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S40257x64 .f32 := Host.absf main_arg6
  let main_cst_8 : FVec F S_ .f32 := constant S_ .f32 0x7F800000#32
  let main_v25 : FVec F S40257x64 .f32 := broadcastInDim S40257x64 ![] bcast_S_S40257x64 main_cst_8
  let main_v26 : IVec S40257x64 1 := cmpf .olt main_v24 main_v25
  let main_c_9 : IVec S_ 1 := constantI S_ 1 1#1
  let main_v27 : IVec S_ 1 := (fun x v => Host.reduce IntOp.andi x v reducesTo_S40257x64_S_d0_1 h_S_) main_v26 main_c_9
  let main_v28 : IVec S_ 1 := andi main_v23 main_v27
  main_v28

def fn {F : FTy → Type} [FloatOps F] (main_arg0 : FVec F S4096x1024 .f32) (main_arg1 : IVec S4096 32) (main_arg2 : FVec F S2002x1024 .f32) (main_arg3 : FVec F S256x1024 .f32) (main_arg4 : FVec F S8000x256 .f32) (main_arg5 : FVec F S64x1024 .f32) (main_arg6 : FVec F S40257x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2002x1024 .f32 := Host.absf main_arg2
  let main_cst_0 : FVec F S_ .f32 := constant S_ .f32 0x7F800000#32
  let main_v5 : FVec F S2002x1024 .f32 := broadcastInDim S2002x1024 ![] bcast_S_S2002x1024 main_cst_0
  let main_v6 : IVec S2002x1024 1 := cmpf .olt main_v4 main_v5
  let main_c_1 : IVec S_ 1 := constantI S_ 1 1#1
  let main_v7 : IVec S_ 1 := (fun x v => Host.reduce IntOp.andi x v reducesTo_S2002x1024_S_d0_1 h_S_) main_v6 main_c_1
  let main_v8 : IVec S_ 1 := andi main_v3 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S8000x256 .f32 := Host.absf main_arg4
  let main_cst_4 : FVec F S_ .f32 := constant S_ .f32 0x7F800000#32
  let main_v15 : FVec F S8000x256 .f32 := broadcastInDim S8000x256 ![] bcast_S_S8000x256 main_cst_4
  let main_v16 : IVec S8000x256 1 := cmpf .olt main_v14 main_v15
  fn_part1 (F := F) main_arg5 main_arg6 main_v13 main_v16
-- ==== Kernel.lean ====
abbrev S4096x1024 : Shape := ⟨2, ![4096, 1024]⟩
abbrev S4096 : Shape := ⟨1, ![4096]⟩
abbrev S2002x1024 : Shape := ⟨2, ![2002, 1024]⟩
abbrev S256x1024 : Shape := ⟨2, ![256, 1024]⟩
abbrev S8000x256 : Shape := ⟨2, ![8000, 256]⟩
abbrev S64x1024 : Shape := ⟨2, ![64, 1024]⟩
abbrev S40257x64 : Shape := ⟨2, ![40257, 64]⟩
abbrev S_ : Shape := ⟨0, ![]⟩
abbrev S2048x1024 : Shape := ⟨2, ![2048, 1024]⟩
abbrev S8192x256 : Shape := ⟨2, ![8192, 256]⟩
abbrev S40960x64 : Shape := ⟨2, ![40960, 64]⟩
abbrev S128x1024 : Shape := ⟨2, ![128, 1024]⟩
abbrev S128 : Shape := ⟨1, ![128]⟩
abbrev S128x2048 : Shape := ⟨2, ![128, 2048]⟩
abbrev S128x1 : Shape := ⟨2, ![128, 1]⟩
abbrev S128x256 : Shape := ⟨2, ![128, 256]⟩
abbrev S1024x256 : Shape := ⟨2, ![1024, 256]⟩
abbrev S128x64 : Shape := ⟨2, ![128, 64]⟩
abbrev S1024x64 : Shape := ⟨2, ![1024, 64]⟩

abbrev nBuf : Space → Nat
  | .hbm => 30
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S2002x1024, .f32⟩
  | .hbm, ⟨3, _⟩ => ⟨S256x1024, .f32⟩
  | .hbm, ⟨4, _⟩ => ⟨S8000x256, .f32⟩
  | .hbm, ⟨5, _⟩ => ⟨S64x1024, .f32⟩
  | .hbm, ⟨6, _⟩ => ⟨S40257x64, .f32⟩
  | .hbm, ⟨7, _⟩ => ⟨S4096x1024, .bf16⟩
  | .hbm, ⟨8, _⟩ => ⟨S_, .i32⟩
  | .hbm, ⟨9, _⟩ => ⟨S_, .f32⟩
  | .hbm, ⟨10, _⟩ => ⟨S2048x1024, .f32⟩
  | .hbm, ⟨11, _⟩ => ⟨S2048x1024, .bf16⟩
  | .hbm, ⟨12, _⟩ => ⟨S256x1024, .bf16⟩
  | .hbm, ⟨13, _⟩ => ⟨S_, .i32⟩
  | .hbm, ⟨14, _⟩ => ⟨S_, .f32⟩
  | .hbm, ⟨15, _⟩ => ⟨S8192x256, .f32⟩
  | .hbm, ⟨16, _⟩ => ⟨S8192x256, .bf16⟩
  | .hbm, ⟨17, _⟩ => ⟨S64x1024, .bf16⟩
  | .hbm, ⟨18, _⟩ => ⟨S_, .i32⟩
  | .hbm, ⟨19, _⟩ => ⟨S_, .f32⟩
  | .hbm, ⟨20, _⟩ => ⟨S40960x64, .f32⟩
  | .hbm, ⟨21, _⟩ => ⟨S40960x64, .bf16⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S128x1024, .bf16⟩
  | .local _ .vmem, ⟨1, _⟩ => ⟨S128x1024, .bf16⟩
  | .local _ .vmem, ⟨2, _⟩ => ⟨S128, .i32⟩
  | .local _ .vmem, ⟨3, _⟩ => ⟨S128, .i32⟩
  | .local _ .vmem, ⟨4, _⟩ => ⟨S2048x1024, .bf16⟩
  | .local _ .vmem, ⟨5, _⟩ => ⟨S256x1024, .bf16⟩
  | .local _ .vmem, ⟨6, _⟩ => ⟨S8192x256, .bf16⟩
  | .local _ .vmem, ⟨7, _⟩ => ⟨S64x1024, .bf16⟩
  | .local _ .vmem, ⟨8, _⟩ => ⟨S40960x64, .bf16⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_17 : BitVec 32 := 0#32
  let c8_i32 : BitVec 32 := 8#32
  let v57 : BitVec 32 := Scalar.addi c0_i32_17 c8_i32
  let c1_i32 : BitVec 32 := 1#32
  ⟨c0_i32_17, v57, c1_i32⟩
def k0_mult1 (k0_t1 : Fin k0_t1_loop.trips) : BitVec 32 :=
  let c0_i32_17 : BitVec 32 := 0#32
  let c1_i32 : BitVec 32 := 1#32
  let arg10 : BitVec 32 := Scf.iv c0_i32_17 c1_i32 k0_t1
  let c1024_i32 : BitVec 32 := 1024#32
  let v101 : BitVec 32 := Scalar.muli arg10 c1024_i32
  v101
def k0_off1 (k0_t1 : Fin k0_t1_loop.trips) : Fin 2 → Nat :=
  let c0_i32_17 : BitVec 32 := 0#32
  let c1_i32 : BitVec 32 := 1#32
  let arg10 : BitVec 32 := Scf.iv c0_i32_17 c1_i32 k0_t1
  let c1024_i32 : BitVec 32 := 1024#32
  let v101 : BitVec 32 := Scalar.muli arg10 c1024_i32
  let v102 : BitVec 32 := v101
  let v103 : Index := Scalar.indexCast v102
  let c0_34 : Index := 0#32
  ![v103.toNat, 0]
@[reducible] def k0_t2_loop : Scf.Loop 32 :=
  let c0_i32_28 : BitVec 32 := 0#32
  let c40_i32 : BitVec 32 := 40#32
  let v83 : BitVec 32 := Scalar.addi c0_i32_28 c40_i32
  let c1_i32_29 : BitVec 32 := 1#32
  ⟨c0_i32_28, v83, c1_i32_29⟩
def k0_mult2 (k0_t2 : Fin k0_t2_loop.trips) : BitVec 32 :=
  let c0_i32_28 : BitVec 32 := 0#32
  let c1_i32_29 : BitVec 32 := 1#32
  let arg10 : BitVec 32 := Scf.iv c0_i32_28 c1_i32_29 k0_t2
  let c1024_i32 : BitVec 32 := 1024#32
  let v101 : BitVec 32 := Scalar.muli arg10 c1024_i32
  v101
def k0_off2 (k0_t2 : Fin k0_t2_loop.trips) : Fin 2 → Nat :=
  let c0_i32_28 : BitVec 32 := 0#32
  let c1_i32_29 : BitVec 32 := 1#32
  let arg10 : BitVec 32 := Scf.iv c0_i32_28 c1_i32_29 k0_t2
  let c1024_i32 : BitVec 32 := 1024#32
  let v101 : BitVec 32 := Scalar.muli arg10 c1024_i32
  let v102 : BitVec 32 := v101
  let v103 : Index := Scalar.indexCast v102
  let c0_34 : Index := 0#32
  ![v103.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40960x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  pads_S2002x1024_S2048x1024_0460_000 : S2002x1024.Pads (![0, 0] : Fin 2 → Nat) ![46, 0] ![0, 0] S2048x1024
  h_S_ : 0 < S_.numel
  pads_S8000x256_S8192x256_01920_000 : S8000x256.Pads (![0, 0] : Fin 2 → Nat) ![192, 0] ![0, 0] S8192x256
  pads_S40257x64_S40960x64_07030_000 : S40257x64.Pads (![0, 0] : Fin 2 → Nat) ![703, 0] ![0, 0] S40960x64
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128_S128_0 : ∀ a, (![0] : Fin 1 → Nat) a + S128.size a ≤ S128.size a
  h_S128 : 0 < S128.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S128x2048_d1_w32 : S128x2048.Iotas .tc 32 [1]
  reduces_S128x2048_S128 : S128x2048.Reduces [1] S128
  shapeCasts_S128_S128x1 : S128.ShapeCasts S128x1
  broadcasts_S128x1_S128x2048 : S128x1.Broadcasts S128x2048
  shapeCasts_S128x1_S128 : S128x1.ShapeCasts S128
  slices_S128x2048_o0_2000_S128x1 : S128x2048.Slices ![0, 2000] S128x1
  slices_S128x2048_o0_2001_S128x1 : S128x2048.Slices ![0, 2001] S128x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  h_S1024x256 : 0 < S1024x256.numel
  shapeCasts_S1024x256_S1024x256 : S1024x256.ShapeCasts S1024x256
  iota_S128x1024_d1_w32 : S128x1024.Iotas .tc 32 [1]
  reduces_S128x1024_S128 : S128x1024.Reduces [1] S128
  broadcasts_S128x1_S128x1024 : S128x1.Broadcasts S128x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  h_S1024x64 : 0 < S1024x64.numel
  shapeCasts_S1024x64_S1024x64 : S1024x64.ShapeCasts S1024x64
  natLt_1_32 : 1 < 32
  reducesTo_S4096_S_d0 : S4096.ReducesTo [0] S_
  dot_S128x1024_S2048x1024_S128x2048_1_1_0_0_n_n_wf : DotDims.WF S128x1024 S2048x1024 S128x2048 [1] [1] [0] [0] [] []
  dot_S128x1024_S256x1024_S128x256_1_1_0_0_n_n_wf : DotDims.WF S128x1024 S256x1024 S128x256 [1] [1] [0] [0] [] []
  dot_S128x256_S1024x256_S128x1024_1_1_0_0_n_n_wf : DotDims.WF S128x256 S1024x256 S128x1024 [1] [1] [0] [0] [] []
  dot_S128x1024_S64x1024_S128x64_1_1_0_0_n_n_wf : DotDims.WF S128x1024 S64x1024 S128x64 [1] [1] [0] [0] [] []
  dot_S128x64_S1024x64_S128x1024_1_1_0_0_n_n_wf : DotDims.WF S128x64 S1024x64 S128x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1024x64.size a ≤ S40960x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S4096.size a
  hwx0_1 : ∀ i : grid0.Coords, EltTy.bits .i32 = 32 ∨ (Rect.block (s := S4096) S128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x256.size a
  hwx0_4 : ∀ i : grid0.Coords, EltTy.bits .bf16 = 32 ∨ (Rect.block (s := S8192x256) S8192x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .bf16 = 32 ∨ (Rect.block (s := S64x1024) S64x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40960x64.size a ≤ S40960x64.size a
  hwx0_6 : ∀ i : grid0.Coords, EltTy.bits .bf16 = 32 ∨ (Rect.block (s := S40960x64) S40960x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S4096.size a
  hwx0_7 : ∀ i : grid0.Coords, EltTy.bits .f32 = 32 ∨ (Rect.block (s := S4096) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S4096.size a
  hwx0_8 : ∀ i : grid0.Coords, EltTy.bits .f32 = 32 ∨ (Rect.block (s := S4096) S128.size (cc0_transform_8 i) (hinb0_8 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x1024_S256x1024_S128x256_1_1_0_0_n_n : DotDims S128x1024 S256x1024 S128x256 where
  lhsContracting := [1]
  rhsContracting := [1]
  lhsNonContracting := [0]
  rhsNonContracting := [0]
  lhsBatch := []
  rhsBatch := []
  wf := dot_S128x1024_S256x1024_S128x256_1_1_0_0_n_n_wf
def dot_S128x256_S1024x256_S128x1024_1_1_0_0_n_n : DotDims S128x256 S1024x256 S128x1024 where
  lhsContracting := [1]
  rhsContracting := [1]
  lhsNonContracting := [0]
  rhsNonContracting := [0]
  lhsBatch := []
  rhsBatch := []
  wf := dot_S128x256_S1024x256_S128x1024_1_1_0_0_n_n_wf
def dot_S128x1024_S64x1024_S128x64_1_1_0_0_n_n : DotDims S128x1024 S64x1024 S128x64 where
  lhsContracting := [1]
  rhsContracting := [1]
  lhsNonContracting := [0]
  rhsNonContracting := [0]
  lhsBatch := []
  rhsBatch := []
  wf := dot_S128x1024_S64x1024_S128x64_1_1_0_0_n_n_wf
def dot_S128x64_S1024x64_S128x1024_1_1_0_0_n_n : DotDims S128x64 S1024x64 S128x1024 where
  lhsContracting := [1]
  rhsContracting := [1]
  lhsNonContracting := [0]
  rhsNonContracting := [0]
  lhsBatch := []
  rhsBatch := []
  wf := dot_S128x64_S1024x64_S128x1024_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8192x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S40960x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S2002x1024 : Shape := ⟨2, ![2002, 1024]⟩
abbrev S256x1024 : Shape := ⟨2, ![256, 1024]⟩
abbrev S8000x256 : Shape := ⟨2, ![8000, 256]⟩
abbrev S64x1024 : Shape := ⟨2, ![64, 1024]⟩
abbrev S40257x64 : Shape := ⟨2, ![40257, 64]⟩
abbrev S4096x2002 : Shape := ⟨2, ![4096, 2002]⟩
abbrev S_ : Shape := ⟨0, ![]⟩
abbrev S4096x1 : Shape := ⟨2, ![4096, 1]⟩
abbrev S4096x2 : Shape := ⟨2, ![4096, 2]⟩
abbrev S4096x256 : Shape := ⟨2, ![4096, 256]⟩
abbrev S4096x8000 : Shape := ⟨2, ![4096, 8000]⟩
abbrev S4096x64 : Shape := ⟨2, ![4096, 64]⟩
abbrev S4096x40257 : Shape := ⟨2, ![4096, 40257]⟩

abbrev nBuf : Space → Nat
  | .hbm => 179
  | .vmem => 0
  | .smem => 0
  | _ => 0

abbrev hbmTy0_0 (i : Nat) : BufTy := match i % 128 with
  | 0 => ⟨S4096x1024, .f32⟩
  | 1 => ⟨S4096, .i32⟩
  | 2 => ⟨S2002x1024, .f32⟩
  | 3 => ⟨S256x1024, .f32⟩
  | 4 => ⟨S8000x256, .f32⟩
  | 5 => ⟨S64x1024, .f32⟩
  | 6 => ⟨S40257x64, .f32⟩
  | 7 => ⟨S4096x2002, .f32⟩
  | 8 => ⟨S_, .f32⟩
  | 9 => ⟨S4096, .f32⟩
  | 10 => ⟨S_, .f32⟩
  | 11 => ⟨S4096, .f32⟩
  | 12 => ⟨S4096, .f32⟩
  | 13 => ⟨S4096x1, .f32⟩
  | 14 => ⟨S4096x2002, .f32⟩
  | 15 => ⟨S4096x2002, .f32⟩
  | 16 => ⟨S4096x2002, .f32⟩
  | 17 => ⟨S_, .f32⟩
  | 18 => ⟨S4096, .f32⟩
  | 19 => ⟨S4096x1, .f32⟩
  | 20 => ⟨S4096x1, .f32⟩
  | 21 => ⟨S4096x2002, .f32⟩
  | 22 => ⟨S4096x2002, .f32⟩
  | 23 => ⟨S4096, .i32⟩
  | 24 => ⟨S_, .i32⟩
  | 25 => ⟨S4096, .i32⟩
  | 26 => ⟨S4096, .i1⟩
  | 27 => ⟨S_, .i32⟩
  | 28 => ⟨S_, .i32⟩
  | 29 => ⟨S4096, .i32⟩
  | 30 => ⟨S4096, .i32⟩
  | 31 => ⟨S_, .i32⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S4096x1, .i32⟩
  | 55 => ⟨S4096x2, .i32⟩
  | 56 => ⟨S4096, .f32⟩
  | 57 => ⟨S4096x256, .f32⟩
  | 58 => ⟨S4096x8000, .f32⟩
  | 59 => ⟨S_, .f32⟩
  | 60 => ⟨S4096, .f32⟩
  | 61 => ⟨S_, .f32⟩
  | 62 => ⟨S4096, .f32⟩
  | 63 => ⟨S4096, .f32⟩
  | 64 => ⟨S4096x1, .f32⟩
  | 65 => ⟨S4096x8000, .f32⟩
  | 66 => ⟨S4096x8000, .f32⟩
  | 67 => ⟨S4096x8000, .f32⟩
  | 68 => ⟨S_, .f32⟩
  | 69 => ⟨S4096, .f32⟩
  | 70 => ⟨S4096x1, .f32⟩
  | 71 => ⟨S4096x1, .f32⟩
  | 72 => ⟨S4096x8000, .f32⟩
  | 73 => ⟨S4096x8000, .f32⟩
  | 74 => ⟨S_, .i32⟩
  | 75 => ⟨S4096, .i32⟩
  | 76 => ⟨S4096, .i32⟩
  | 77 => ⟨S_, .i32⟩
  | 78 => ⟨S_, .i32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096x1, .f32⟩
  | 86 => ⟨S4096, .f32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096x1, .i32⟩
  | 103 => ⟨S4096x2, .i32⟩
  | 104 => ⟨S4096, .f32⟩
  | 105 => ⟨S4096, .f32⟩
  | 106 => ⟨S_, .i32⟩
  | 107 => ⟨S4096, .i32⟩
  | 108 => ⟨S4096, .i1⟩
  | 109 => ⟨S_, .i32⟩
  | 110 => ⟨S4096, .i32⟩
  | 111 => ⟨S4096, .i1⟩
  | 112 => ⟨S4096, .i1⟩
  | 113 => ⟨S4096, .f32⟩
  | 114 => ⟨S4096x64, .f32⟩
  | 115 => ⟨S4096x40257, .f32⟩
  | 116 => ⟨S_, .f32⟩
  | 117 => ⟨S4096, .f32⟩
  | 118 => ⟨S_, .f32⟩
  | 119 => ⟨S4096, .f32⟩
  | 120 => ⟨S4096, .f32⟩
  | 121 => ⟨S4096x1, .f32⟩
  | 122 => ⟨S4096x40257, .f32⟩
  | 123 => ⟨S4096x40257, .f32⟩
  | 124 => ⟨S4096x40257, .f32⟩
  | 125 => ⟨S_, .f32⟩
  | 126 => ⟨S4096, .f32⟩
  | 127 => ⟨S4096x1, .f32⟩
  | _ => ⟨S4096x1024, .f32⟩

abbrev hbmTy0_1 (i : Nat) : BufTy := match i % 128 with
  | 0 => ⟨S4096x1, .f32⟩
  | 1 => ⟨S4096x40257, .f32⟩
  | 2 => ⟨S4096x40257, .f32⟩
  | 3 => ⟨S_, .i32⟩
  | 4 => ⟨S4096, .i32⟩
  | 5 => ⟨S4096, .i32⟩
  | 6 => ⟨S_, .i32⟩
  | 7 => ⟨S_, .i32⟩
  | 8 => ⟨S_, .i32⟩
  | 9 => ⟨S4096, .i32⟩
  | 10 => ⟨S4096, .i32⟩
  | 11 => ⟨S_, .i32⟩
  | 12 => ⟨S4096, .i32⟩
  | 13 => ⟨S4096, .i32⟩
  | 14 => ⟨S4096x1, .f32⟩
  | 15 => ⟨S4096, .f32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x1, .i32⟩
  | 32 => ⟨S4096x2, .i32⟩
  | 33 => ⟨S4096, .f32⟩
  | 34 => ⟨S4096, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i1⟩
  | 41 => ⟨S4096, .i1⟩
  | 42 => ⟨S4096, .f32⟩
  | 43 => ⟨S4096, .f32⟩
  | 44 => ⟨S4096, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_v5 : Ref sig .tc := ⟨.hbm, 30, rfl⟩
abbrev main_c_1 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v6 : Ref sig .tc := ⟨.hbm, 38, rfl⟩
abbrev main_c_3 : Ref sig .tc := ⟨.hbm, 39, rfl⟩
abbrev main_v7 : Ref sig .tc := ⟨.hbm, 40, rfl⟩
abbrev main_v8 : Ref sig .tc := ⟨.hbm, 41, rfl⟩
abbrev main_c_4 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_c_5 : Ref sig .tc := ⟨.hbm, 46, rfl⟩
abbrev main_v12 : Ref sig .tc := ⟨.hbm, 47, rfl⟩
abbrev main_v13 : Ref sig .tc := ⟨.hbm, 48, rfl⟩
abbrev main_c_6 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call3_cst : Ref sig .tc := ⟨.hbm, 59, rfl⟩
abbrev main_call3_v0 : Ref sig .tc := ⟨.hbm, 60, rfl⟩
abbrev main_call3_cst_0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_v6 : Ref sig .tc := ⟨.hbm, 67, rfl⟩
abbrev main_call3_cst_1 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_v23 : Ref sig .tc := ⟨.hbm, 73, rfl⟩
abbrev main_c_7 : Ref sig .tc := ⟨.hbm, 74, rfl⟩
abbrev main_v24 : Ref sig .tc := ⟨.hbm, 75, rfl⟩
abbrev main_v25 : Ref sig .tc := ⟨.hbm, 76, rfl⟩
abbrev main_c_8 : Ref sig .tc := ⟨.hbm, 77, rfl⟩
abbrev main_c_9 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_c_10 : Ref sig .tc := ⟨.hbm, 87, rfl⟩
abbrev main_v29 : Ref sig .tc := ⟨.hbm, 88, rfl⟩
abbrev main_v30 : Ref sig .tc := ⟨.hbm, 89, rfl⟩
abbrev main_c_11 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_c_12 : Ref sig .tc := ⟨.hbm, 94, rfl⟩
abbrev main_v34 : Ref sig .tc := ⟨.hbm, 95, rfl⟩
abbrev main_v35 : Ref sig .tc := ⟨.hbm, 96, rfl⟩
abbrev main_c_13 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_c_14 : Ref sig .tc := ⟨.hbm, 106, rfl⟩
abbrev main_v44 : Ref sig .tc := ⟨.hbm, 107, rfl⟩
abbrev main_v45 : Ref sig .tc := ⟨.hbm, 108, rfl⟩
abbrev main_c_15 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_call6_cst : Ref sig .tc := ⟨.hbm, 116, rfl⟩
abbrev main_call6_v0 : Ref sig .tc := ⟨.hbm, 117, rfl⟩
abbrev main_call6_cst_0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_call6_v5 : Ref sig .tc := ⟨.hbm, 123, rfl⟩
abbrev main_call6_v6 : Ref sig .tc := ⟨.hbm, 124, rfl⟩
abbrev main_call6_cst_1 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_v52 : Ref sig .tc := ⟨.hbm, 130, rfl⟩
abbrev main_c_16 : Ref sig .tc := ⟨.hbm, 131, rfl⟩
abbrev main_v53 : Ref sig .tc := ⟨.hbm, 132, rfl⟩
abbrev main_v54 : Ref sig .tc := ⟨.hbm, 133, rfl⟩
abbrev main_c_17 : Ref sig .tc := ⟨.hbm, 134, rfl⟩
abbrev main_c_18 : Ref sig .tc := ⟨.hbm, 135, rfl⟩
abbrev main_call7_v0 : Ref sig .tc := ⟨.hbm, 136, rfl⟩
abbrev main_call7_v1 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_c_19 : Ref sig .tc := ⟨.hbm, 144, rfl⟩
abbrev main_v58 : Ref sig .tc := ⟨.hbm, 145, rfl⟩
abbrev main_v59 : Ref sig .tc := ⟨.hbm, 146, rfl⟩
abbrev main_c_20 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_c_21 : Ref sig .tc := ⟨.hbm, 151, rfl⟩
abbrev main_v63 : Ref sig .tc := ⟨.hbm, 152, rfl⟩
abbrev main_v64 : Ref sig .tc := ⟨.hbm, 153, rfl⟩
abbrev main_c_22 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_c_23 : Ref sig .tc := ⟨.hbm, 163, rfl⟩
abbrev main_v73 : Ref sig .tc := ⟨.hbm, 164, rfl⟩
abbrev main_v74 : Ref sig .tc := ⟨.hbm, 165, rfl⟩
abbrev main_c_24 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_cst : Ref sig .tc := ⟨.hbm, 173, rfl⟩
abbrev main_v81 : Ref sig .tc := ⟨.hbm, 174, rfl⟩
abbrev main_v82 : Ref sig .tc := ⟨.hbm, 175, rfl⟩
abbrev main_cst_25 : Ref sig .tc := ⟨.hbm, 176, rfl⟩
abbrev main_v83 : Ref sig .tc := ⟨.hbm, 177, rfl⟩
abbrev main_v84 : Ref sig .tc := ⟨.hbm, 178, rfl⟩

abbrev nD : Nat := 1
abbrev τ : Topo := Topo.v7x

variable {F : FTy → Type} [FloatOps F]

class Facts₀ : Prop where
  reducesTo_S4096x2002_S4096_d1 : S4096x2002.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2002_0_1 : S4096x1.BroadcastsInDim S4096x2002 (![0, 1] : Fin 2 → Fin S4096x2002.rank)
  concatenates_S4096x1_S4096x1_S4096x2_d1 : Shape.Concatenates [S4096x1, S4096x1] S4096x2 1
  reducesTo_S4096x8000_S4096_d1 : S4096x8000.ReducesTo [1] S4096
  bcast_S4096x1_S4096x8000_0_1 : S4096x1.BroadcastsInDim S4096x8000 (![0, 1] : Fin 2 → Fin S4096x8000.rank)
  slices_S4096x2002_S4096x1_0_2000 : S4096x2002.Slices ![0, 2000] S4096x1
  shapeCasts_S4096x1_S4096 : S4096x1.ShapeCasts S4096
  reducesTo_S4096x40257_S4096_d1 : S4096x40257.ReducesTo [1] S4096
  bcast_S4096x1_S4096x40257_0_1 : S4096x1.BroadcastsInDim S4096x40257 (![0, 1] : Fin 2 → Fin S4096x40257.rank)
  slices_S4096x2002_S4096x1_0_2001 : S4096x2002.Slices ![0, 2001] S4096x1
  reducesTo_S4096_S_d0 : S4096.ReducesTo [0] S_
  dot_S4096x1024_S2002x1024_S4096x2002_1_1_0_0_n_n_wf : DotDims.WF S4096x1024 S2002x1024 S4096x2002 [1] [1] [0] [0] [] []
  gather_S4096x2002_S4096x2_S4096_n_01_n_n_01_1_11_wf : GatherDims.WF S4096x2002 S4096x2 S4096 [] [0, 1] [] [0, 1] [] 1 ![1, 1]
  dot_S4096x1024_S256x1024_S4096x256_1_1_0_0_n_n_wf : DotDims.WF S4096x1024 S256x1024 S4096x256 [1] [1] [0] [0] [] []
  dot_S4096x256_S8000x256_S4096x8000_1_1_0_0_n_n_wf : DotDims.WF S4096x256 S8000x256 S4096x8000 [1] [1] [0] [0] [] []
  gather_S4096x8000_S4096x2_S4096_n_01_n_n_01_1_11_wf : GatherDims.WF S4096x8000 S4096x2 S4096 [] [0, 1] [] [0, 1] [] 1 ![1, 1]
  dot_S4096x1024_S64x1024_S4096x64_1_1_0_0_n_n_wf : DotDims.WF S4096x1024 S64x1024 S4096x64 [1] [1] [0] [0] [] []
  dot_S4096x64_S40257x64_S4096x40257_1_1_0_0_n_n_wf : DotDims.WF S4096x64 S40257x64 S4096x40257 [1] [1] [0] [0] [] []
  gather_S4096x40257_S4096x2_S4096_n_01_n_n_01_1_11_wf : GatherDims.WF S4096x40257 S4096x2 S4096 [] [0, 1] [] [0, 1] [] 1 ![1, 1]

variable [Facts₀]

def dot_S4096x1024_S2002x1024_S4096x2002_1_1_0_0_n_n : DotDims S4096x1024 S2002x1024 S4096x2002 where
  lhsContracting := [1]
  rhsContracting := [1]
  lhsNonContracting := [0]
  rhsNonContracting := [0]
  lhsBatch := []
  rhsBatch := []
  wf := dot_S4096x1024_S2002x1024_S4096x2002_1_1_0_0_n_n_wf
def gather_S4096x2002_S4096x2_S4096_n_01_n_n_01_1_11 : GatherDims S4096x2002 S4096x2 S4096 where
  offsetDims := []
  collapsedSliceDims := [0, 1]
  operandBatchingDims := []
  startIndicesBatchingDims := []
  startIndexMap := [0, 1]
  indexVectorDim := 1
  sliceSizes := ![1, 1]
  wf := gather_S4096x2002_S4096x2_S4096_n_01_n_n_01_1_11_wf
def dot_S4096x1024_S256x1024_S4096x256_1_1_0_0_n_n : DotDims S4096x1024 S256x1024 S4096x256 where
  lhsContracting := [1]
  rhsContracting := [1]
  lhsNonContracting := [0]
  rhsNonContracting := [0]
  lhsBatch := []
  rhsBatch := []
  wf := dot_S4096x1024_S256x1024_S4096x256_1_1_0_0_n_n_wf
def dot_S4096x256_S8000x256_S4096x8000_1_1_0_0_n_n : DotDims S4096x256 S8000x256 S4096x8000 where
  lhsContracting := [1]
  rhsContracting := [1]
  lhsNonContracting := [0]
  rhsNonContracting := [0]
  lhsBatch := []
  rhsBatch := []
  wf := dot_S4096x256_S8000x256_S4096x8000_1_1_0_0_n_n_wf
def gather_S4096x8000_S4096x2_S4096_n_01_n_n_01_1_11 : GatherDims S4096x8000 S4096x2 S4096 where
  offsetDims := []
  collapsedSliceDims := [0, 1]
  operandBatchingDims := []
  startIndicesBatchingDims := []
  startIndexMap := [0, 1]
  indexVectorDim := 1
  sliceSizes := ![1, 1]
  wf := gather_S4096x8000_S4096x2_S4096_n_01_n_n_01_1_11_wf
def dot_S4096x1024_S64x1024_S4096x64_1_1_0_0_n_n : DotDims S4096x1024 S64x1024 S4096x64 where
  lhsContracting := [1]
  rhsContracting := [1]
  lhsNonContracting := [0]
  rhsNonContracting := [0]
  lhsBatch := []
  rhsBatch := []
  wf := dot_S4096x1024_S64x1024_S4096x64_1_1_0_0_n_n_wf
def dot_S4096x64_S40257x64_S4096x40257_1_1_0_0_n_n : DotDims S4096x64 S40257x64 S4096x40257 where
  lhsContracting := [1]
  rhsContracting := [1]
  lhsNonContracting := [0]
  rhsNonContracting := [0]
  lhsBatch := []
  rhsBatch := []
  wf := dot_S4096x64_S40257x64_S4096x40257_1_1_0_0_n_n_wf
def gather_S4096x40257_S4096x2_S4096_n_01_n_n_01_1_11 : GatherDims S4096x40257 S4096x2 S4096 where
  offsetDims := []
  collapsedSliceDims := [0, 1]
  operandBatchingDims := []
  startIndicesBatchingDims := []
  startIndexMap := [0, 1]
  indexVectorDim := 1
  sliceSizes := ![1, 1]
  wf := gather_S4096x40257_S4096x2_S4096_n_01_n_n_01_1_11_wf

class Facts : Prop extends Facts₀ where

variable [Facts]
-- ==== Proof.RefRunHand.lean ====
/-
  The reference's @main as a list of its host operations, in four stretches, and what the run leaves in the result.

  The reference scores 4096 rows of features against an adaptive softmax with a shortlist of 2000 classes and two
  tail clusters: `head` is the row-wise log-softmax of the 2002 head logits (shortlist and the two cluster logits),
  each tail cluster has its own row-wise log-softmax (8000 and 40257 classes, through a projection), a row's
  log-probability is the head entry of its label, or the cluster's head entry plus the label's entry in the cluster,
  and the loss is minus the sum of the counted rows' log-probabilities over the number of counted rows (a row with
  label -1 is not counted). The stretches are cut where an index pair (row, class) is assembled, so that each pair's
  two columns are values of the stretch before. Each stretch's values are stated as functions of what it reads, and
  the four are composed into the result.
-/
import proofs.«409923_j27530740367371_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 48 of @main's 172 (a called function's operations stand in its call's place). -/
abbrev ops0 : List (HloOp τ sig (Elt F)) :=
  [ binary main_arg0 main_arg2 main_v0 ((fun l r => Host.dotGeneral dot_S4096x1024_S2002x1024_S4096x2002_1_1_0_0_n_n none l r) : (⟨S4096x1024, .f32⟩ : BufTy).Contents (Elt F) → (⟨S2002x1024, .f32⟩ : BufTy).Contents (Elt F) → (⟨S4096x2002, .f32⟩ : BufTy).Contents (Elt F)),
    TRef.nullary (TRef.of (T := ⟨S_, .f32⟩) main_call0_cst) (constant S_ .f32 0xFF800000#32),
    TRef.binary (TRef.of (T := ⟨S4096x2002, .f32⟩) main_v0) (TRef.of (T := ⟨S_, .f32⟩) main_call0_cst) (TRef.of (T := ⟨S4096, .f32⟩) main_call0_v0) (fun x v => Host.reduce FloatOps.maximumf x v reducesTo_S4096x2002_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x2002, .f32⟩) main_call0_v4) (broadcastInDim S4096x2002 ![0, 1] bcast_S4096x1_S4096x2002_0_1),
    TRef.binary (TRef.of (T := ⟨S4096x2002, .f32⟩) main_v0) (TRef.of (T := ⟨S4096x2002, .f32⟩) main_call0_v4) (TRef.of (T := ⟨S4096x2002, .f32⟩) main_call0_v5) subf,
    TRef.unary (TRef.of (T := ⟨S4096x2002, .f32⟩) main_call0_v5) (TRef.of (T := ⟨S4096x2002, .f32⟩) main_call0_v6) Host.exp,
    TRef.nullary (TRef.of (T := ⟨S_, .f32⟩) main_call0_cst_1) (constant S_ .f32 0x00000000#32),
    TRef.binary (TRef.of (T := ⟨S4096x2002, .f32⟩) main_call0_v6) (TRef.of (T := ⟨S_, .f32⟩) main_call0_cst_1) (TRef.of (T := ⟨S4096, .f32⟩) main_call0_v7) (fun x v => Host.reduceAdd x v reducesTo_S4096x2002_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x2002, .f32⟩) main_call0_v10) (broadcastInDim S4096x2002 ![0, 1] bcast_S4096x1_S4096x2002_0_1),
    TRef.binary (TRef.of (T := ⟨S4096x2002, .f32⟩) main_call0_v5) (TRef.of (T := ⟨S4096x2002, .f32⟩) main_call0_v10) (TRef.of (T := ⟨S4096x2002, .f32⟩) main_v1) subf,
    nullary main_v2 (iotaInDim S4096 32 0),
    nullary main_c (constantI S_ 32 4294967295#32),
    unary main_c main_v3 (broadcastInDim S4096 ![] bcast_S_S4096 : (⟨S_, .i32⟩ : BufTy).Contents (Elt F) → (⟨S4096, .i32⟩ : BufTy).Contents (Elt F)),
    binary main_arg1 main_v3 main_v4 (cmpi .ne : (⟨S4096, .i32⟩ : BufTy).Contents (Elt F) → (⟨S4096, .i32⟩ : BufTy).Contents (Elt F) → (⟨S4096, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S4096, .i32⟩) main_call1_v1) (broadcastInDim S4096 ![] bcast_S_S4096),
    TRef.ternary (TRef.of (T := ⟨S4096, .i1⟩) main_v4) (TRef.of (T := ⟨S4096, .i32⟩) main_arg1) (TRef.of (T := ⟨S4096, .i32⟩) main_call1_v1) (TRef.of (T := ⟨S4096, .i32⟩) main_v5) select,
    nullary main_c_1 (constantI S_ 32 0#32),
    nullary main_c_2 (constantI S_ 32 1999#32),
    TRef.unary (TRef.of (T := ⟨S_, .i32⟩) main_c_1) (TRef.of (T := ⟨S_, .i32⟩) main_call2_v0) id,
    TRef.unary (TRef.of (T := ⟨S_, .i32⟩) main_call2_v0) (TRef.of (T := ⟨S4096, .i32⟩) main_call2_v1) (broadcastInDim S4096 ![] bcast_S_S4096),
    TRef.binary (TRef.of (T := ⟨S4096, .i32⟩) main_call2_v1) (TRef.of (T := ⟨S4096, .i32⟩) main_v5) (TRef.of (T := ⟨S4096, .i32⟩) main_call2_v2) maxsi,
    TRef.unary (TRef.of (T := ⟨S_, .i32⟩) main_c_2) (TRef.of (T := ⟨S_, .i32⟩) main_call2_v3) id,
    TRef.unary (TRef.of (T := ⟨S_, .i32⟩) main_call2_v3) (TRef.of (T := ⟨S4096, .i32⟩) main_call2_v4) (broadcastInDim S4096 ![] bcast_S_S4096),
    TRef.binary (TRef.of (T := ⟨S4096, .i32⟩) main_call2_v4) (TRef.of (T := ⟨S4096, .i32⟩) main_call2_v2) (TRef.of (T := ⟨S4096, .i32⟩) main_v6) minsi,
    nullary main_c_3 (constantI S_ 32 0#32),
    unary main_c_3 main_v7 (broadcastInDim S4096 ![] bcast_S_S4096 : (⟨S_, .i32⟩ : BufTy).Contents (Elt F) → (⟨S4096, .i32⟩ : BufTy).Contents (Elt F)),
    binary main_v2 main_v7 main_v8 (cmpi .slt : (⟨S4096, .i32⟩ : BufTy).Contents (Elt F) → (⟨S4096, .i32⟩ : BufTy).Contents (Elt F) → (⟨S4096, .i1⟩ : BufTy).Contents (Elt F)),
    nullary main_c_4 (constantI S_ 32 4096#32),
    unary main_c_4 main_v9 (broadcastInDim S4096 ![] bcast_S_S4096 : (⟨S_, .i32⟩ : BufTy).Contents (Elt F) → (⟨S4096, .i32⟩ : BufTy).Contents (Elt F)),
    binary main_v2 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_v2 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v12 (broadcastInDim S4096 ![] bcast_S_S4096 : (⟨S_, .i32⟩ : BufTy).Contents (Elt F) → (⟨S4096, .i32⟩ : BufTy).Contents (Elt F)),
    binary main_v6 main_v12 main_v13 (cmpi .slt : (⟨S4096, .i32⟩ : BufTy).Contents (Elt F) → (⟨S4096, .i32⟩ : BufTy).Contents (Elt F) → (⟨S4096, .i1⟩ : BufTy).Contents (Elt F)),
    nullary main_c_6 (constantI S_ 32 2002#32),
    unary main_c_6 main_v14 (broadcastInDim S4096 ![] bcast_S_S4096 : (⟨S_, .i32⟩ : BufTy).Contents (Elt F) → (⟨S4096, .i32⟩ : BufTy).Contents (Elt F)),
    binary main_v6 main_v14 main_v15 (addi : (⟨S4096, .i32⟩ : BufTy).Contents (Elt F) → (⟨S4096, .i32⟩ : BufTy).Contents (Elt F) → (⟨S4096, .i32⟩ : BufTy).Contents (Elt F)),
    ternary main_v13 main_v15 main_v6 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v17 (broadcastInDim S4096x1 ![0] bcast_S4096_S4096x1_0 : (⟨S4096, .i32⟩ : BufTy).Contents (Elt F) → (⟨S4096x1, .i32⟩ : BufTy).Contents (Elt F)),
    unary main_v16 main_v18 (broadcastInDim S4096x1 ![0] bcast_S4096_S4096x1_0 : (⟨S4096, .i32⟩ : BufTy).Contents (Elt F) → (⟨S4096x1, .i32⟩ : BufTy).Contents (Elt F)) ]

/-- Operations 49 … 96 of @main's 172 (a called function's operations stand in its call's place). -/
abbrev ops1 : List (HloOp τ sig (Elt F)) :=
  [ binary main_v17 main_v18 main_v19 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v1 main_v19 main_v20 ((fun x i => Host.gather gather_S4096x2002_S4096x2_S4096_n_01_n_n_01_1_11 x i) : (⟨S4096x2002, .f32⟩ : BufTy).Contents (Elt F) → (⟨S4096x2, .i32⟩ : BufTy).Contents (Elt F) → (⟨S4096, .f32⟩ : BufTy).Contents (Elt F)),
    binary main_arg0 main_arg3 main_v21 ((fun l r => Host.dotGeneral dot_S4096x1024_S256x1024_S4096x256_1_1_0_0_n_n none l r) : (⟨S4096x1024, .f32⟩ : BufTy).Contents (Elt F) → (⟨S256x1024, .f32⟩ : BufTy).Contents (Elt F) → (⟨S4096x256, .f32⟩ : BufTy).Contents (Elt F)),
    binary main_v21 main_arg4 main_v22 ((fun l r => Host.dotGeneral dot_S4096x256_S8000x256_S4096x8000_1_1_0_0_n_n none l r) : (⟨S4096x256, .f32⟩ : BufTy).Contents (Elt F) → (⟨S8000x256, .f32⟩ : BufTy).Contents (Elt F) → (⟨S4096x8000, .f32⟩ : BufTy).Contents (Elt F)),
    TRef.nullary (TRef.of (T := ⟨S_, .f32⟩) main_call3_cst) (constant S_ .f32 0xFF800000#32),
    TRef.binary (TRef.of (T := ⟨S4096x8000, .f32⟩) main_v22) (TRef.of (T := ⟨S_, .f32⟩) main_call3_cst) (TRef.of (T := ⟨S4096, .f32⟩) main_call3_v0) (fun x v => Host.reduce FloatOps.maximumf x v reducesTo_S4096x8000_S4096_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S4096, .f32⟩) main_call3_v1) (broadcastInDim S4096 ![] bcast_S_S4096),
    TRef.binary (TRef.of (T := ⟨S4096, .f32⟩) main_call3_v1) (TRef.of (T := ⟨S4096, .f32⟩) main_call3_v0) (TRef.of (T := ⟨S4096, .f32⟩) main_call3_v2) maximumf,
    TRef.unary (TRef.of (T := ⟨S4096, .f32⟩) main_call3_v2) (TRef.of (T := ⟨S4096x1, .f32⟩) main_call3_v3) (broadcastInDim S4096x1 ![0] bcast_S4096_S4096x1_0),
    TRef.unary (TRef.of (T := ⟨S4096x1, .f32⟩) main_call3_v3) (TRef.of (T := ⟨S4096x8000, .f32⟩) main_call3_v4) (broadcastInDim S4096x8000 ![0, 1] bcast_S4096x1_S4096x8000_0_1),
    TRef.binary (TRef.of (T := ⟨S4096x8000, .f32⟩) main_v22) (TRef.of (T := ⟨S4096x8000, .f32⟩) main_call3_v4) (TRef.of (T := ⟨S4096x8000, .f32⟩) main_call3_v5) subf,
    TRef.unary (TRef.of (T := ⟨S4096x8000, .f32⟩) main_call3_v5) (TRef.of (T := ⟨S4096x8000, .f32⟩) main_call3_v6) Host.exp,
    TRef.nullary (TRef.of (T := ⟨S_, .f32⟩) main_call3_cst_1) (constant S_ .f32 0x00000000#32),
    TRef.binary (TRef.of (T := ⟨S4096x8000, .f32⟩) main_call3_v6) (TRef.of (T := ⟨S_, .f32⟩) main_call3_cst_1) (TRef.of (T := ⟨S4096, .f32⟩) main_call3_v7) (fun x v => Host.reduceAdd x v reducesTo_S4096x8000_S4096_d1 h_S_),
    TRef.unary (TRef.of (T := ⟨S4096, .f32⟩) main_call3_v7) (TRef.of (T := ⟨S4096x1, .f32⟩) main_call3_v8) (broadcastInDim S4096x1 ![0] bcast_S4096_S4096x1_0),
    TRef.unary (TRef.of (T := ⟨S4096x1, .f32⟩) main_call3_v8) (TRef.of (T := ⟨S4096x1, .f32⟩) main_call3_v9) Host.log,
    TRef.unary (TRef.of (T := ⟨S4096x1, .f32⟩) main_call3_v9) (TRef.of (T := ⟨S4096x8000, .f32⟩) main_call3_v10) (broadcastInDim S4096x8000 ![0, 1] bcast_S4096x1_S4096x8000_0_1),
    TRef.binary (TRef.of (T := ⟨S4096x8000, .f32⟩) main_call3_v5) (TRef.of (T := ⟨S4096x8000, .f32⟩) main_call3_v10) (TRef.of (T := ⟨S4096x8000, .f32⟩) main_v23) subf,
    nullary main_c_7 (constantI S_ 32 2000#32),
    unary main_c_7 main_v24 (broadcastInDim S4096 ![] bcast_S_S4096 : (⟨S_, .i32⟩ : BufTy).Contents (Elt F) → (⟨S4096, .i32⟩ : BufTy).Contents (Elt F)),
    binary main_v5 main_v24 main_v25 (subi : (⟨S4096, .i32⟩ : BufTy).Contents (Elt F) → (⟨S4096, .i32⟩ : BufTy).Contents (Elt F) → (⟨S4096, .i32⟩ : BufTy).Contents (Elt F)),
    nullary main_c_8 (constantI S_ 32 0#32),
    nullary main_c_9 (constantI S_ 32 7999#32),
    TRef.unary (TRef.of (T := ⟨S_, .i32⟩) main_c_8) (TRef.of (T := ⟨S_, .i32⟩) main_call4_v0) id,
    TRef.unary (TRef.of (T := ⟨S_, .i32⟩) main_call4_v0) (TRef.of (T := ⟨S4096, .i32⟩) main_call4_v1) (broadcastInDim S4096 ![] bcast_S_S4096),
    TRef.binary (TRef.of (T := ⟨S4096, .i32⟩) main_call4_v1) (TRef.of (T := ⟨S4096, .i32⟩) main_v25) (TRef.of (T := ⟨S4096, .i32⟩) main_call4_v2) maxsi,
    TRef.unary (TRef.of (T := ⟨S_, .i32⟩) main_c_9) (TRef.of (T := ⟨S_, .i32⟩) main_call4_v3) id,
    TRef.unary (TRef.of (T := ⟨S_, .i32⟩) main_call4_v3) (TRef.of (T := ⟨S4096, .i32⟩) main_call4_v4) (broadcastInDim S4096 ![] bcast_S_S4096),
    TRef.binary (TRef.of (T := ⟨S4096, .i32⟩) main_call4_v4) (TRef.of (T := ⟨S4096, .i32⟩) main_call4_v2) (TRef.of (T := ⟨S4096, .i32⟩) main_v26) minsi,
    unary main_v1 main_v27 ((extractStridedSlice S4096x1 ![0, 2000] · slices_S4096x2002_S4096x1_0_2000) : (⟨S4096x2002, .f32⟩ : BufTy).Contents (Elt F) → (⟨S4096x1, .f32⟩ : BufTy).Contents (Elt F)),
    reshape main_v27 main_v28 rfl shapeCasts_S4096x1_S4096,
    nullary main_c_10 (constantI S_ 32 0#32),
    unary main_c_10 main_v29 (broadcastInDim S4096 ![] bcast_S_S4096 : (⟨S_, .i32⟩ : BufTy).Contents (Elt F) → (⟨S4096, .i32⟩ : BufTy).Contents (Elt F)),
    binary main_v2 main_v29 main_v30 (cmpi .slt : (⟨S4096, .i32⟩ : BufTy).Contents (Elt F) → (⟨S4096, .i32⟩ : BufTy).Contents (Elt F) → (⟨S4096, .i1⟩ : BufTy).Contents (Elt F)),
    nullary main_c_11 (constantI S_ 32 4096#32),
    unary main_c_11 main_v31 (broadcastInDim S4096 ![] bcast_S_S4096 : (⟨S_, .i32⟩ : BufTy).Contents (Elt F) → (⟨S4096, .i32⟩ : BufTy).Contents (Elt F)),
    binary main_v2 main_v31 main_v32 (addi : (⟨S4096, .i32⟩ : BufTy).Contents (Elt F) → (⟨S4096, .i32⟩ : BufTy).Contents (Elt F) → (⟨S4096, .i32⟩ : BufTy).Contents (Elt F)),
    ternary main_v30 main_v32 main_v2 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_12 (constantI S_ 32 0#32),
    unary main_c_12 main_v34 (broadcastInDim S4096 ![] bcast_S_S4096 : (⟨S_, .i32⟩ : BufTy).Contents (Elt F) → (⟨S4096, .i32⟩ : BufTy).Contents (Elt F)),
    binary main_v26 main_v34 main_v35 (cmpi .slt : (⟨S4096, .i32⟩ : BufTy).Contents (Elt F) → (⟨S4096, .i32⟩ : BufTy).Contents (Elt F) → (⟨S4096, .i1⟩ : BufTy).Contents (Elt F)),
    nullary main_c_13 (constantI S_ 32 8000#32),
    unary main_c_13 main_v36 (broadcastInDim S4096 ![] bcast_S_S4096 : (⟨S_, .i32⟩ : BufTy).Contents (Elt F) → (⟨S4096, .i32⟩ : BufTy).Contents (Elt F)),
    binary main_v26 main_v36 main_v37 (addi : (⟨S4096, .i32⟩ : BufTy).Contents (Elt F) → (⟨S4096, .i32⟩ : BufTy).Contents (Elt F) → (⟨S4096, .i32⟩ : BufTy).Contents (Elt F)),
    ternary main_v35 main_v37 main_v26 main_v38 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v33 main_v39 (broadcastInDim S4096x1 ![0] bcast_S4096_S4096x1_0 : (⟨S4096, .i32⟩ : BufTy).Contents (Elt F) → (⟨S4096x1, .i32⟩ : BufTy).Contents (Elt F)),
    unary main_v38 main_v40 (broadcastInDim S4096x1 ![0] bcast_S4096_S4096x1_0 : (⟨S4096, .i32⟩ : BufTy).Contents (Elt F) → (⟨S4096x1, .i32⟩ : BufTy).Contents (Elt F)) ]

/-- Operations 97 … 153 of @main's 172 (a called function's operations stand in its call's place). -/
abbrev ops2 : List (HloOp τ sig (Elt F)) :=
  [ binary main_v39 main_v40 main_v41 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v23 main_v41 main_v42 ((fun x i => Host.gather gather_S4096x8000_S4096x2_S4096_n_01_n_n_01_1_11 x i) : (⟨S4096x8000, .f32⟩ : BufTy).Contents (Elt F) → (⟨S4096x2, .i32⟩ : BufTy).Contents (Elt F) → (⟨S4096, .f32⟩ : BufTy).Contents (Elt F)),
    binary main_v28 main_v42 main_v43 (addf : (⟨S4096, .f32⟩ : BufTy).Contents (Elt F) → (⟨S4096, .f32⟩ : BufTy).Contents (Elt F) → (⟨S4096, .f32⟩ : BufTy).Contents (Elt F)),
    nullary main_c_14 (constantI S_ 32 2000#32),
    unary main_c_14 main_v44 (broadcastInDim S4096 ![] bcast_S_S4096 : (⟨S_, .i32⟩ : BufTy).Contents (Elt F) → (⟨S4096, .i32⟩ : BufTy).Contents (Elt F)),
    binary main_v5 main_v44 main_v45 (cmpi .sge : (⟨S4096, .i32⟩ : BufTy).Contents (Elt F) → (⟨S4096, .i32⟩ : BufTy).Contents (Elt F) → (⟨S4096, .i1⟩ : BufTy).Contents (Elt F)),
    nullary main_c_15 (constantI S_ 32 10000#32),
    unary main_c_15 main_v46 (broadcastInDim S4096 ![] bcast_S_S4096 : (⟨S_, .i32⟩ : BufTy).Contents (Elt F) → (⟨S4096, .i32⟩ : BufTy).Contents (Elt F)),
    binary main_v5 main_v46 main_v47 (cmpi .slt : (⟨S4096, .i32⟩ : BufTy).Contents (Elt F) → (⟨S4096, .i32⟩ : BufTy).Contents (Elt F) → (⟨S4096, .i1⟩ : BufTy).Contents (Elt F)),
    binary main_v45 main_v47 main_v48 (andi : (⟨S4096, .i1⟩ : BufTy).Contents (Elt F) → (⟨S4096, .i1⟩ : BufTy).Contents (Elt F) → (⟨S4096, .i1⟩ : BufTy).Contents (Elt F)),
    TRef.ternary (TRef.of (T := ⟨S4096, .i1⟩) main_v48) (TRef.of (T := ⟨S4096, .f32⟩) main_v43) (TRef.of (T := ⟨S4096, .f32⟩) main_v20) (TRef.of (T := ⟨S4096, .f32⟩) main_v49) select,
    binary main_arg0 main_arg5 main_v50 ((fun l r => Host.dotGeneral dot_S4096x1024_S64x1024_S4096x64_1_1_0_0_n_n none l r) : (⟨S4096x1024, .f32⟩ : BufTy).Contents (Elt F) → (⟨S64x1024, .f32⟩ : BufTy).Contents (Elt F) → (⟨S4096x64, .f32⟩ : BufTy).Contents (Elt F)),
    binary main_v50 main_arg6 main_v51 ((fun l r => Host.dotGeneral dot_S4096x64_S40257x64_S4096x40257_1_1_0_0_n_n none l r) : (⟨S4096x64, .f32⟩ : BufTy).Contents (Elt F) → (⟨S40257x64, .f32⟩ : BufTy).Contents (Elt F) → (⟨S4096x40257, .f32⟩ : BufTy).Contents (Elt F)),
    TRef.nullary (TRef.of (T := ⟨S_, .f32⟩) main_call6_cst) (constant S_ .f32 0xFF800000#32),
    TRef.binary (TRef.of (T := ⟨S4096x40257, .f32⟩) main_v51) (TRef.of (T := ⟨S_, .f32⟩) main_call6_cst) (TRef.of (T := ⟨S4096, .f32⟩) main_call6_v0) (fun x v => Host.reduce FloatOps.maximumf x v reducesTo_S4096x40257_S4096_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S4096, .f32⟩) main_call6_v1) (broadcastInDim S4096 ![] bcast_S_S4096),
    TRef.binary (TRef.of (T := ⟨S4096, .f32⟩) main_call6_v1) (TRef.of (T := ⟨S4096, .f32⟩) main_call6_v0) (TRef.of (T := ⟨S4096, .f32⟩) main_call6_v2) maximumf,
    TRef.unary (TRef.of (T := ⟨S4096, .f32⟩) main_call6_v2) (TRef.of (T := ⟨S4096x1, .f32⟩) main_call6_v3) (broadcastInDim S4096x1 ![0] bcast_S4096_S4096x1_0),
    TRef.unary (TRef.of (T := ⟨S4096x1, .f32⟩) main_call6_v3) (TRef.of (T := ⟨S4096x40257, .f32⟩) main_call6_v4) (broadcastInDim S4096x40257 ![0, 1] bcast_S4096x1_S4096x40257_0_1),
    TRef.binary (TRef.of (T := ⟨S4096x40257, .f32⟩) main_v51) (TRef.of (T := ⟨S4096x40257, .f32⟩) main_call6_v4) (TRef.of (T := ⟨S4096x40257, .f32⟩) main_call6_v5) subf,
    TRef.unary (TRef.of (T := ⟨S4096x40257, .f32⟩) main_call6_v5) (TRef.of (T := ⟨S4096x40257, .f32⟩) main_call6_v6) Host.exp,
    TRef.nullary (TRef.of (T := ⟨S_, .f32⟩) main_call6_cst_1) (constant S_ .f32 0x00000000#32),
    TRef.binary (TRef.of (T := ⟨S4096x40257, .f32⟩) main_call6_v6) (TRef.of (T := ⟨S_, .f32⟩) main_call6_cst_1) (TRef.of (T := ⟨S4096, .f32⟩) main_call6_v7) (fun x v => Host.reduceAdd x v reducesTo_S4096x40257_S4096_d1 h_S_),
    TRef.unary (TRef.of (T := ⟨S4096, .f32⟩) main_call6_v7) (TRef.of (T := ⟨S4096x1, .f32⟩) main_call6_v8) (broadcastInDim S4096x1 ![0] bcast_S4096_S4096x1_0),
    TRef.unary (TRef.of (T := ⟨S4096x1, .f32⟩) main_call6_v8) (TRef.of (T := ⟨S4096x1, .f32⟩) main_call6_v9) Host.log,
    TRef.unary (TRef.of (T := ⟨S4096x1, .f32⟩) main_call6_v9) (TRef.of (T := ⟨S4096x40257, .f32⟩) main_call6_v10) (broadcastInDim S4096x40257 ![0, 1] bcast_S4096x1_S4096x40257_0_1),
    TRef.binary (TRef.of (T := ⟨S4096x40257, .f32⟩) main_call6_v5) (TRef.of (T := ⟨S4096x40257, .f32⟩) main_call6_v10) (TRef.of (T := ⟨S4096x40257, .f32⟩) main_v52) subf,
    nullary main_c_16 (constantI S_ 32 10000#32),
    unary main_c_16 main_v53 (broadcastInDim S4096 ![] bcast_S_S4096 : (⟨S_, .i32⟩ : BufTy).Contents (Elt F) → (⟨S4096, .i32⟩ : BufTy).Contents (Elt F)),
    binary main_v5 main_v53 main_v54 (subi : (⟨S4096, .i32⟩ : BufTy).Contents (Elt F) → (⟨S4096, .i32⟩ : BufTy).Contents (Elt F) → (⟨S4096, .i32⟩ : BufTy).Contents (Elt F)),
    nullary main_c_17 (constantI S_ 32 0#32),
    nullary main_c_18 (constantI S_ 32 40256#32),
    TRef.unary (TRef.of (T := ⟨S_, .i32⟩) main_c_17) (TRef.of (T := ⟨S_, .i32⟩) main_call7_v0) id,
    TRef.unary (TRef.of (T := ⟨S_, .i32⟩) main_call7_v0) (TRef.of (T := ⟨S4096, .i32⟩) main_call7_v1) (broadcastInDim S4096 ![] bcast_S_S4096),
    TRef.binary (TRef.of (T := ⟨S4096, .i32⟩) main_call7_v1) (TRef.of (T := ⟨S4096, .i32⟩) main_v54) (TRef.of (T := ⟨S4096, .i32⟩) main_call7_v2) maxsi,
    TRef.unary (TRef.of (T := ⟨S_, .i32⟩) main_c_18) (TRef.of (T := ⟨S_, .i32⟩) main_call7_v3) id,
    TRef.unary (TRef.of (T := ⟨S_, .i32⟩) main_call7_v3) (TRef.of (T := ⟨S4096, .i32⟩) main_call7_v4) (broadcastInDim S4096 ![] bcast_S_S4096),
    TRef.binary (TRef.of (T := ⟨S4096, .i32⟩) main_call7_v4) (TRef.of (T := ⟨S4096, .i32⟩) main_call7_v2) (TRef.of (T := ⟨S4096, .i32⟩) main_v55) minsi,
    unary main_v1 main_v56 ((extractStridedSlice S4096x1 ![0, 2001] · slices_S4096x2002_S4096x1_0_2001) : (⟨S4096x2002, .f32⟩ : BufTy).Contents (Elt F) → (⟨S4096x1, .f32⟩ : BufTy).Contents (Elt F)),
    reshape main_v56 main_v57 rfl shapeCasts_S4096x1_S4096,
    nullary main_c_19 (constantI S_ 32 0#32),
    unary main_c_19 main_v58 (broadcastInDim S4096 ![] bcast_S_S4096 : (⟨S_, .i32⟩ : BufTy).Contents (Elt F) → (⟨S4096, .i32⟩ : BufTy).Contents (Elt F)),
    binary main_v2 main_v58 main_v59 (cmpi .slt : (⟨S4096, .i32⟩ : BufTy).Contents (Elt F) → (⟨S4096, .i32⟩ : BufTy).Contents (Elt F) → (⟨S4096, .i1⟩ : BufTy).Contents (Elt F)),
    nullary main_c_20 (constantI S_ 32 4096#32),
    unary main_c_20 main_v60 (broadcastInDim S4096 ![] bcast_S_S4096 : (⟨S_, .i32⟩ : BufTy).Contents (Elt F) → (⟨S4096, .i32⟩ : BufTy).Contents (Elt F)),
    binary main_v2 main_v60 main_v61 (addi : (⟨S4096, .i32⟩ : BufTy).Contents (Elt F) → (⟨S4096, .i32⟩ : BufTy).Contents (Elt F) → (⟨S4096, .i32⟩ : BufTy).Contents (Elt F)),
    ternary main_v59 main_v61 main_v2 main_v62 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_21 (constantI S_ 32 0#32),
    unary main_c_21 main_v63 (broadcastInDim S4096 ![] bcast_S_S4096 : (⟨S_, .i32⟩ : BufTy).Contents (Elt F) → (⟨S4096, .i32⟩ : BufTy).Contents (Elt F)),
    binary main_v55 main_v63 main_v64 (cmpi .slt : (⟨S4096, .i32⟩ : BufTy).Contents (Elt F) → (⟨S4096, .i32⟩ : BufTy).Contents (Elt F) → (⟨S4096, .i1⟩ : BufTy).Contents (Elt F)),
    nullary main_c_22 (constantI S_ 32 40257#32),
    unary main_c_22 main_v65 (broadcastInDim S4096 ![] bcast_S_S4096 : (⟨S_, .i32⟩ : BufTy).Contents (Elt F) → (⟨S4096, .i32⟩ : BufTy).Contents (Elt F)),
    binary main_v55 main_v65 main_v66 (addi : (⟨S4096, .i32⟩ : BufTy).Contents (Elt F) → (⟨S4096, .i32⟩ : BufTy).Contents (Elt F) → (⟨S4096, .i32⟩ : BufTy).Contents (Elt F)),
    ternary main_v64 main_v66 main_v55 main_v67 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v62 main_v68 (broadcastInDim S4096x1 ![0] bcast_S4096_S4096x1_0 : (⟨S4096, .i32⟩ : BufTy).Contents (Elt F) → (⟨S4096x1, .i32⟩ : BufTy).Contents (Elt F)),
    unary main_v67 main_v69 (broadcastInDim S4096x1 ![0] bcast_S4096_S4096x1_0 : (⟨S4096, .i32⟩ : BufTy).Contents (Elt F) → (⟨S4096x1, .i32⟩ : BufTy).Contents (Elt F)) ]

/-- Operations 154 … 172 of @main's 172 (a called function's operations stand in its call's place). -/
abbrev ops3 : List (HloOp τ sig (Elt F)) :=
  [ binary main_v68 main_v69 main_v70 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v52 main_v70 main_v71 ((fun x i => Host.gather gather_S4096x40257_S4096x2_S4096_n_01_n_n_01_1_11 x i) : (⟨S4096x40257, .f32⟩ : BufTy).Contents (Elt F) → (⟨S4096x2, .i32⟩ : BufTy).Contents (Elt F) → (⟨S4096, .f32⟩ : BufTy).Contents (Elt F)),
    binary main_v57 main_v71 main_v72 (addf : (⟨S4096, .f32⟩ : BufTy).Contents (Elt F) → (⟨S4096, .f32⟩ : BufTy).Contents (Elt F) → (⟨S4096, .f32⟩ : BufTy).Contents (Elt F)),
    nullary main_c_23 (constantI S_ 32 10000#32),
    unary main_c_23 main_v73 (broadcastInDim S4096 ![] bcast_S_S4096 : (⟨S_, .i32⟩ : BufTy).Contents (Elt F) → (⟨S4096, .i32⟩ : BufTy).Contents (Elt F)),
    binary main_v5 main_v73 main_v74 (cmpi .sge : (⟨S4096, .i32⟩ : BufTy).Contents (Elt F) → (⟨S4096, .i32⟩ : BufTy).Contents (Elt F) → (⟨S4096, .i1⟩ : BufTy).Contents (Elt F)),
    nullary main_c_24 (constantI S_ 32 50257#32),
    unary main_c_24 main_v75 (broadcastInDim S4096 ![] bcast_S_S4096 : (⟨S_, .i32⟩ : BufTy).Contents (Elt F) → (⟨S4096, .i32⟩ : BufTy).Contents (Elt F)),
    binary main_v5 main_v75 main_v76 (cmpi .slt : (⟨S4096, .i32⟩ : BufTy).Contents (Elt F) → (⟨S4096, .i32⟩ : BufTy).Contents (Elt F) → (⟨S4096, .i1⟩ : BufTy).Contents (Elt F)),
    binary main_v74 main_v76 main_v77 (andi : (⟨S4096, .i1⟩ : BufTy).Contents (Elt F) → (⟨S4096, .i1⟩ : BufTy).Contents (Elt F) → (⟨S4096, .i1⟩ : BufTy).Contents (Elt F)),
    TRef.ternary (TRef.of (T := ⟨S4096, .i1⟩) main_v77) (TRef.of (T := ⟨S4096, .f32⟩) main_v72) (TRef.of (T := ⟨S4096, .f32⟩) main_v49) (TRef.of (T := ⟨S4096, .f32⟩) main_v78) select,
    unary main_v4 main_v79 (uitofp .f32 : (⟨S4096, .i1⟩ : BufTy).Contents (Elt F) → (⟨S4096, .f32⟩ : BufTy).Contents (Elt F)),
    binary main_v78 main_v79 main_v80 (mulf : (⟨S4096, .f32⟩ : BufTy).Contents (Elt F) → (⟨S4096, .f32⟩ : BufTy).Contents (Elt F) → (⟨S4096, .f32⟩ : BufTy).Contents (Elt F)),
    nullary main_cst (constant S_ .f32 0x00000000#32),
    binary main_v80 main_cst main_v81 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    unary main_v81 main_v82 (Host.negf : (⟨S_, .f32⟩ : BufTy).Contents (Elt F) → (⟨S_, .f32⟩ : BufTy).Contents (Elt F)),
    nullary main_cst_25 (constant S_ .f32 0x00000000#32),
    binary main_v79 main_cst_25 main_v83 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    binary main_v82 main_v83 main_v84 (Host.divf : (⟨S_, .f32⟩ : BufTy).Contents (Elt F) → (⟨S_, .f32⟩ : BufTy).Contents (Elt F) → (⟨S_, .f32⟩ : BufTy).Contents (Elt F)) ]

/-- @main's 172 operations, in order. -/
abbrev ops : List (HloOp τ sig (Elt F)) := ops0 ++ (ops1 ++ (ops2 ++ ops3))

set_option maxRecDepth 8192 in
set_option maxHeartbeats 4000000 in
/-- @main runs exactly these operations: both sides are the same right-nested sequence once the called functions'
    bodies are opened and the binds re-associated. -/
theorem main_eq (c : Dev nD) : main (F := F) c = seq ops := by
  simp only [main, main_part0, main_part1, ops, ops0, ops1, ops2, ops3, seq_append, fn_log_softmax.body, fn_where.body, fn_clip.body,
    fn_log_softmax_0.body, fn_where_1.body, fn_log_softmax_2.body, seq, bind_assoc, pure_bind]
  try rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., binary_bufs_sub .., nullary_bufs_sub .., unary_bufs_sub .., unary_bufs_sub .., ternary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem ops0_fresh : (ops0 : List (HloOp τ sig (Elt F))).Forall fun op => op.fresh = ∅ := by
  simp only [List.Forall]; repeat' constructor

set_option maxRecDepth 8192 in
theorem ops1_sub : (ops1 : List (HloOp τ sig (Elt F))).Forall fun op => op.bufs ⊆ tcRefs τ sig :=
  ⟨binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem ops1_fresh : (ops1 : List (HloOp τ sig (Elt F))).Forall fun op => op.fresh = ∅ := by
  simp only [List.Forall]; repeat' constructor

set_option maxRecDepth 8192 in
theorem ops2_sub : (ops2 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., ternary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem ops2_fresh : (ops2 : List (HloOp τ sig (Elt F))).Forall fun op => op.fresh = ∅ := by
  simp only [List.Forall]; repeat' constructor

set_option maxRecDepth 8192 in
theorem ops3_sub : (ops3 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., ternary_bufs_sub .., unary_bufs_sub .., binary_bufs_sub .., nullary_bufs_sub .., binary_bufs_sub .., unary_bufs_sub .., nullary_bufs_sub .., binary_bufs_sub .., binary_bufs_sub ..⟩

theorem ops3_fresh : (ops3 : List (HloOp τ sig (Elt F))).Forall fun op => op.fresh = ∅ := by
  simp only [List.Forall]; repeat' constructor

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h, List.forall_iff_forall_mem.mp ops2_sub op h, List.forall_iff_forall_mem.mp ops3_sub op h]

theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h, List.forall_iff_forall_mem.mp ops2_fresh op h, List.forall_iff_forall_mem.mp ops3_fresh op h]

/-- The contents after two stretches in a row are those after the second from those after the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## A buffer a stretch does not write keeps its contents through it -/

/-- The buffers stretch 0 writes. -/
abbrev wr0 : List (Ref sig .tc) := [main_v0, main_call0_cst, main_call0_v0, main_call0_cst_0, main_call0_v1, main_call0_v2, main_call0_v3, main_call0_v4, main_call0_v5, main_call0_v6, main_call0_cst_1, main_call0_v7, main_call0_v8, main_call0_v9, main_call0_v10, main_v1, main_v2, main_c, main_v3, main_v4, main_c_0, main_call1_v0, main_call1_v1, main_v5, main_c_1, main_c_2, main_call2_v0, main_call2_v1, main_call2_v2, main_call2_v3, main_call2_v4, main_v6, main_c_3, main_v7, main_v8, main_c_4, main_v9, main_v10, main_v11, main_c_5, main_v12, main_v13, main_c_6, main_v14, main_v15, main_v16, main_v17, main_v18]
set_option maxRecDepth 8192 in
theorem ops0_writes : (ops0 : List (HloOp τ sig (Elt F))).Forall fun op => op.writes ⊆ (wr0.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
theorem keep0 (W : Valuation τ sig (Elt F)) (r : Ref sig .tc) (h : r ∉ wr0) :
    after ops0 W (Proc.devRef .tc r) = W (Proc.devRef .tc r) :=
  after_of_writes_sub ops0 W ops0_writes h

/-- The buffers stretch 1 writes. -/
abbrev wr1 : List (Ref sig .tc) := [main_v19, main_v20, main_v21, main_v22, main_call3_cst, main_call3_v0, main_call3_cst_0, main_call3_v1, main_call3_v2, main_call3_v3, main_call3_v4, main_call3_v5, main_call3_v6, main_call3_cst_1, main_call3_v7, main_call3_v8, main_call3_v9, main_call3_v10, main_v23, main_c_7, main_v24, main_v25, main_c_8, main_c_9, main_call4_v0, main_call4_v1, main_call4_v2, main_call4_v3, main_call4_v4, main_v26, main_v27, main_v28, main_c_10, main_v29, main_v30, main_c_11, main_v31, main_v32, main_v33, main_c_12, main_v34, main_v35, main_c_13, main_v36, main_v37, main_v38, main_v39, main_v40]
set_option maxRecDepth 8192 in
theorem ops1_writes : (ops1 : List (HloOp τ sig (Elt F))).Forall fun op => op.writes ⊆ (wr1.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
theorem keep1 (W : Valuation τ sig (Elt F)) (r : Ref sig .tc) (h : r ∉ wr1) :
    after ops1 W (Proc.devRef .tc r) = W (Proc.devRef .tc r) :=
  after_of_writes_sub ops1 W ops1_writes h

/-- The buffers stretch 2 writes. -/
abbrev wr2 : List (Ref sig .tc) := [main_v41, main_v42, main_v43, main_c_14, main_v44, main_v45, main_c_15, main_v46, main_v47, main_v48, main_v49, main_v50, main_v51, main_call6_cst, main_call6_v0, main_call6_cst_0, main_call6_v1, main_call6_v2, main_call6_v3, main_call6_v4, main_call6_v5, main_call6_v6, main_call6_cst_1, main_call6_v7, main_call6_v8, main_call6_v9, main_call6_v10, main_v52, main_c_16, main_v53, main_v54, main_c_17, main_c_18, main_call7_v0, main_call7_v1, main_call7_v2, main_call7_v3, main_call7_v4, main_v55, main_v56, main_v57, main_c_19, main_v58, main_v59, main_c_20, main_v60, main_v61, main_v62, main_c_21, main_v63, main_v64, main_c_22, main_v65, main_v66, main_v67, main_v68, main_v69]
set_option maxRecDepth 8192 in
theorem ops2_writes : (ops2 : List (HloOp τ sig (Elt F))).Forall fun op => op.writes ⊆ (wr2.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
theorem keep2 (W : Valuation τ sig (Elt F)) (r : Ref sig .tc) (h : r ∉ wr2) :
    after ops2 W (Proc.devRef .tc r) = W (Proc.devRef .tc r) :=
  after_of_writes_sub ops2 W ops2_writes h

/-- The buffers stretch 3 writes. -/
abbrev wr3 : List (Ref sig .tc) := [main_v70, main_v71, main_v72, main_c_23, main_v73, main_v74, main_c_24, main_v75, main_v76, main_v77, main_v78, main_v79, main_v80, main_cst, main_v81, main_v82, main_cst_25, main_v83, main_v84]
set_option maxRecDepth 8192 in
theorem ops3_writes : (ops3 : List (HloOp τ sig (Elt F))).Forall fun op => op.writes ⊆ (wr3.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))
theorem keep3 (W : Valuation τ sig (Elt F)) (r : Ref sig .tc) (h : r ∉ wr3) :
    after ops3 W (Proc.devRef .tc r) = W (Proc.devRef .tc r) :=
  after_of_writes_sub ops3 W ops3_writes h

/-- A value carried to a buffer's type and back is itself. -/
theorem ofBuf_toBuf {Val : EltTy → Type} {T : BufTy} (x : TRef sig T) (v : T.Contents Val) : x.ofBuf (x.toBuf v) = v := by
  obtain ⟨r, h, hd, hs⟩ := x; subst h; rfl

/-! ## The values, named -/

/-- The 32-bit word `w` in every one of the 4096 rows. -/
def everyRow (w : BitVec 32) : IVec S4096 32 := broadcastInDim S4096 ![] bcast_S_S4096 (constantI S_ 32 w)

/-- Which rows count: those whose label is not `-1`. -/
def counted (lab : IVec S4096 32) : IVec S4096 1 := cmpi .ne lab (everyRow 4294967295#32)

/-- The labels with the uncounted rows' `-1` replaced by class 0. -/
def safeLabels (lab : IVec S4096 32) : IVec S4096 32 := select (counted lab) lab (everyRow 0#32)

/-- `x` clamped to `lo … hi`, row by row. -/
def clampRows (lo hi : BitVec 32) (x : IVec S4096 32) : IVec S4096 32 := minsi (everyRow hi) (maxsi (everyRow lo) x)

/-- An index counted from the end of an axis of length `n` when it is negative. -/
def fromEnd (n : BitVec 32) (x : IVec S4096 32) : IVec S4096 32 := select (cmpi .slt x (everyRow 0#32)) (addi x (everyRow n)) x

/-- A value per row as a one-column table. -/
def asColumn {α : Type} (x : S4096.Idx → α) : S4096x1.Idx → α := broadcastInDim S4096x1 ![0] bcast_S4096_S4096x1_0 x

/-- The rows' numbers 0 … 4095. -/
def rowIds : IVec S4096 32 := iotaInDim S4096 32 0

/-- The column of class indices `k` into an axis of length `n`. -/
def classColumn (n : BitVec 32) (k : IVec S4096 32) : IVec S4096x1 32 := asColumn (fromEnd n k)

/-- The (row, class) index pairs from their two columns. -/
def rowCol (r k : IVec S4096x1 32) : IVec S4096x2 32 :=
  concatenate S4096x2 1 [⟨S4096x1, r⟩, ⟨S4096x1, k⟩] concatenates_S4096x1_S4096x1_S4096x2_d1

/-- Which rows' labels lie in `lo ≤ · < hi`. -/
def inBand (lo hi : BitVec 32) (k : IVec S4096 32) : IVec S4096 1 := andi (cmpi .sge k (everyRow lo)) (cmpi .slt k (everyRow hi))

/-- Row-wise log-softmax of a table of 4096 rows, `x − max − log ∑ exp (x − max)`, the row maximum taken against −∞ first;
    `spread` repeats a column along the rows, `rowMax` and `rowSum` reduce a table along its rows. -/
def logSoftmaxVia {S : Shape} (spread : FVec F S4096x1 .f32 → FVec F S .f32) (rowMax rowSum : FVec F S .f32 → FVec F S4096 .f32)
    (x : FVec F S .f32) : FVec F S .f32 :=
  subf (subf x (spread (asColumn (maximumf (broadcastInDim S4096 ![] bcast_S_S4096 (constant S_ .f32 0xFF800000#32)) (rowMax x)))))
    (spread (Host.log (asColumn (rowSum (Host.exp (subf x (spread (asColumn (maximumf (broadcastInDim S4096 ![] bcast_S_S4096 (constant S_ .f32 0xFF800000#32)) (rowMax x))))))))))

/-- The head's log-probabilities: 2000 shortlist classes and the two clusters. -/
def headTable (a0 : FVec F S4096x1024 .f32) (a2 : FVec F S2002x1024 .f32) : FVec F S4096x2002 .f32 :=
  logSoftmaxVia (broadcastInDim S4096x2002 ![0, 1] bcast_S4096x1_S4096x2002_0_1)
    (fun x => Host.reduce FloatOps.maximumf x (constant S_ .f32 0xFF800000#32) reducesTo_S4096x2002_S4096_d1 h_S_)
    (fun x => Host.reduceAdd x (constant S_ .f32 0x00000000#32) reducesTo_S4096x2002_S4096_d1 h_S_)
    (Host.dotGeneral dot_S4096x1024_S2002x1024_S4096x2002_1_1_0_0_n_n none a0 a2)

/-- The first tail cluster's log-probabilities (8000 classes, through a projection to 256). -/
def tail1Table (a0 : FVec F S4096x1024 .f32) (a3 : FVec F S256x1024 .f32) (a4 : FVec F S8000x256 .f32) : FVec F S4096x8000 .f32 :=
  logSoftmaxVia (broadcastInDim S4096x8000 ![0, 1] bcast_S4096x1_S4096x8000_0_1)
    (fun x => Host.reduce FloatOps.maximumf x (constant S_ .f32 0xFF800000#32) reducesTo_S4096x8000_S4096_d1 h_S_)
    (fun x => Host.reduceAdd x (constant S_ .f32 0x00000000#32) reducesTo_S4096x8000_S4096_d1 h_S_)
    (Host.dotGeneral dot_S4096x256_S8000x256_S4096x8000_1_1_0_0_n_n none
      (Host.dotGeneral dot_S4096x1024_S256x1024_S4096x256_1_1_0_0_n_n none a0 a3) a4)

/-- The second tail cluster's log-probabilities (40257 classes, through a projection to 64). -/
def tail2Table (a0 : FVec F S4096x1024 .f32) (a5 : FVec F S64x1024 .f32) (a6 : FVec F S40257x64 .f32) : FVec F S4096x40257 .f32 :=
  logSoftmaxVia (broadcastInDim S4096x40257 ![0, 1] bcast_S4096x1_S4096x40257_0_1)
    (fun x => Host.reduce FloatOps.maximumf x (constant S_ .f32 0xFF800000#32) reducesTo_S4096x40257_S4096_d1 h_S_)
    (fun x => Host.reduceAdd x (constant S_ .f32 0x00000000#32) reducesTo_S4096x40257_S4096_d1 h_S_)
    (Host.dotGeneral dot_S4096x64_S40257x64_S4096x40257_1_1_0_0_n_n none
      (Host.dotGeneral dot_S4096x1024_S64x1024_S4096x64_1_1_0_0_n_n none a0 a5) a6)

/-- The head's entry for the first cluster (column 2000), per row. -/
def cluster1Logit (h : FVec F S4096x2002 .f32) : FVec F S4096 .f32 :=
  shapeCast S4096 (extractStridedSlice S4096x1 ![0, 2000] h slices_S4096x2002_S4096x1_0_2000) shapeCasts_S4096x1_S4096

/-- The head's entry for the second cluster (column 2001), per row. -/
def cluster2Logit (h : FVec F S4096x2002 .f32) : FVec F S4096 .f32 :=
  shapeCast S4096 (extractStridedSlice S4096x1 ![0, 2001] h slices_S4096x2002_S4096x1_0_2001) shapeCasts_S4096x1_S4096

/-- Minus the sum of the counted rows' log-probabilities over the number of counted rows. -/
def meanLoss (picked : FVec F S4096 .f32) (cnt : IVec S4096 1) : FVec F S_ .f32 :=
  Host.divf (Host.negf (Host.reduceAdd (mulf picked (uitofp (F := F) .f32 cnt)) (constant S_ .f32 0x00000000#32) reducesTo_S4096_S_d0 h_S_))
    (Host.reduceAdd (uitofp (F := F) .f32 cnt) (constant S_ .f32 0x00000000#32) reducesTo_S4096_S_d0 h_S_)

/-! ## What each stretch computes, from any contents `W` it starts on -/

section Stretches

variable (W : Valuation τ sig (Elt F))

set_option maxRecDepth 2048 in
set_option maxHeartbeats 2000000 in
theorem head_of : after ops0 W (Proc.devRef .tc main_v1) = headTable (W (Proc.devRef .tc main_arg0)) (W (Proc.devRef .tc main_arg2)) := by
  simp only [ops0]; after_results_simp
  try simp only [ofBuf_toBuf]
  refine (eq_of_heq (cast_heq _ _)).trans ?_
  rfl
set_option maxRecDepth 2048 in
set_option maxHeartbeats 2000000 in
theorem rowIds_of : after ops0 W (Proc.devRef .tc main_v2) = rowIds := by
  simp only [ops0]; after_results_simp <;> (try simp only [ofBuf_toBuf]) <;> rfl
set_option maxRecDepth 2048 in
set_option maxHeartbeats 2000000 in
theorem counted_of : after ops0 W (Proc.devRef .tc main_v4) = counted (W (Proc.devRef .tc main_arg1)) := by
  simp only [ops0]; after_results_simp <;> (try simp only [ofBuf_toBuf]) <;> rfl
set_option maxRecDepth 2048 in
set_option maxHeartbeats 2000000 in
theorem labels_of : after ops0 W (Proc.devRef .tc main_v5) = safeLabels (W (Proc.devRef .tc main_arg1)) := by
  simp only [ops0]; after_results_simp
  try simp only [ofBuf_toBuf]
  refine (eq_of_heq (cast_heq _ _)).trans ?_
  rfl
set_option maxRecDepth 2048 in
set_option maxHeartbeats 2000000 in
theorem shortRows_of : after ops0 W (Proc.devRef .tc main_v17) = asColumn (fromEnd 4096#32 rowIds) := by
  simp only [ops0]; after_results_simp <;> (try simp only [ofBuf_toBuf]) <;> rfl
set_option maxRecDepth 2048 in
set_option maxHeartbeats 2000000 in
theorem shortClasses_of : after ops0 W (Proc.devRef .tc main_v18)
    = classColumn 2002#32 (clampRows 0#32 1999#32 (safeLabels (W (Proc.devRef .tc main_arg1)))) := by
  simp only [ops0]; after_results_simp <;> (try simp only [ofBuf_toBuf]) <;> rfl

set_option maxRecDepth 2048 in
set_option maxHeartbeats 2000000 in
theorem shortPick_of : after ops1 W (Proc.devRef .tc main_v20)
    = Host.gather gather_S4096x2002_S4096x2_S4096_n_01_n_n_01_1_11 (W (Proc.devRef .tc main_v1)) (rowCol (W (Proc.devRef .tc main_v17)) (W (Proc.devRef .tc main_v18))) := by
  simp only [ops1]; after_results_simp <;> (try simp only [ofBuf_toBuf]) <;> rfl
set_option maxRecDepth 2048 in
set_option maxHeartbeats 2000000 in
theorem tail1_of : after ops1 W (Proc.devRef .tc main_v23)
    = tail1Table (W (Proc.devRef .tc main_arg0)) (W (Proc.devRef .tc main_arg3)) (W (Proc.devRef .tc main_arg4)) := by
  simp only [ops1]; after_results_simp
  try simp only [ofBuf_toBuf]
  refine (eq_of_heq (cast_heq _ _)).trans ?_
  rfl
set_option maxRecDepth 2048 in
set_option maxHeartbeats 2000000 in
theorem cluster1_of : after ops1 W (Proc.devRef .tc main_v28) = cluster1Logit (W (Proc.devRef .tc main_v1)) := by
  simp only [ops1]; after_results_simp <;> (try simp only [ofBuf_toBuf]) <;> rfl
set_option maxRecDepth 2048 in
set_option maxHeartbeats 2000000 in
theorem tail1Rows_of : after ops1 W (Proc.devRef .tc main_v39) = asColumn (fromEnd 4096#32 (W (Proc.devRef .tc main_v2))) := by
  simp only [ops1]; after_results_simp <;> (try simp only [ofBuf_toBuf]) <;> rfl
set_option maxRecDepth 2048 in
set_option maxHeartbeats 2000000 in
theorem tail1Classes_of : after ops1 W (Proc.devRef .tc main_v40)
    = classColumn 8000#32 (clampRows 0#32 7999#32 (subi (W (Proc.devRef .tc main_v5)) (everyRow 2000#32))) := by
  simp only [ops1]; after_results_simp <;> (try simp only [ofBuf_toBuf]) <;> rfl
set_option maxRecDepth 2048 in
set_option maxHeartbeats 2000000 in
theorem upToTail1_of : after ops2 W (Proc.devRef .tc main_v49)
    = select (inBand 2000#32 10000#32 (W (Proc.devRef .tc main_v5)))
        (addf (W (Proc.devRef .tc main_v28)) (Host.gather gather_S4096x8000_S4096x2_S4096_n_01_n_n_01_1_11 (W (Proc.devRef .tc main_v23)) (rowCol (W (Proc.devRef .tc main_v39)) (W (Proc.devRef .tc main_v40)))))
        (W (Proc.devRef .tc main_v20)) := by
  simp only [ops2]; after_results_simp
  try simp only [ofBuf_toBuf]
  refine (eq_of_heq (cast_heq _ _)).trans ?_
  rfl
set_option maxRecDepth 2048 in
set_option maxHeartbeats 2000000 in
theorem tail2_of : after ops2 W (Proc.devRef .tc main_v52)
    = tail2Table (W (Proc.devRef .tc main_arg0)) (W (Proc.devRef .tc main_arg5)) (W (Proc.devRef .tc main_arg6)) := by
  simp only [ops2]; after_results_simp
  try simp only [ofBuf_toBuf]
  refine (eq_of_heq (cast_heq _ _)).trans ?_
  rfl
set_option maxRecDepth 2048 in
set_option maxHeartbeats 2000000 in
theorem cluster2_of : after ops2 W (Proc.devRef .tc main_v57) = cluster2Logit (W (Proc.devRef .tc main_v1)) := by
  simp only [ops2]; after_results_simp <;> (try simp only [ofBuf_toBuf]) <;> rfl
set_option maxRecDepth 2048 in
set_option maxHeartbeats 2000000 in
theorem tail2Rows_of : after ops2 W (Proc.devRef .tc main_v68) = asColumn (fromEnd 4096#32 (W (Proc.devRef .tc main_v2))) := by
  simp only [ops2]; after_results_simp <;> (try simp only [ofBuf_toBuf]) <;> rfl
set_option maxRecDepth 2048 in
set_option maxHeartbeats 2000000 in
theorem tail2Classes_of : after ops2 W (Proc.devRef .tc main_v69)
    = classColumn 40257#32 (clampRows 0#32 40256#32 (subi (W (Proc.devRef .tc main_v5)) (everyRow 10000#32))) := by
  simp only [ops2]; after_results_simp <;> (try simp only [ofBuf_toBuf]) <;> rfl
set_option maxRecDepth 2048 in
set_option maxHeartbeats 2000000 in
theorem loss_of : after ops3 W (Proc.devRef .tc main_v84)
    = meanLoss (select (inBand 10000#32 50257#32 (W (Proc.devRef .tc main_v5)))
        (addf (W (Proc.devRef .tc main_v57)) (Host.gather gather_S4096x40257_S4096x2_S4096_n_01_n_n_01_1_11 (W (Proc.devRef .tc main_v52)) (rowCol (W (Proc.devRef .tc main_v68)) (W (Proc.devRef .tc main_v69)))))
        (W (Proc.devRef .tc main_v49))) (W (Proc.devRef .tc main_v4)) := by
  simp only [ops3]; after_results_simp <;> (try simp only [ofBuf_toBuf]) <;> rfl

end Stretches

/-! ## The four stretches composed -/

set_option maxRecDepth 2048 in
set_option maxHeartbeats 4000000 in
/-- The result after all of @main, from launch contents `V`: the loss over the three-way choice of each row's
    log-probability (the shortlist entry; the first cluster's head entry plus the label's entry in that cluster; the
    same for the second cluster). -/
theorem result_of (V : Valuation τ sig (Elt F)) : after ops V (Proc.devRef .tc main_v84)
    = meanLoss (select (inBand 10000#32 50257#32 (safeLabels (V (Proc.devRef .tc main_arg1))))
        (addf (cluster2Logit (headTable (V (Proc.devRef .tc main_arg0)) (V (Proc.devRef .tc main_arg2))))
          (Host.gather gather_S4096x40257_S4096x2_S4096_n_01_n_n_01_1_11
            (tail2Table (V (Proc.devRef .tc main_arg0)) (V (Proc.devRef .tc main_arg5)) (V (Proc.devRef .tc main_arg6)))
            (rowCol (asColumn (fromEnd 4096#32 rowIds))
              (classColumn 40257#32 (clampRows 0#32 40256#32 (subi (safeLabels (V (Proc.devRef .tc main_arg1))) (everyRow 10000#32)))))))
        (select (inBand 2000#32 10000#32 (safeLabels (V (Proc.devRef .tc main_arg1))))
          (addf (cluster1Logit (headTable (V (Proc.devRef .tc main_arg0)) (V (Proc.devRef .tc main_arg2))))
            (Host.gather gather_S4096x8000_S4096x2_S4096_n_01_n_n_01_1_11
              (tail1Table (V (Proc.devRef .tc main_arg0)) (V (Proc.devRef .tc main_arg3)) (V (Proc.devRef .tc main_arg4)))
              (rowCol (asColumn (fromEnd 4096#32 rowIds))
                (classColumn 8000#32 (clampRows 0#32 7999#32 (subi (safeLabels (V (Proc.devRef .tc main_arg1))) (everyRow 2000#32)))))))
          (Host.gather gather_S4096x2002_S4096x2_S4096_n_01_n_n_01_1_11
            (headTable (V (Proc.devRef .tc main_arg0)) (V (Proc.devRef .tc main_arg2)))
            (rowCol (asColumn (fromEnd 4096#32 rowIds))
              (classColumn 2002#32 (clampRows 0#32 1999#32 (safeLabels (V (Proc.devRef .tc main_arg1)))))))))
      (counted (V (Proc.devRef .tc main_arg1))) := by
  simp only [ops, after_app]
  rw [loss_of]
  rw [keep2 _ main_v5 (by decide), cluster2_of, tail2_of, tail2Rows_of, tail2Classes_of, upToTail1_of, keep2 _ main_v4 (by decide)]
  rw [keep1 _ main_v5 (by decide), keep1 _ main_v1 (by decide), keep1 _ main_arg0 (by decide), keep1 _ main_arg5 (by decide), keep1 _ main_arg6 (by decide), keep1 _ main_v2 (by decide),
    cluster1_of, tail1_of, tail1Rows_of, tail1Classes_of, shortPick_of, keep1 _ main_v4 (by decide)]
  rw [labels_of, head_of, keep0 _ main_arg0 (by decide), keep0 _ main_arg5 (by decide), keep0 _ main_arg6 (by decide), rowIds_of, keep0 _ main_arg3 (by decide), keep0 _ main_arg4 (by decide),
    shortRows_of, shortClasses_of, counted_of]

/-- An argument no operation writes ends as launched. -/
theorem kept (V : Valuation τ sig (Elt F)) (r : Ref sig .tc) (h0 : r ∉ wr0) (h1 : r ∉ wr1) (h2 : r ∉ wr2) (h3 : r ∉ wr3) :
    after ops V (Proc.devRef .tc r) = V (Proc.devRef .tc r) := by
  simp only [ops, after_app]
  rw [keep3 _ r h3, keep2 _ r h2, keep1 _ r h1, keep0 _ r h0]

/-! ## The run -/

set_option maxRecDepth 8192 in
/-- `main_v84`'s composed term of the arguments (named: it is long). -/
def res84 (m : (ℓ : Loc nD τ sig) → Buf (Elt F) ℓ) (c : Dev nD) : Buf (Elt F) ((c.tc : Thread nD τ).loc main_v84) :=
  Host.divf (Host.negf (Host.reduceAdd (mulf (select (andi (cmpi .sge (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 10000#32))) (cmpi .slt (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 50257#32)))) (addf (shapeCast _ (extractStridedSlice S4096x1 ![0, 2001] (subf (subf (Host.dotGeneral dot_S4096x1024_S2002x1024_S4096x2002_1_1_0_0_n_n none (m ((c.tc : Thread nD τ).loc main_arg0)) (m ((c.tc : Thread nD τ).loc main_arg2))) (broadcastInDim S4096x2002 ![0, 1] bcast_S4096x1_S4096x2002_0_1 (broadcastInDim S4096x1 ![0] bcast_S4096_S4096x1_0 (maximumf (broadcastInDim S4096 ![] bcast_S_S4096 (constant S_ .f32 0xFF800000#32)) (Host.reduce FloatOps.maximumf (Host.dotGeneral dot_S4096x1024_S2002x1024_S4096x2002_1_1_0_0_n_n none (m ((c.tc : Thread nD τ).loc main_arg0)) (m ((c.tc : Thread nD τ).loc main_arg2))) (constant S_ .f32 0xFF800000#32) reducesTo_S4096x2002_S4096_d1 h_S_))))) (broadcastInDim S4096x2002 ![0, 1] bcast_S4096x1_S4096x2002_0_1 (Host.log (broadcastInDim S4096x1 ![0] bcast_S4096_S4096x1_0 (Host.reduceAdd (Host.exp (subf (Host.dotGeneral dot_S4096x1024_S2002x1024_S4096x2002_1_1_0_0_n_n none (m ((c.tc : Thread nD τ).loc main_arg0)) (m ((c.tc : Thread nD τ).loc main_arg2))) (broadcastInDim S4096x2002 ![0, 1] bcast_S4096x1_S4096x2002_0_1 (broadcastInDim S4096x1 ![0] bcast_S4096_S4096x1_0 (maximumf (broadcastInDim S4096 ![] bcast_S_S4096 (constant S_ .f32 0xFF800000#32)) (Host.reduce FloatOps.maximumf (Host.dotGeneral dot_S4096x1024_S2002x1024_S4096x2002_1_1_0_0_n_n none (m ((c.tc : Thread nD τ).loc main_arg0)) (m ((c.tc : Thread nD τ).loc main_arg2))) (constant S_ .f32 0xFF800000#32) reducesTo_S4096x2002_S4096_d1 h_S_)))))) (constant S_ .f32 0x00000000#32) reducesTo_S4096x2002_S4096_d1 h_S_))))) slices_S4096x2002_S4096x1_0_2001) shapeCasts_S4096x1_S4096) (Host.gather gather_S4096x40257_S4096x2_S4096_n_01_n_n_01_1_11 (subf (subf (Host.dotGeneral dot_S4096x64_S40257x64_S4096x40257_1_1_0_0_n_n none (Host.dotGeneral dot_S4096x1024_S64x1024_S4096x64_1_1_0_0_n_n none (m ((c.tc : Thread nD τ).loc main_arg0)) (m ((c.tc : Thread nD τ).loc main_arg5))) (m ((c.tc : Thread nD τ).loc main_arg6))) (broadcastInDim S4096x40257 ![0, 1] bcast_S4096x1_S4096x40257_0_1 (broadcastInDim S4096x1 ![0] bcast_S4096_S4096x1_0 (maximumf (broadcastInDim S4096 ![] bcast_S_S4096 (constant S_ .f32 0xFF800000#32)) (Host.reduce FloatOps.maximumf (Host.dotGeneral dot_S4096x64_S40257x64_S4096x40257_1_1_0_0_n_n none (Host.dotGeneral dot_S4096x1024_S64x1024_S4096x64_1_1_0_0_n_n none (m ((c.tc : Thread nD τ).loc main_arg0)) (m ((c.tc : Thread nD τ).loc main_arg5))) (m ((c.tc : Thread nD τ).loc main_arg6))) (constant S_ .f32 0xFF800000#32) reducesTo_S4096x40257_S4096_d1 h_S_))))) (broadcastInDim S4096x40257 ![0, 1] bcast_S4096x1_S4096x40257_0_1 (Host.log (broadcastInDim S4096x1 ![0] bcast_S4096_S4096x1_0 (Host.reduceAdd (Host.exp (subf (Host.dotGeneral dot_S4096x64_S40257x64_S4096x40257_1_1_0_0_n_n none (Host.dotGeneral dot_S4096x1024_S64x1024_S4096x64_1_1_0_0_n_n none (m ((c.tc : Thread nD τ).loc main_arg0)) (m ((c.tc : Thread nD τ).loc main_arg5))) (m ((c.tc : Thread nD τ).loc main_arg6))) (broadcastInDim S4096x40257 ![0, 1] bcast_S4096x1_S4096x40257_0_1 (broadcastInDim S4096x1 ![0] bcast_S4096_S4096x1_0 (maximumf (broadcastInDim S4096 ![] bcast_S_S4096 (constant S_ .f32 0xFF800000#32)) (Host.reduce FloatOps.maximumf (Host.dotGeneral dot_S4096x64_S40257x64_S4096x40257_1_1_0_0_n_n none (Host.dotGeneral dot_S4096x1024_S64x1024_S4096x64_1_1_0_0_n_n none (m ((c.tc : Thread nD τ).loc main_arg0)) (m ((c.tc : Thread nD τ).loc main_arg5))) (m ((c.tc : Thread nD τ).loc main_arg6))) (constant S_ .f32 0xFF800000#32) reducesTo_S4096x40257_S4096_d1 h_S_)))))) (constant S_ .f32 0x00000000#32) reducesTo_S4096x40257_S4096_d1 h_S_))))) (concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)))⟩, ⟨S4096x1, (broadcastInDim S4096x1 ![0] bcast_S4096_S4096x1_0 (select (cmpi .slt (minsi (broadcastInDim S4096 ![] bcast_S_S4096 (id (constantI S_ 32 40256#32))) (maxsi (broadcastInDim S4096 ![] bcast_S_S4096 (id (constantI S_ 32 0#32))) (subi (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 10000#32))))) (broadcastInDim S4096 ![] bcast_S_S4096 (constantI S_ 32 0#32))) (addi (minsi (broadcastInDim S4096 ![] bcast_S_S4096 (id (constantI S_ 32 40256#32))) (maxsi (broadcastInDim S4096 ![] bcast_S_S4096 (id (constantI S_ 32 0#32))) (subi (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 10000#32))))) (broadcastInDim S4096 ![] bcast_S_S4096 (constantI S_ 32 40257#32))) (minsi (broadcastInDim S4096 ![] bcast_S_S4096 (id (constantI S_ 32 40256#32))) (maxsi (broadcastInDim S4096 ![] bcast_S_S4096 (id (constantI S_ 32 0#32))) (subi (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 10000#32)))))))⟩] concatenates_S4096x1_S4096x1_S4096x2_d1))) (select (andi (cmpi .sge (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 2000#32))) (cmpi .slt (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 10000#32)))) (addf (shapeCast _ (extractStridedSlice S4096x1 ![0, 2000] (subf (subf (Host.dotGeneral dot_S4096x1024_S2002x1024_S4096x2002_1_1_0_0_n_n none (m ((c.tc : Thread nD τ).loc main_arg0)) (m ((c.tc : Thread nD τ).loc main_arg2))) (broadcastInDim S4096x2002 ![0, 1] bcast_S4096x1_S4096x2002_0_1 (broadcastInDim S4096x1 ![0] bcast_S4096_S4096x1_0 (maximumf (broadcastInDim S4096 ![] bcast_S_S4096 (constant S_ .f32 0xFF800000#32)) (Host.reduce FloatOps.maximumf (Host.dotGeneral dot_S4096x1024_S2002x1024_S4096x2002_1_1_0_0_n_n none (m ((c.tc : Thread nD τ).loc main_arg0)) (m ((c.tc : Thread nD τ).loc main_arg2))) (constant S_ .f32 0xFF800000#32) reducesTo_S4096x2002_S4096_d1 h_S_))))) (broadcastInDim S4096x2002 ![0, 1] bcast_S4096x1_S4096x2002_0_1 (Host.log (broadcastInDim S4096x1 ![0] bcast_S4096_S4096x1_0 (Host.reduceAdd (Host.exp (subf (Host.dotGeneral dot_S4096x1024_S2002x1024_S4096x2002_1_1_0_0_n_n none (m ((c.tc : Thread nD τ).loc main_arg0)) (m ((c.tc : Thread nD τ).loc main_arg2))) (broadcastInDim S4096x2002 ![0, 1] bcast_S4096x1_S4096x2002_0_1 (broadcastInDim S4096x1 ![0] bcast_S4096_S4096x1_0 (maximumf (broadcastInDim S4096 ![] bcast_S_S4096 (constant S_ .f32 0xFF800000#32)) (Host.reduce FloatOps.maximumf (Host.dotGeneral dot_S4096x1024_S2002x1024_S4096x2002_1_1_0_0_n_n none (m ((c.tc : Thread nD τ).loc main_arg0)) (m ((c.tc : Thread nD τ).loc main_arg2))) (constant S_ .f32 0xFF800000#32) reducesTo_S4096x2002_S4096_d1 h_S_)))))) (constant S_ .f32 0x00000000#32) reducesTo_S4096x2002_S4096_d1 h_S_))))) slices_S4096x2002_S4096x1_0_2000) shapeCasts_S4096x1_S4096) (Host.gather gather_S4096x8000_S4096x2_S4096_n_01_n_n_01_1_11 (subf (subf (Host.dotGeneral dot_S4096x256_S8000x256_S4096x8000_1_1_0_0_n_n none (Host.dotGeneral dot_S4096x1024_S256x1024_S4096x256_1_1_0_0_n_n none (m ((c.tc : Thread nD τ).loc main_arg0)) (m ((c.tc : Thread nD τ).loc main_arg3))) (m ((c.tc : Thread nD τ).loc main_arg4))) (broadcastInDim S4096x8000 ![0, 1] bcast_S4096x1_S4096x8000_0_1 (broadcastInDim S4096x1 ![0] bcast_S4096_S4096x1_0 (maximumf (broadcastInDim S4096 ![] bcast_S_S4096 (constant S_ .f32 0xFF800000#32)) (Host.reduce FloatOps.maximumf (Host.dotGeneral dot_S4096x256_S8000x256_S4096x8000_1_1_0_0_n_n none (Host.dotGeneral dot_S4096x1024_S256x1024_S4096x256_1_1_0_0_n_n none (m ((c.tc : Thread nD τ).loc main_arg0)) (m ((c.tc : Thread nD τ).loc main_arg3))) (m ((c.tc : Thread nD τ).loc main_arg4))) (constant S_ .f32 0xFF800000#32) reducesTo_S4096x8000_S4096_d1 h_S_))))) (broadcastInDim S4096x8000 ![0, 1] bcast_S4096x1_S4096x8000_0_1 (Host.log (broadcastInDim S4096x1 ![0] bcast_S4096_S4096x1_0 (Host.reduceAdd (Host.exp (subf (Host.dotGeneral dot_S4096x256_S8000x256_S4096x8000_1_1_0_0_n_n none (Host.dotGeneral dot_S4096x1024_S256x1024_S4096x256_1_1_0_0_n_n none (m ((c.tc : Thread nD τ).loc main_arg0)) (m ((c.tc : Thread nD τ).loc main_arg3))) (m ((c.tc : Thread nD τ).loc main_arg4))) (broadcastInDim S4096x8000 ![0, 1] bcast_S4096x1_S4096x8000_0_1 (broadcastInDim S4096x1 ![0] bcast_S4096_S4096x1_0 (maximumf (broadcastInDim S4096 ![] bcast_S_S4096 (constant S_ .f32 0xFF800000#32)) (Host.reduce FloatOps.maximumf (Host.dotGeneral dot_S4096x256_S8000x256_S4096x8000_1_1_0_0_n_n none (Host.dotGeneral dot_S4096x1024_S256x1024_S4096x256_1_1_0_0_n_n none (m ((c.tc : Thread nD τ).loc main_arg0)) (m ((c.tc : Thread nD τ).loc main_arg3))) (m ((c.tc : Thread nD τ).loc main_arg4))) (constant S_ .f32 0xFF800000#32) reducesTo_S4096x8000_S4096_d1 h_S_)))))) (constant S_ .f32 0x00000000#32) reducesTo_S4096x8000_S4096_d1 h_S_))))) (concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)))⟩, ⟨S4096x1, (broadcastInDim S4096x1 ![0] bcast_S4096_S4096x1_0 (select (cmpi .slt (minsi (broadcastInDim S4096 ![] bcast_S_S4096 (id (constantI S_ 32 7999#32))) (maxsi (broadcastInDim S4096 ![] bcast_S_S4096 (id (constantI S_ 32 0#32))) (subi (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 2000#32))))) (broadcastInDim S4096 ![] bcast_S_S4096 (constantI S_ 32 0#32))) (addi (minsi (broadcastInDim S4096 ![] bcast_S_S4096 (id (constantI S_ 32 7999#32))) (maxsi (broadcastInDim S4096 ![] bcast_S_S4096 (id (constantI S_ 32 0#32))) (subi (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 2000#32))))) (broadcastInDim S4096 ![] bcast_S_S4096 (constantI S_ 32 8000#32))) (minsi (broadcastInDim S4096 ![] bcast_S_S4096 (id (constantI S_ 32 7999#32))) (maxsi (broadcastInDim S4096 ![] bcast_S_S4096 (id (constantI S_ 32 0#32))) (subi (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))) (broadcastInDim S4096 ![] bcast_S_S4096 (constantI S_ 32 2000#32)))))))⟩] concatenates_S4096x1_S4096x1_S4096x2_d1))) (Host.gather gather_S4096x2002_S4096x2_S4096_n_01_n_n_01_1_11 (subf (subf (Host.dotGeneral dot_S4096x1024_S2002x1024_S4096x2002_1_1_0_0_n_n none (m ((c.tc : Thread nD τ).loc main_arg0)) (m ((c.tc : Thread nD τ).loc main_arg2))) (broadcastInDim S4096x2002 ![0, 1] bcast_S4096x1_S4096x2002_0_1 (broadcastInDim S4096x1 ![0] bcast_S4096_S4096x1_0 (maximumf (broadcastInDim S4096 ![] bcast_S_S4096 (constant S_ .f32 0xFF800000#32)) (Host.reduce FloatOps.maximumf (Host.dotGeneral dot_S4096x1024_S2002x1024_S4096x2002_1_1_0_0_n_n none (m ((c.tc : Thread nD τ).loc main_arg0)) (m ((c.tc : Thread nD τ).loc main_arg2))) (constant S_ .f32 0xFF800000#32) reducesTo_S4096x2002_S4096_d1 h_S_))))) (broadcastInDim S4096x2002 ![0, 1] bcast_S4096x1_S4096x2002_0_1 (Host.log (broadcastInDim S4096x1 ![0] bcast_S4096_S4096x1_0 (Host.reduceAdd (Host.exp (subf (Host.dotGeneral dot_S4096x1024_S2002x1024_S4096x2002_1_1_0_0_n_n none (m ((c.tc : Thread nD τ).loc main_arg0)) (m ((c.tc : Thread nD τ).loc main_arg2))) (broadcastInDim S4096x2002 ![0, 1] bcast_S4096x1_S4096x2002_0_1 (broadcastInDim S4096x1 ![0] bcast_S4096_S4096x1_0 (maximumf (broadcastInDim S4096 ![] bcast_S_S4096 (constant S_ .f32 0xFF800000#32)) (Host.reduce FloatOps.maximumf (Host.dotGeneral dot_S4096x1024_S2002x1024_S4096x2002_1_1_0_0_n_n none (m ((c.tc : Thread nD τ).loc main_arg0)) (m ((c.tc : Thread nD τ).loc main_arg2))) (constant S_ .f32 0xFF800000#32) reducesTo_S4096x2002_S4096_d1 h_S_)))))) (constant S_ .f32 0x00000000#32) reducesTo_S4096x2002_S4096_d1 h_S_))))) (concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)))⟩, ⟨S4096x1, (broadcastInDim S4096x1 ![0] bcast_S4096_S4096x1_0 (select (cmpi .slt (minsi (broadcastInDim S4096 ![] bcast_S_S4096 (id (constantI S_ 32 1999#32))) (maxsi (broadcastInDim S4096 ![] bcast_S_S4096 (id (constantI S_ 32 0#32))) (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))))) (broadcastInDim S4096 ![] bcast_S_S4096 (constantI S_ 32 0#32))) (addi (minsi (broadcastInDim S4096 ![] bcast_S_S4096 (id (constantI S_ 32 1999#32))) (maxsi (broadcastInDim S4096 ![] bcast_S_S4096 (id (constantI S_ 32 0#32))) (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32)))))) (broadcastInDim S4096 ![] bcast_S_S4096 (constantI S_ 32 2002#32))) (minsi (broadcastInDim S4096 ![] bcast_S_S4096 (id (constantI S_ 32 1999#32))) (maxsi (broadcastInDim S4096 ![] bcast_S_S4096 (id (constantI S_ 32 0#32))) (select (cmpi .ne (m ((c.tc : Thread nD τ).loc main_arg1)) (broadcastInDim S4096 ![] bcast_S_S4096 (constantI S_ 32 4294967295#32))) (m ((c.tc : Thread nD τ).loc main_arg1)) (broadcastInDim S4096 ![] bcast_S_S4096 (id (constantI S_ 32 0#32))))))))⟩] concatenates_S4096x1_S4096x1_S4096x2_d1)))) (uitofp .f32 (cmpi .ne (m ((c.tc : Thread nD τ).loc main_arg1)) (broadcastInDim S4096 ![] bcast_S_S4096 (constantI S_ 32 4294967295#32))))) (constant S_ .f32 0x00000000#32) reducesTo_S4096_S_d0 h_S_)) (Host.reduceAdd (uitofp .f32 (cmpi .ne (m ((c.tc : Thread nD τ).loc main_arg1)) (broadcastInDim S4096 ![] bcast_S_S4096 (constantI S_ 32 4294967295#32)))) (constant S_ .f32 0x00000000#32) reducesTo_S4096_S_d0 h_S_)

set_option maxRecDepth 8192 in
set_option maxHeartbeats 4000000 in
/-- The named values, opened, are that term. -/
theorem result_eq_res84 (m : (ℓ : Loc nD τ sig) → Buf (Elt F) ℓ) (c : Dev nD) :
    after ops (launchContents m c) (Proc.devRef .tc main_v84) = res84 m c :=
  (result_of (launchContents m c)).trans rfl

/-- On every device, for any float values, from any memory with zero counters: every weakly fair execution of
    @main terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = res84 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v84).trans (result_eq_res84 m c),
      (h c main_arg0).trans (kept _ main_arg0 (by decide) (by decide) (by decide) (by decide)),
      (h c main_arg1).trans (kept _ main_arg1 (by decide) (by decide) (by decide) (by decide)),
      (h c main_arg2).trans (kept _ main_arg2 (by decide) (by decide) (by decide) (by decide)),
      (h c main_arg3).trans (kept _ main_arg3 (by decide) (by decide) (by decide) (by decide)),
      (h c main_arg4).trans (kept _ main_arg4 (by decide) (by decide) (by decide) (by decide)),
      (h c main_arg5).trans (kept _ main_arg5 (by decide) (by decide) (by decide) (by decide)),
      (h c main_arg6).trans (kept _ main_arg6 (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.Finite.lean ====
/-
  The precondition read: every float input holds finite numbers, so each is, entry by entry, a real number.
-/
import proofs.«409923_j27530740367371_2_alg».proof.Pre_finite_inputs
import proofs.«409923_j27530740367371_2_alg».proof.Proof.Gen.Pre_finite_inputs
import Idealize.ShloMosaic.PureOps.Ideal
import Idealize.ShloMosaic.Lib.ReduceAll
import Idealize.ShloMosaic.Lib.ValueIdx

noncomputable section

open Idealize.ShloMosaic Idealize.ShloMosaic.ValueIdx

namespace Cert.Finite

open Cert.Pre_finite_inputs

/-- The scalar shape has exactly one index. -/
private instance subsingleton_scalar_idx : Subsingleton S_.Idx := ⟨fun a b => funext fun d => d.elim0⟩

/-- An extended real whose absolute value `max x (-x)` lies strictly below `+∞` is a real number:
    `x = ⊤` gives `max ⊤ ⊥ = ⊤`, and `x = ⊥` gives `max ⊥ ⊤ = ⊤`. -/
private theorem real_of_abs_lt_top (x : EReal) (hx : max x (-x) < ⊤) : ∃ r : ℝ, x = (r : EReal) := by
  induction x using EReal.rec with
  | bot => simp at hx
  | coe r => exact ⟨r, rfl⟩
  | top => simp at hx

/-- The pattern `0x7F800000` (sign 0, exponent all ones, fraction 0) denotes `+∞`. -/
private theorem inf_bits : Ideal.ofBits .f32 0x7F800000#32 = (⊤ : EReal) := by
  simp [Ideal.ofBits, Ideal.ieee]

/-- One conjunct of the precondition, at any shape: if the conjunction over all entries of
    `|a| < +∞` holds, every entry of `a` is a real number. -/
private theorem real_of_all {S : Shape} {axes : List (Fin S.rank)} (a : FVec Ideal S .f32)
    (hb : S_.BroadcastsInDim S (![] : Fin 0 → Fin S.rank)) (hr : S.ReducesTo axes S_) (hu : 0 < S_.numel)
    (init : IVec S_ 1)
    (h : Host.reduce IntOp.andi
          (cmpf .olt (Host.absf a) (broadcastInDim S ![] hb (constant S_ .f32 0x7F800000#32))) init hr hu ix0 = 1#1)
    (i : S.Idx) : ∃ r : ℝ, a i = (r : EReal) := by
  have e := Host.reduce_andi_all _ init hr hu ix0 h i
  have e' : Ideal.cmp .olt (max (a i) (-(a i))) (Ideal.ofBits .f32 0x7F800000#32) = 1#1 := e
  rw [inf_bits] at e'
  have e2 : BitVec.ofBool (decide (max (a i) (-(a i)) < ⊤)) = 1#1 := e'
  refine real_of_abs_lt_top (a i) ?_
  cases hd : decide (max (a i) (-(a i)) < ⊤) with
  | true => exact of_decide_eq_true hd
  | false => rw [hd] at e2; exact absurd e2 (by decide)

/-- Under the precondition the six float arrays are pointwise real. -/
theorem reals_of_pre [Cert.Pre_finite_inputs.Facts]
    (a0 : FVec Ideal S4096x1024 .f32) (a1 : IVec S4096 32) (a2 : FVec Ideal S2002x1024 .f32) (a3 : FVec Ideal S256x1024 .f32)
    (a4 : FVec Ideal S8000x256 .f32) (a5 : FVec Ideal S64x1024 .f32) (a6 : FVec Ideal S40257x64 .f32)
    (h : Cert.Pre_finite_inputs.fn (F := Ideal) a0 a1 a2 a3 a4 a5 a6 = (fun _ => 1#1)) :
    (∃ X : Fin 4096 → Fin 1024 → ℝ, ∀ n k, a0 (ix2 n k) = ((X n k : ℝ) : EReal))
    ∧ (∃ HW : Fin 2002 → Fin 1024 → ℝ, ∀ j k, a2 (ix2 j k) = ((HW j k : ℝ) : EReal))
    ∧ (∃ P0 : Fin 256 → Fin 1024 → ℝ, ∀ a k, a3 (ix2 a k) = ((P0 a k : ℝ) : EReal))
    ∧ (∃ O0 : Fin 8000 → Fin 256 → ℝ, ∀ j a, a4 (ix2 j a) = ((O0 j a : ℝ) : EReal))
    ∧ (∃ P1 : Fin 64 → Fin 1024 → ℝ, ∀ a k, a5 (ix2 a k) = ((P1 a k : ℝ) : EReal))
    ∧ (∃ O1 : Fin 40257 → Fin 64 → ℝ, ∀ j a, a6 (ix2 j a) = ((O1 j a : ℝ) : EReal)) := by
  have h0 := congrFun h ix0
  dsimp only [fn, fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  have r0 := real_of_all a0 _ _ _ _ e1
  have r2 := real_of_all a2 _ _ _ _ e2
  have r3 := real_of_all a3 _ _ _ _ e3
  have r4 := real_of_all a4 _ _ _ _ e4
  have r5 := real_of_all a5 _ _ _ _ e5
  have r6 := real_of_all a6 _ _ _ _ e6
  choose X hX using r0
  choose HW hHW using r2
  choose P0 hP0 using r3
  choose O0 hO0 using r4
  choose P1 hP1 using r5
  choose O1 hO1 using r6
  exact ⟨⟨fun n k => X (ix2 n k), fun n k => hX _⟩, ⟨fun n k => HW (ix2 n k), fun n k => hHW _⟩,
    ⟨fun n k => P0 (ix2 n k), fun n k => hP0 _⟩, ⟨fun n k => O0 (ix2 n k), fun n k => hO0 _⟩,
    ⟨fun n k => P1 (ix2 n k), fun n k => hP1 _⟩, ⟨fun n k => O1 (ix2 n k), fun n k => hO1 _⟩⟩

end Cert.Finite

end
-- ==== Proof.KernelPieces.lean ====
/-
  What one grid point of the kernel leaves in its two output blocks, as pure functions of the seven input blocks.

  The body computes everything in registers and ends with two whole-block stores: the row weights (1, or 0 for an
  ignored row) and the rows' weighted log-probabilities. The two tail clusters are scored by counted loops over
  chunks of 1024 classes, each trip loading one chunk of the cluster's class weights and updating a triple
  (running maximum, rescaled sum of exponentials, picked logit). Here the loops' carried values are restated as a
  plain recursion on the trip number, and the stored payloads as terms over that recursion.
-/
import proofs.«409923_j27530740367371_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz1 : (![0] : Fin 1 → Nat) = fun _ => 0 := funext fun a => by fin_cases a <;> rfl
theorem hz2 : (![0, 0] : Fin 2 → Nat) = fun _ => 0 := funext fun a => by fin_cases a <;> rfl

/-- Chunk `k` (1024 classes) of the first tail cluster's padded class weights. -/
def chunk0 (x4 : Vec F S8192x256 .bf16) (k : Fin k0_t1_loop.trips) : Vec F S1024x256 .bf16 :=
  View.ld x4 (Rect.unit (k0_off1 k) S1024x256.size (k0_off1_inb k))

/-- Chunk `k` (1024 classes) of the second tail cluster's padded class weights. -/
def chunk1 (x6 : Vec F S40960x64 .bf16) (k : Fin k0_t2_loop.trips) : Vec F S1024x64 .bf16 :=
  View.ld x6 (Rect.unit (k0_off2 k) S1024x64.size (k0_off2_inb k))

/-- The first cluster's carried triple before trip `n`. -/
def online0 (v1 : FVec F S128x1024 .bf16) (v6 : Vec F S128 .i32) (v44 : Vec F S256x1024 .bf16) (x4 : Vec F S8192x256 .bf16) :
    ℕ → FVec F S128x1 .f32 × FVec F S128x1 .f32 × FVec F S128x1 .f32
  | 0 => (k0_pay20, k0_pay21, k0_pay22)
  | n + 1 => if h : n < k0_t1_loop.trips then
      (k0_pay25 v1 v44 ⟨n, h⟩ (online0 v1 v6 v44 x4 n).1 (chunk0 x4 ⟨n, h⟩),
       k0_pay26 v1 v44 ⟨n, h⟩ (online0 v1 v6 v44 x4 n).1 (online0 v1 v6 v44 x4 n).2.1 (chunk0 x4 ⟨n, h⟩),
       k0_pay27 v1 v6 v44 ⟨n, h⟩ (online0 v1 v6 v44 x4 n).2.2 (chunk0 x4 ⟨n, h⟩))
    else online0 v1 v6 v44 x4 n

/-- The second cluster's carried triple before trip `n`. -/
def online1 (v73 : FVec F S128x64 .bf16) (v79 : IVec S128 32) (x6 : Vec F S40960x64 .bf16) :
    ℕ → FVec F S128x1 .f32 × FVec F S128x1 .f32 × FVec F S128x1 .f32
  | 0 => (k0_pay31, k0_pay1, k0_pay2)
  | n + 1 => if h : n < k0_t2_loop.trips then
      (k0_pay5 v73 ⟨n, h⟩ (online1 v73 v79 x6 n).1 (chunk1 x6 ⟨n, h⟩),
       k0_pay6 v73 ⟨n, h⟩ (online1 v73 v79 x6 n).1 (online1 v73 v79 x6 n).2.1 (chunk1 x6 ⟨n, h⟩),
       k0_pay7 v73 v79 ⟨n, h⟩ (online1 v73 v79 x6 n).2.2 (chunk1 x6 ⟨n, h⟩))
    else online1 v73 v79 x6 n

/-- One trip of the first cluster's loop: the three payloads at the loaded chunk. -/
theorem trip0_eq (c : Dev nD) (i : grid0.Coords) (arg1 : Memref sig .tc .vmem S128x1024 .bf16) (harg1 : arg1.IsWhole) (arg2 : Memref sig .tc .vmem S128 .i32) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S8192x256 .bf16) (harg5 : arg5.IsWhole) (arg6 : Memref sig .tc .vmem S64x1024 .bf16) (harg6 : arg6.IsWhole) (arg7 : Memref sig .tc .vmem S40960x64 .bf16) (harg7 : arg7.IsWhole) (arg8 : Memref sig .tc .vmem S128 .f32) (harg8 : arg8.IsWhole) (arg9 : Memref sig .tc .vmem S128 .f32) (harg9 : arg9.IsWhole) (v1 : FVec F S128x1024 .bf16) (v6 : Vec F S128 .i32) (v35 : FVec F S128 .f32) (v39 : FVec F S128 .f32) (v41 : FVec F S128 .f32) (v42 : FVec F S128 .f32) (v44 : Vec F S256x1024 .bf16) (x4 : Vec F S8192x256 .bf16) (k : Fin k0_t1_loop.trips) (acc : FVec F S128x1 .f32 × FVec F S128x1 .f32 × FVec F S128x1 .f32) :
    tripR_k0_t1 Variants.none c none i arg1 harg1 arg2 harg2 arg3 harg3 arg4 harg4 arg5 harg5 arg6 harg6 arg7 harg7 arg8 harg8 arg9 harg9 v1 v6 v35 v39 v41 v42 v44 (harg5.unread x4) k acc
      = (k0_pay25 v1 v44 k acc.1 (chunk0 x4 k), k0_pay26 v1 v44 k acc.1 acc.2.1 (chunk0 x4 k), k0_pay27 v1 v6 v44 k acc.2.2 (chunk0 x4 k)) := by
  show (trip_k0_t1 Variants.none c none i arg1 harg1 arg2 harg2 arg3 harg3 arg4 harg4 arg5 harg5 arg6 harg6 arg7 harg7 arg8 harg8 arg9 harg9 v1 v6 v35 v39 v41 v42 v44 (harg5.unread x4) k).1 acc = _
  unfold trip_k0_t1
  dsimp only
  sl_unfold_words
  simp only [View.readAt_eq_ld, harg5.read_unread]
  rfl

/-- One trip of the second cluster's loop. -/
theorem trip1_eq (c : Dev nD) (i : grid0.Coords) (arg1 : Memref sig .tc .vmem S128x1024 .bf16) (harg1 : arg1.IsWhole) (arg2 : Memref sig .tc .vmem S128 .i32) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S8192x256 .bf16) (harg5 : arg5.IsWhole) (arg6 : Memref sig .tc .vmem S64x1024 .bf16) (harg6 : arg6.IsWhole) (arg7 : Memref sig .tc .vmem S40960x64 .bf16) (harg7 : arg7.IsWhole) (arg8 : Memref sig .tc .vmem S128 .f32) (harg8 : arg8.IsWhole) (arg9 : Memref sig .tc .vmem S128 .f32) (harg9 : arg9.IsWhole) (v73 : FVec F S128x64 .bf16) (v79 : IVec S128 32) (x6 : Vec F S40960x64 .bf16) (k : Fin k0_t2_loop.trips) (acc : FVec F S128x1 .f32 × FVec F S128x1 .f32 × FVec F S128x1 .f32) :
    tripR_k0_t2 Variants.none c none i arg1 harg1 arg2 harg2 arg3 harg3 arg4 harg4 arg5 harg5 arg6 harg6 arg7 harg7 arg8 harg8 arg9 harg9 v73 v79 (harg7.unread x6) k acc
      = (k0_pay5 v73 k acc.1 (chunk1 x6 k), k0_pay6 v73 k acc.1 acc.2.1 (chunk1 x6 k), k0_pay7 v73 v79 k acc.2.2 (chunk1 x6 k)) := by
  show (trip_k0_t2 Variants.none c none i arg1 harg1 arg2 harg2 arg3 harg3 arg4 harg4 arg5 harg5 arg6 harg6 arg7 harg7 arg8 harg8 arg9 harg9 v73 v79 (harg7.unread x6) k).1 acc = _
  unfold trip_k0_t2
  dsimp only
  sl_unfold_words
  simp only [View.readAt_eq_ld, harg7.read_unread]
  rfl

/-- The first loop's carried value is the recursion. -/
theorem st0_eq (c : Dev nD) (i : grid0.Coords) (arg1 : Memref sig .tc .vmem S128x1024 .bf16) (harg1 : arg1.IsWhole) (arg2 : Memref sig .tc .vmem S128 .i32) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S8192x256 .bf16) (harg5 : arg5.IsWhole) (arg6 : Memref sig .tc .vmem S64x1024 .bf16) (harg6 : arg6.IsWhole) (arg7 : Memref sig .tc .vmem S40960x64 .bf16) (harg7 : arg7.IsWhole) (arg8 : Memref sig .tc .vmem S128 .f32) (harg8 : arg8.IsWhole) (arg9 : Memref sig .tc .vmem S128 .f32) (harg9 : arg9.IsWhole) (v1 : FVec F S128x1024 .bf16) (v6 : Vec F S128 .i32) (v35 : FVec F S128 .f32) (v39 : FVec F S128 .f32) (v41 : FVec F S128 .f32) (v42 : FVec F S128 .f32) (v44 : Vec F S256x1024 .bf16) (x4 : Vec F S8192x256 .bf16) :
    ∀ n : ℕ, st_k0_t1 Variants.none c none i arg1 harg1 arg2 harg2 arg3 harg3 arg4 harg4 arg5 harg5 arg6 harg6 arg7 harg7 arg8 harg8 arg9 harg9 v1 v6 v35 v39 v41 v42 v44 (harg5.unread x4) (k0_pay20, k0_pay21, k0_pay22) n
      = online0 v1 v6 v44 x4 n
  | 0 => rfl
  | n + 1 => by
    rw [st_k0_t1.eq_2, online0]
    unfold st_k0_t1Step
    by_cases h : n < k0_t1_loop.trips
    · rw [dif_pos h, dif_pos h, trip0_eq, st0_eq c i arg1 harg1 arg2 harg2 arg3 harg3 arg4 harg4 arg5 harg5 arg6 harg6 arg7 harg7 arg8 harg8 arg9 harg9 v1 v6 v35 v39 v41 v42 v44 x4 n]
    · rw [dif_neg h, dif_neg h, st0_eq c i arg1 harg1 arg2 harg2 arg3 harg3 arg4 harg4 arg5 harg5 arg6 harg6 arg7 harg7 arg8 harg8 arg9 harg9 v1 v6 v35 v39 v41 v42 v44 x4 n]

/-- The second loop's carried value is the recursion. -/
theorem st1_eq (c : Dev nD) (i : grid0.Coords) (arg1 : Memref sig .tc .vmem S128x1024 .bf16) (harg1 : arg1.IsWhole) (arg2 : Memref sig .tc .vmem S128 .i32) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S8192x256 .bf16) (harg5 : arg5.IsWhole) (arg6 : Memref sig .tc .vmem S64x1024 .bf16) (harg6 : arg6.IsWhole) (arg7 : Memref sig .tc .vmem S40960x64 .bf16) (harg7 : arg7.IsWhole) (arg8 : Memref sig .tc .vmem S128 .f32) (harg8 : arg8.IsWhole) (arg9 : Memref sig .tc .vmem S128 .f32) (harg9 : arg9.IsWhole) (v73 : FVec F S128x64 .bf16) (v79 : IVec S128 32) (x6 : Vec F S40960x64 .bf16) :
    ∀ n : ℕ, st_k0_t2 Variants.none c none i arg1 harg1 arg2 harg2 arg3 harg3 arg4 harg4 arg5 harg5 arg6 harg6 arg7 harg7 arg8 harg8 arg9 harg9 v73 v79 (harg7.unread x6) (k0_pay31, k0_pay1, k0_pay2) n
      = online1 v73 v79 x6 n
  | 0 => rfl
  | n + 1 => by
    rw [st_k0_t2.eq_2, online1]
    unfold st_k0_t2Step
    by_cases h : n < k0_t2_loop.trips
    · rw [dif_pos h, dif_pos h, trip1_eq, st1_eq c i arg1 harg1 arg2 harg2 arg3 harg3 arg4 harg4 arg5 harg5 arg6 harg6 arg7 harg7 arg8 harg8 arg9 harg9 v73 v79 x6 n]
    · rw [dif_neg h, dif_neg h, st1_eq c i arg1 harg1 arg2 harg2 arg3 harg3 arg4 harg4 arg5 harg5 arg6 harg6 arg7 harg7 arg8 harg8 arg9 harg9 v73 v79 x6 n]

/-- The block of row weights a grid point stores. -/
def blockVf (x1 : Vec F S128 .i32) : Vec F S128 .f32 := k0_pay8 (k0_pay11 x1)

/-- The block of weighted log-probabilities a grid point stores. -/
def blockContrib (x0 : Vec F S128x1024 .bf16) (x1 : Vec F S128 .i32) (x2 : Vec F S2048x1024 .bf16) (x3 : Vec F S256x1024 .bf16) (x4 : Vec F S8192x256 .bf16) (x5 : Vec F S64x1024 .bf16) (x6 : Vec F S40960x64 .bf16) : Vec F S128 .f32 :=
  k0_pay9 (k0_pay11 x1) (k0_pay12 x1) (k0_pay19 (k0_pay17 x0 x2) (k0_pay18 x0 x2))
    (k0_pay28 (k0_pay12 x1) (k0_pay15 x0 x1 x2) (k0_pay16 x0 x2)
      (online0 (k0_pay10 x0) (k0_pay12 x1) x3 x4 k0_t1_loop.trips).1
      (online0 (k0_pay10 x0) (k0_pay12 x1) x3 x4 k0_t1_loop.trips).2.1
      (online0 (k0_pay10 x0) (k0_pay12 x1) x3 x4 k0_t1_loop.trips).2.2)
    (online1 (k0_pay29 (k0_pay10 x0) x5) (k0_pay30 (k0_pay12 x1)) x6 k0_t2_loop.trips).1
    (online1 (k0_pay29 (k0_pay10 x0) x5) (k0_pay30 (k0_pay12 x1)) x6 k0_t2_loop.trips).2.1
    (online1 (k0_pay29 (k0_pay10 x0) x5) (k0_pay30 (k0_pay12 x1)) x6 k0_t2_loop.trips).2.2

/-- The second output block after the body: the row weights. -/
theorem out8_eq (c : Dev nD) (i : grid0.Coords) (arg1 : Memref sig .tc .vmem S128x1024 .bf16) (harg1 : arg1.IsWhole) (arg2 : Memref sig .tc .vmem S128 .i32) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S8192x256 .bf16) (harg5 : arg5.IsWhole) (arg6 : Memref sig .tc .vmem S64x1024 .bf16) (harg6 : arg6.IsWhole) (arg7 : Memref sig .tc .vmem S40960x64 .bf16) (harg7 : arg7.IsWhole) (arg8 : Memref sig .tc .vmem S128 .f32) (harg8 : arg8.IsWhole) (arg9 : Memref sig .tc .vmem S128 .f32) (harg9 : arg9.IsWhole) (x0 : Vec F S128x1024 .bf16) (x1 : Vec F S128 .i32) (x2 : Vec F S2048x1024 .bf16) (x3 : Vec F S256x1024 .bf16) (x4 : Vec F S8192x256 .bf16) (x5 : Vec F S64x1024 .bf16) (x6 : Vec F S40960x64 .bf16) :
    out0_A_8 c i arg1 harg1 arg2 harg2 arg3 harg3 arg4 harg4 arg5 harg5 arg6 harg6 arg7 harg7 arg8 harg8 arg9 harg9 x0 x1 x2 x3 x4 x5 x6 = blockVf x1 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz1]
  simp only [View.readAt_eq_ld, harg2.read_unread, View.ld_unit_zero (S := S128) hz1]
  rfl

/-- The first output block after the body: the weighted log-probabilities. -/
theorem out7_eq (c : Dev nD) (i : grid0.Coords) (arg1 : Memref sig .tc .vmem S128x1024 .bf16) (harg1 : arg1.IsWhole) (arg2 : Memref sig .tc .vmem S128 .i32) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S8192x256 .bf16) (harg5 : arg5.IsWhole) (arg6 : Memref sig .tc .vmem S64x1024 .bf16) (harg6 : arg6.IsWhole) (arg7 : Memref sig .tc .vmem S40960x64 .bf16) (harg7 : arg7.IsWhole) (arg8 : Memref sig .tc .vmem S128 .f32) (harg8 : arg8.IsWhole) (arg9 : Memref sig .tc .vmem S128 .f32) (harg9 : arg9.IsWhole) (x0 : Vec F S128x1024 .bf16) (x1 : Vec F S128 .i32) (x2 : Vec F S2048x1024 .bf16) (x3 : Vec F S256x1024 .bf16) (x4 : Vec F S8192x256 .bf16) (x5 : Vec F S64x1024 .bf16) (x6 : Vec F S40960x64 .bf16) :
    out0_A_7 c i arg1 harg1 arg2 harg2 arg3 harg3 arg4 harg4 arg5 harg5 arg6 harg6 arg7 harg7 arg8 harg8 arg9 harg9 x0 x1 x2 x3 x4 x5 x6 = blockContrib x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz1]
  simp only [View.readAt_eq_ld, harg1.read_unread, harg2.read_unread, harg3.read_unread, harg4.read_unread, harg6.read_unread,
    View.ld_unit_zero (S := S128x1024) hz2, View.ld_unit_zero (S := S128) hz1, View.ld_unit_zero (S := S2048x1024) hz2,
    View.ld_unit_zero (S := S256x1024) hz2, View.ld_unit_zero (S := S64x1024) hz2]
  rw [st0_eq, st1_eq]
  rfl

end Cert.KernelIdeal.Pieces

end
-- ==== Proof.Spec.lean ====
/-
  The adaptive-softmax loss of one row, over the reals: the meeting point of the two programs.

  A row `x` is scored against a head of 2002 columns (2000 frequent classes and one slot per tail cluster) and two
  tail clusters, each through its own projection. With `lse a = log ∑ⱼ exp aⱼ`, the log-probability of the row's
  class is `Hₜ − lse H` for a head class, and `(H_slot − lse H) + (L_rel − lse L)` for a class of a tail cluster,
  `rel` its position inside the cluster. An ignored row (label −1) is scored at class 0 and weighted 0.
-/
import Idealize.ShloMosaic.PureOps
import Mathlib.Analysis.SpecialFunctions.Log.Basic

noncomputable section

namespace Cert.Spec

open Idealize.ShloMosaic

/-- The inner product of two real families. -/
def dot {K : ℕ} (a b : Fin K → ℝ) : ℝ := ∑ k, a k * b k

/-- `log ∑ⱼ exp aⱼ`. -/
def lse {N : ℕ} (a : Fin N → ℝ) : ℝ := Real.log (∑ j, Real.exp (a j))

/-- The class a row is scored at: its label, or class 0 when the label is the ignore index −1. -/
def tgt (t : BitVec 32) : BitVec 32 := Scalar.select (IntOp.cmpi .ne t 4294967295#32) t 0#32

/-- A label clamped (as a signed word) into `[0, hi]`. -/
def clampW (hi w : BitVec 32) : BitVec 32 := IntOp.minsi hi (IntOp.maxsi 0#32 w)

/-- `lo ≤ w < hi` on signed words, as a bit. -/
def inBand (lo hi w : BitVec 32) : BitVec 1 := IntOp.andi (IntOp.cmpi .sge w lo) (IntOp.cmpi .slt w hi)

/-- The entry of a real family at a word read as a natural number; 0 outside the family. -/
def atW {N : ℕ} (a : Fin N → ℝ) (w : BitVec 32) : ℝ := if h : w.toNat < N then a ⟨w.toNat, h⟩ else 0

/-- The head's logits of a row. -/
def headLogits (x : Fin 1024 → ℝ) (hw : Fin 2002 → Fin 1024 → ℝ) : Fin 2002 → ℝ := fun j => dot x (hw j)

/-- A tail cluster's logits of a row: the row projected to `D` dimensions, then scored against `N` classes. -/
def tailLogits {D N : ℕ} (x : Fin 1024 → ℝ) (p : Fin D → Fin 1024 → ℝ) (o : Fin N → Fin D → ℝ) : Fin N → ℝ :=
  fun j => dot (fun a => dot x (p a)) (o j)

/-- The log-probability of a row's class. -/
def logpR (x : Fin 1024 → ℝ) (t : BitVec 32) (hw : Fin 2002 → Fin 1024 → ℝ) (p0 : Fin 256 → Fin 1024 → ℝ)
    (o0 : Fin 8000 → Fin 256 → ℝ) (p1 : Fin 64 → Fin 1024 → ℝ) (o1 : Fin 40257 → Fin 64 → ℝ) : ℝ :=
  Scalar.select (inBand 10000#32 50257#32 (tgt t))
    ((atW (headLogits x hw) 2001#32 - lse (headLogits x hw))
      + (atW (tailLogits x p1 o1) (clampW 40256#32 (IntOp.subi (tgt t) 10000#32)) - lse (tailLogits x p1 o1)))
    (Scalar.select (inBand 2000#32 10000#32 (tgt t))
      ((atW (headLogits x hw) 2000#32 - lse (headLogits x hw))
        + (atW (tailLogits x p0 o0) (clampW 7999#32 (IntOp.subi (tgt t) 2000#32)) - lse (tailLogits x p0 o0)))
      (atW (headLogits x hw) (clampW 1999#32 (tgt t)) - lse (headLogits x hw)))

/-- A row's weight: 1, or 0 for an ignored row. -/
def vfR (t : BitVec 32) : ℝ := ((IntOp.cmpi .ne t 4294967295#32).toNat : ℝ)

/-- A row's term of the loss's numerator. -/
def contribR (x : Fin 1024 → ℝ) (t : BitVec 32) (hw : Fin 2002 → Fin 1024 → ℝ) (p0 : Fin 256 → Fin 1024 → ℝ)
    (o0 : Fin 8000 → Fin 256 → ℝ) (p1 : Fin 64 → Fin 1024 → ℝ) (o1 : Fin 40257 → Fin 64 → ℝ) : ℝ :=
  logpR x t hw p0 o0 p1 o1 * vfR t

end Cert.Spec

end
-- ==== Proof.Rows.lean ====
/-
  The three logit rows of one data row, over weights padded with extra class rows that the kernel masks: the head's
  2002 logits out of 2048 padded rows, the first tail cluster's 8000 out of 8192, the second's 40257 out of 40960.
-/
import proofs.«409923_j27530740367371_2_alg».proof.Proof.Spec

noncomputable section

namespace Cert.Rows

open Cert.Spec

/-- The head's logits of a row against the first 2002 rows of the padded head weights. -/
def headRow (x : Fin 1024 → ℝ) (hwr : Fin 2048 → Fin 1024 → ℝ) : Fin 2002 → ℝ :=
  headLogits x (fun j => hwr (Fin.castLE (by decide) j))

/-- The first tail cluster's logits of a row against the first 8000 rows of its padded class weights. -/
def tailRow0 (x : Fin 1024 → ℝ) (p0r : Fin 256 → Fin 1024 → ℝ) (o0r : Fin 8192 → Fin 256 → ℝ) : Fin 8000 → ℝ :=
  tailLogits x p0r (fun j => o0r (Fin.castLE (by decide) j))

/-- The second tail cluster's logits of a row against the first 40257 rows of its padded class weights. -/
def tailRow1 (x : Fin 1024 → ℝ) (p1r : Fin 64 → Fin 1024 → ℝ) (o1r : Fin 40960 → Fin 64 → ℝ) : Fin 40257 → ℝ :=
  tailLogits x p1r (fun j => o1r (Fin.castLE (by decide) j))

/-- A row's term of the loss's numerator over the padded weights. -/
def contribRow (x : Fin 1024 → ℝ) (t : BitVec 32) (hwr : Fin 2048 → Fin 1024 → ℝ) (p0r : Fin 256 → Fin 1024 → ℝ)
    (o0r : Fin 8192 → Fin 256 → ℝ) (p1r : Fin 64 → Fin 1024 → ℝ) (o1r : Fin 40960 → Fin 64 → ℝ) : ℝ :=
  contribR x t (fun j => hwr (Fin.castLE (by decide) j)) p0r (fun j => o0r (Fin.castLE (by decide) j)) p1r
    (fun j => o1r (Fin.castLE (by decide) j))

end Cert.Rows

end
-- ==== Proof.LibLse.lean ====
/-
  Log-sum-exp over the extended reals, as kernels and references compute it: a row of logits, some of them masked
  to −∞; the shift by any finite number cancels; the running (online) form over chunks of the row, rescaling the
  partial sum whenever the running maximum grows, ends at the same value; a one-hot weighted sum picks one logit.
-/
import proofs.«409923_j27530740367371_2_alg».proof.Proof.Spec
import Idealize.ShloMosaic.PureOps.Ideal
import Mathlib.Analysis.SpecialFunctions.Log.Basic

noncomputable section

namespace Cert.Lse

open Idealize.ShloMosaic Cert.Spec

/-- `z` is the real row `a` (its first `N` entries), masked to −∞ beyond it. -/
def Masked {P : ℕ} (N : ℕ) (a : Fin N → ℝ) (z : Fin P → EReal) : Prop :=
  ∀ j : Fin P, z j = if h : j.val < N then ((a ⟨j.val, h⟩ : ℝ) : EReal) else ⊥

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An inner product of reals, computed on the extended reals. -/
theorem dot_coe {K : ℕ} (a b : Fin K → ℝ) : ∑ k, ((a k : ℝ) : EReal) * ((b k : ℝ) : EReal) = ((dot a b : ℝ) : EReal) := by
  unfold dot
  rw [coe_sum]
  refine Finset.sum_congr rfl (fun k _ => ?_)
  rw [EReal.coe_mul]

/-- A sum over `Fin P` of a family that vanishes from `N` on is the sum of its first `N` terms. -/
private theorem sum_fin_dite {P N : ℕ} (hNP : N ≤ P) (g : Fin N → ℝ) :
    ∑ j : Fin P, (if h : j.val < N then g ⟨j.val, h⟩ else 0) = ∑ j : Fin N, g j := by
  have h1 := Fin.sum_univ_eq_sum_range (fun i : ℕ => if h : i < N then g ⟨i, h⟩ else 0) P
  have h2 := Fin.sum_univ_eq_sum_range (fun i : ℕ => if h : i < N then g ⟨i, h⟩ else 0) N
  have h3 : ∑ j : Fin N, g j = ∑ j : Fin N, (fun i : ℕ => if h : i < N then g ⟨i, h⟩ else 0) j.val := by
    refine Finset.sum_congr rfl (fun j _ => ?_)
    simp [j.isLt]
  rw [h3, h2]
  refine h1.trans ?_
  symm
  refine Finset.sum_subset (Finset.range_mono hNP) (fun i _ hi => ?_)
  have : ¬ i < N := by simpa using hi
  simp [this]

private theorem sum_exp_pos {N : ℕ} (a : Fin N → ℝ) (hN : 0 < N) (M : ℝ) : 0 < ∑ j, Real.exp (a j - M) := by
  haveI : Nonempty (Fin N) := ⟨⟨0, hN⟩⟩
  exact Finset.sum_pos (fun j _ => Real.exp_pos _) Finset.univ_nonempty

private theorem log_sum_exp_real {N : ℕ} (a : Fin N → ℝ) (hN : 0 < N) (M : ℝ) :
    Real.log (∑ j, Real.exp (a j - M)) = lse a - M := by
  have h0 : 0 < ∑ j, Real.exp (a j) := by simpa using sum_exp_pos a hN 0
  have h1 : ∑ j, Real.exp (a j - M) = (∑ j, Real.exp (a j)) * Real.exp (-M) := by
    rw [Finset.sum_mul]
    refine Finset.sum_congr rfl (fun j _ => ?_)
    rw [← Real.exp_add, sub_eq_add_neg]
  rw [h1, Real.log_mul (ne_of_gt h0) (Real.exp_ne_zero _), Real.log_exp, lse]
  ring

/-- The shifted sum of exponentials of a masked row: masked entries add `exp (−∞) = 0`, and the shift comes out of the logarithm. -/
theorem log_sum_exp_shift {P N : ℕ} (a : Fin N → ℝ) (z : Fin P → EReal) (hN : 0 < N) (hNP : N ≤ P) (hz : Masked N a z) (M : ℝ) :
    Ideal.log (∑ j, Ideal.exp (z j - (M : EReal))) = ((lse a - M : ℝ) : EReal) := by
  have hterm : ∀ j : Fin P, Ideal.exp (z j - (M : EReal))
      = (((if h : j.val < N then Real.exp (a ⟨j.val, h⟩ - M) else 0 : ℝ)) : EReal) := by
    intro j
    rw [hz j]
    by_cases h : j.val < N
    · rw [dif_pos h, dif_pos h, ← EReal.coe_sub, Ideal.exp_coe]
    · rw [dif_neg h, dif_neg h, EReal.bot_sub, Ideal.exp_bot, EReal.coe_zero]
  rw [Finset.sum_congr rfl (fun j _ => hterm j), ← coe_sum, sum_fin_dite hNP (fun j => Real.exp (a j - M)),
    Ideal.log_coe, if_neg (not_le.2 (sum_exp_pos a hN M)), log_sum_exp_real a hN M]

/-- The running maximum of a row with one real entry and no `+∞` entry is a real number. -/
private theorem fold_max_real_gen {P : ℕ} (z : Fin P → EReal) (j0 : Fin P) (r0 : ℝ) (h0 : z j0 = (r0 : EReal))
    (htop : ∀ j, z j ≠ ⊤) : ∃ M : ℝ, (Finset.univ : Finset (Fin P)).fold max (⊥ : EReal) z = (M : EReal) := by
  have hsup : (Finset.univ : Finset (Fin P)).fold max (⊥ : EReal) z = Finset.univ.sup z := rfl
  rw [hsup]
  have hne_top : Finset.univ.sup z ≠ ⊤ := by
    refine ne_of_lt ((Finset.sup_lt_iff (bot_lt_top)).2 (fun j _ => lt_top_iff_ne_top.2 (htop j)))
  have hne_bot : Finset.univ.sup z ≠ ⊥ := by
    have hle : z j0 ≤ Finset.univ.sup z := Finset.le_sup (Finset.mem_univ j0)
    rw [h0] at hle
    exact ne_of_gt (lt_of_lt_of_le (EReal.bot_lt_coe r0) hle)
  exact ⟨(Finset.univ.sup z).toReal, (EReal.coe_toReal hne_top hne_bot).symm⟩

/-- The maximum of a masked row with at least one real entry is a real number. -/
theorem fold_max_real {P N : ℕ} (a : Fin N → ℝ) (z : Fin P → EReal) (hN : 0 < N) (hNP : N ≤ P) (hz : Masked N a z) :
    ∃ M : ℝ, (Finset.univ : Finset (Fin P)).fold max (⊥ : EReal) z = (M : EReal) := by
  refine fold_max_real_gen z ⟨0, lt_of_lt_of_le hN hNP⟩ (a ⟨0, hN⟩) ?_ ?_
  · rw [hz]; exact dif_pos hN
  · intro j
    rw [hz j]
    by_cases h : j.val < N
    · rw [dif_pos h]; exact EReal.coe_ne_top _
    · rw [dif_neg h]; exact bot_ne_top

/-- The indicator of one column, as the kernel computes it on 32-bit words, for an index below `2 ^ 32`. -/
private theorem onehot_term (i : ℕ) (hi : i < 2 ^ 32) (w : BitVec 32) (x : EReal) :
    Scalar.select (IntOp.cmpi .eq (BitVec.ofNat 32 i) w) x (0 : EReal) = if i = w.toNat then x else 0 := by
  have hiff : BitVec.ofNat 32 i = w ↔ i = w.toNat := by
    constructor
    · intro h
      rw [← h, BitVec.toNat_ofNat, Nat.mod_eq_of_lt hi]
    · intro h
      rw [h, BitVec.ofNat_toNat, BitVec.setWidth_eq]
  unfold Scalar.select IntOp.cmpi
  by_cases h : BitVec.ofNat 32 i = w
  · have h' : i = w.toNat := hiff.1 h
    simp [h, h']
  · have h' : ¬ i = w.toNat := fun e => h (hiff.2 e)
    have hb : (BitVec.ofNat 32 i == w) = false := beq_eq_false_iff_ne.2 h
    simp [hb, h']

/-- A sum weighted by the indicator of one column picks that column's logit. -/
theorem onehot_sum {P N : ℕ} (a : Fin N → ℝ) (z : Fin P → EReal) (hNP : N ≤ P) (hP : P ≤ 2 ^ 32) (hz : Masked N a z)
    (w : BitVec 32) (hw : w.toNat < N) :
    ∑ j : Fin P, Scalar.select (IntOp.cmpi .eq (BitVec.ofNat 32 j.val) w) (z j) (0 : EReal) = ((atW a w : ℝ) : EReal) := by
  have hterm : ∀ j : Fin P, Scalar.select (IntOp.cmpi .eq (BitVec.ofNat 32 j.val) w) (z j) (0 : EReal)
      = (((fun i : ℕ => if i = w.toNat then atW a w else 0) j.val : ℝ) : EReal) := by
    intro j
    rw [onehot_term j.val (lt_of_lt_of_le j.isLt hP) w (z j)]
    by_cases h : j.val = w.toNat
    · have hj : j.val < N := h ▸ hw
      rw [if_pos h, hz j, dif_pos hj]
      simp only [h, if_true, atW, dif_pos hw]
    · simp only [if_neg h, EReal.coe_zero]
  rw [Finset.sum_congr rfl (fun j _ => hterm j), ← coe_sum,
    Fin.sum_univ_eq_sum_range (fun i : ℕ => if i = w.toNat then atW a w else 0) P, Finset.sum_ite_eq']
  rw [if_pos (Finset.mem_range.2 (lt_of_lt_of_le hw hNP))]

/-! ## The online form over `n` chunks of width `Q` -/

/-- One chunk's update of (running maximum, rescaled partial sum of exponentials, picked logit so far). -/
def step {Q : ℕ} (zc : Fin Q → EReal) (base : ℕ) (w : BitVec 32) (s : EReal × EReal × EReal) : EReal × EReal × EReal :=
  (max s.1 ((Finset.univ : Finset (Fin Q)).fold max (⊥ : EReal) zc),
   s.2.1 * Ideal.exp (s.1 - max s.1 ((Finset.univ : Finset (Fin Q)).fold max (⊥ : EReal) zc))
     + ∑ j, Ideal.exp (zc j - max s.1 ((Finset.univ : Finset (Fin Q)).fold max (⊥ : EReal) zc)),
   s.2.2 + ∑ j : Fin Q, Scalar.select (IntOp.cmpi .eq (BitVec.ofNat 32 (base + j.val)) w) (zc j) (0 : EReal))

/-- The state before chunk `k`, from (−∞, 0, 0). -/
def online {Q : ℕ} (n : ℕ) (zs : Fin n → Fin Q → EReal) (w : BitVec 32) : ℕ → EReal × EReal × EReal
  | 0 => (⊥, 0, 0)
  | k + 1 => if h : k < n then step (zs ⟨k, h⟩) (k * Q) w (online n zs w k) else online n zs w k

/-- The exponential of the row's entry at a natural-number index, shifted by `M`; 0 beyond the row. -/
private def expAt {N : ℕ} (a : Fin N → ℝ) (M : ℝ) (i : ℕ) : ℝ := if h : i < N then Real.exp (a ⟨i, h⟩ - M) else 0

/-- The value `A` at index `t`, 0 elsewhere. -/
private def pick (t : ℕ) (A : ℝ) (i : ℕ) : ℝ := if i = t then A else 0

/-- Changing the shift from `M` to `M'` multiplies by `exp (M − M')`. -/
private theorem expAt_rescale {N : ℕ} (a : Fin N → ℝ) (M M' : ℝ) (i : ℕ) :
    expAt a M i * Real.exp (M - M') = expAt a M' i := by
  unfold expAt
  by_cases h : i < N
  · rw [dif_pos h, dif_pos h, ← Real.exp_add]
    congr 1
    ring
  · rw [dif_neg h, dif_neg h, zero_mul]

private theorem sum_range_expAt {N L : ℕ} (a : Fin N → ℝ) (M : ℝ) (hL : N ≤ L) :
    ∑ i ∈ Finset.range L, expAt a M i = ∑ j : Fin N, Real.exp (a j - M) := by
  rw [← Fin.sum_univ_eq_sum_range (expAt a M) L]
  exact sum_fin_dite hL (fun j => Real.exp (a j - M))

private theorem sum_range_pick {L t : ℕ} (A : ℝ) (ht : t < L) : ∑ i ∈ Finset.range L, pick t A i = A := by
  unfold pick
  rw [Finset.sum_ite_eq', if_pos (Finset.mem_range.2 ht)]

section chunks

variable {Q N : ℕ} (n : ℕ) (a : Fin N → ℝ) (zs : Fin n → Fin Q → EReal) (w : BitVec 32)
  (hzs : ∀ (c : Fin n) (j : Fin Q), zs c j = if h : c.val * Q + j.val < N then ((a ⟨c.val * Q + j.val, h⟩ : ℝ) : EReal) else ⊥)

include hzs

private theorem chunk_exp_term (c : Fin n) (j : Fin Q) (M' : ℝ) :
    Ideal.exp (zs c j - (M' : EReal)) = ((expAt a M' (c.val * Q + j.val) : ℝ) : EReal) := by
  rw [hzs c j]
  unfold expAt
  by_cases h : c.val * Q + j.val < N
  · rw [dif_pos h, dif_pos h, ← EReal.coe_sub, Ideal.exp_coe]
  · rw [dif_neg h, dif_neg h, EReal.bot_sub, Ideal.exp_bot, EReal.coe_zero]

private theorem chunk_pick_term (hP : n * Q ≤ 2 ^ 32) (hw : w.toNat < N) (c : Fin n) (j : Fin Q) :
    Scalar.select (IntOp.cmpi .eq (BitVec.ofNat 32 (c.val * Q + j.val)) w) (zs c j) (0 : EReal)
      = ((pick w.toNat (atW a w) (c.val * Q + j.val) : ℝ) : EReal) := by
  have h1 : (c.val + 1) * Q ≤ n * Q := Nat.mul_le_mul_right Q c.isLt
  have h2 : (c.val + 1) * Q = c.val * Q + Q := Nat.add_one_mul _ _
  have hlt : c.val * Q + j.val < 2 ^ 32 := by have := j.isLt; omega
  rw [onehot_term _ hlt w (zs c j)]
  unfold pick
  by_cases h : c.val * Q + j.val = w.toNat
  · have hj : c.val * Q + j.val < N := h ▸ hw
    rw [if_pos h, if_pos h, hzs c j, dif_pos hj]
    simp only [h, atW, dif_pos hw]
  · rw [if_neg h, if_neg h, EReal.coe_zero]

private theorem chunk_max_real (hQ : 0 < Q) (hfirst : ∀ c : Fin n, c.val * Q < N) (c : Fin n) :
    ∃ Mc : ℝ, (Finset.univ : Finset (Fin Q)).fold max (⊥ : EReal) (zs c) = (Mc : EReal) := by
  have h0 : c.val * Q + (⟨0, hQ⟩ : Fin Q).val < N := by simpa using hfirst c
  refine fold_max_real_gen (zs c) ⟨0, hQ⟩ (a ⟨c.val * Q + (⟨0, hQ⟩ : Fin Q).val, h0⟩) ?_ ?_
  · rw [hzs c ⟨0, hQ⟩]; exact dif_pos h0
  · intro j
    rw [hzs c j]
    by_cases h : c.val * Q + j.val < N
    · rw [dif_pos h]; exact EReal.coe_ne_top _
    · rw [dif_neg h]; exact bot_ne_top

/-- One chunk's update, when the new maximum is the real number `M'` and the old partial sum, rescaled to `M'`, is
    the sum over the columns before the chunk: the new state holds the sums over the columns up to the chunk's end. -/
private theorem step_real (hP : n * Q ≤ 2 ^ 32) (hw : w.toNat < N) (c : Fin n) (s : EReal × EReal × EReal) (Mc M' : ℝ)
    (hmc : (Finset.univ : Finset (Fin Q)).fold max (⊥ : EReal) (zs c) = (Mc : EReal))
    (hm : max s.1 (Mc : EReal) = (M' : EReal))
    (hl : s.2.1 * Ideal.exp (s.1 - (M' : EReal)) = ((∑ i ∈ Finset.range (c.val * Q), expAt a M' i : ℝ) : EReal))
    (hg : s.2.2 = ((∑ i ∈ Finset.range (c.val * Q), pick w.toNat (atW a w) i : ℝ) : EReal)) :
    step (zs c) (c.val * Q) w s
      = ((M' : EReal), ((∑ i ∈ Finset.range ((c.val + 1) * Q), expAt a M' i : ℝ) : EReal),
          ((∑ i ∈ Finset.range ((c.val + 1) * Q), pick w.toNat (atW a w) i : ℝ) : EReal)) := by
  have hsumexp : ∑ j : Fin Q, Ideal.exp (zs c j - (M' : EReal))
      = ((∑ j ∈ Finset.range Q, expAt a M' (c.val * Q + j) : ℝ) : EReal) := by
    rw [← Fin.sum_univ_eq_sum_range (fun j => expAt a M' (c.val * Q + j)) Q, coe_sum]
    exact Finset.sum_congr rfl (fun j _ => chunk_exp_term n a zs hzs c j M')
  have hsumpick : ∑ j : Fin Q, Scalar.select (IntOp.cmpi .eq (BitVec.ofNat 32 (c.val * Q + j.val)) w) (zs c j) (0 : EReal)
      = ((∑ j ∈ Finset.range Q, pick w.toNat (atW a w) (c.val * Q + j) : ℝ) : EReal) := by
    rw [← Fin.sum_univ_eq_sum_range (fun j => pick w.toNat (atW a w) (c.val * Q + j)) Q, coe_sum]
    exact Finset.sum_congr rfl (fun j _ => chunk_pick_term n a zs w hzs hP hw c j)
  unfold step
  rw [hmc, hm, hl, hg, hsumexp, hsumpick, ← EReal.coe_add, ← EReal.coe_add, Nat.add_one_mul,
    Finset.sum_range_add, Finset.sum_range_add]

private theorem online_succ {k : ℕ} (hk : k < n) :
    online n zs w (k + 1) = step (zs ⟨k, hk⟩) (k * Q) w (online n zs w k) := by
  rw [online, dif_pos hk]

/-- The invariant: after `k + 1` chunks the running maximum is a real number `M`, the partial sum is the sum of
    `exp (aⱼ − M)` over the row's columns below `(k + 1) · Q`, and the picked logit is the row's entry at `w` once
    that column has been passed. -/
private theorem online_inv (hQ : 0 < Q) (hfirst : ∀ c : Fin n, c.val * Q < N) (hP : n * Q ≤ 2 ^ 32) (hw : w.toNat < N) :
    ∀ k : ℕ, k < n → ∃ M : ℝ, online n zs w (k + 1)
      = ((M : EReal), ((∑ i ∈ Finset.range ((k + 1) * Q), expAt a M i : ℝ) : EReal),
          ((∑ i ∈ Finset.range ((k + 1) * Q), pick w.toNat (atW a w) i : ℝ) : EReal)) := by
  intro k
  induction k with
  | zero =>
    intro hk
    obtain ⟨Mc, hmc⟩ := chunk_max_real n a zs hzs hQ hfirst ⟨0, hk⟩
    refine ⟨Mc, ?_⟩
    rw [online_succ n a zs w hzs hk]
    have hs : online n zs w 0 = ((⊥ : EReal), (0 : EReal), (0 : EReal)) := rfl
    rw [hs]
    refine step_real n a zs w hzs hP hw ⟨0, hk⟩ _ Mc Mc hmc ?_ ?_ ?_
    · exact max_eq_right bot_le
    · simp
    · simp
  | succ k ih =>
    intro hk
    obtain ⟨M, hM⟩ := ih (Nat.lt_of_succ_lt hk)
    obtain ⟨Mc, hmc⟩ := chunk_max_real n a zs hzs hQ hfirst ⟨k + 1, hk⟩
    refine ⟨max M Mc, ?_⟩
    rw [online_succ n a zs w hzs hk, hM]
    refine step_real n a zs w hzs hP hw ⟨k + 1, hk⟩ _ Mc (max M Mc) hmc ?_ ?_ rfl
    · exact (EReal.coe_strictMono.monotone.map_max (a := M) (b := Mc)).symm
    · show ((∑ i ∈ Finset.range ((k + 1) * Q), expAt a M i : ℝ) : EReal) * Ideal.exp ((M : EReal) - ((max M Mc : ℝ) : EReal))
        = ((∑ i ∈ Finset.range ((k + 1) * Q), expAt a (max M Mc) i : ℝ) : EReal)
      rw [← EReal.coe_sub, Ideal.exp_coe, ← EReal.coe_mul, Finset.sum_mul]
      exact congrArg _ (Finset.sum_congr rfl (fun i _ => expAt_rescale a M (max M Mc) i))

end chunks

/-- After the last chunk: the picked logit minus (maximum + log of the rescaled sum) is the row's log-softmax at the
    picked column, provided every chunk holds at least one unmasked column. -/
theorem online_final {Q N : ℕ} (n : ℕ) (a : Fin N → ℝ) (zs : Fin n → Fin Q → EReal) (w : BitVec 32)
    (hzs : ∀ (c : Fin n) (j : Fin Q), zs c j = if h : c.val * Q + j.val < N then ((a ⟨c.val * Q + j.val, h⟩ : ℝ) : EReal) else ⊥)
    (hQ : 0 < Q) (hfirst : ∀ c : Fin n, c.val * Q < N) (hall : N ≤ n * Q) (hn : 0 < n) (hP : n * Q ≤ 2 ^ 32) (hw : w.toNat < N) :
    (online n zs w n).2.2 - ((online n zs w n).1 + Ideal.log (online n zs w n).2.1) = ((atW a w - lse a : ℝ) : EReal) := by
  have hN : 0 < N := lt_of_le_of_lt (Nat.zero_le _) hw
  obtain ⟨M, hM⟩ := online_inv n a zs w hzs hQ hfirst hP hw (n - 1) (Nat.sub_lt hn Nat.one_pos)
  have hn1 : n - 1 + 1 = n := Nat.sub_add_cancel hn
  rw [hn1] at hM
  rw [hM]
  show ((∑ i ∈ Finset.range (n * Q), pick w.toNat (atW a w) i : ℝ) : EReal)
      - ((M : EReal) + Ideal.log ((∑ i ∈ Finset.range (n * Q), expAt a M i : ℝ) : EReal)) = ((atW a w - lse a : ℝ) : EReal)
  rw [sum_range_pick (atW a w) (lt_of_lt_of_le hw hall), sum_range_expAt a M hall, Ideal.log_coe,
    if_neg (not_le.2 (sum_exp_pos a hN M)), log_sum_exp_real a hN M, ← EReal.coe_add, ← EReal.coe_sub]
  congr 1
  ring

end Cert.Lse

end
-- ==== Proof.KernelHead.lean ====
/-
  The head of the kernel's body at one row, over the extended reals: the 128×2048 logits of a block of rows against
  the padded head weights, the padded columns masked to −∞; the row's log-sum-exp through its maximum; the logit
  picked by a one-hot sum at the clamped label; the two cluster-slot columns; the label with the ignore index
  replaced; the row weight.
-/
import proofs.«409923_j27530740367371_2_alg».proof.Proof.KernelPieces
import proofs.«409923_j27530740367371_2_alg».proof.Proof.Rows
import proofs.«409923_j27530740367371_2_alg».proof.Proof.LibLse
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open Idealize.ShloMosaic Idealize.ShloMosaic.TcCoe Idealize.SL.Sem Idealize.ShloMosaic.ValueIdx

namespace Cert.KernelIdeal.Head

open Cert.KernelIdeal Cert.KernelIdeal.Gen Cert.KernelIdeal.Pieces Cert.Spec Cert.Rows

variable (x0 : Vec Ideal S128x1024 .bf16) (x1 : Vec Ideal S128 .i32) (x2 : Vec Ideal S2048x1024 .bf16)
  (xr : Fin 128 → Fin 1024 → ℝ) (hwr : Fin 2048 → Fin 1024 → ℝ)

/-- A one-bit word is 0 or 1. -/
private theorem bit_cases (b : BitVec 1) : b = 0#1 ∨ b = 1#1 := by
  rcases Nat.lt_or_ge b.toNat 1 with h | h
  · left; apply BitVec.eq_of_toNat_eq; simp; omega
  · right; apply BitVec.eq_of_toNat_eq; have := b.isLt; simp; omega

section layout
variable {α : Type}

/-- An `[a]` array cast to `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
private theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end layout

/-- The column counter at row `r`, column `j` is the word `j`. -/
private theorem iota_at (r : Fin 128) (j : Fin 2048) :
    iota .tc S128x2048 32 [1] iota_S128x2048_d1_w32 (ix2 r j) = BitVec.ofNat 32 j.val :=
  iota_single_apply .tc S128x2048 32 1 iota_S128x2048_d1_w32 (ix2 r j)

/-- The masking constant is −∞ over the extended reals. -/
private theorem neg_big : Named.named (F := Ideal) Cert.KernelIdeal.κ "neg_big" (φ := .f32) 0xF149F2CA#32 = (⊥ : EReal) :=
  IdealRules.named_const.ideal_named_scalar _ _ _ _ rfl

/-- The left operand's row coordinate is the output's row. -/
private theorem lhs_head_0 (i : S128x2048.Idx) (q : dot_S128x1024_S2048x1024_S128x2048_1_1_0_0_n_n.contr.Idx) :
    (dot_S128x1024_S2048x1024_S128x2048_1_1_0_0_n_n.lhsIdx i q 0).val = (i 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl
/-- The left operand's column coordinate is the contraction index. -/
private theorem lhs_head_1 (i : S128x2048.Idx) (q : dot_S128x1024_S2048x1024_S128x2048_1_1_0_0_n_n.contr.Idx) :
    (dot_S128x1024_S2048x1024_S128x2048_1_1_0_0_n_n.lhsIdx i q 1).val = (q ⟨0, by decide⟩).val :=
  dot_S128x1024_S2048x1024_S128x2048_1_1_0_0_n_n.lhsIdx_val_of_single rfl i q
/-- The right operand's row coordinate is the output's column. -/
private theorem rhs_head_0 (i : S128x2048.Idx) (q : dot_S128x1024_S2048x1024_S128x2048_1_1_0_0_n_n.contr.Idx) :
    (dot_S128x1024_S2048x1024_S128x2048_1_1_0_0_n_n.rhsIdx i q 0).val = (i 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl
/-- The right operand's column coordinate is the contraction index. -/
private theorem rhs_head_1 (i : S128x2048.Idx) (q : dot_S128x1024_S2048x1024_S128x2048_1_1_0_0_n_n.contr.Idx) :
    (dot_S128x1024_S2048x1024_S128x2048_1_1_0_0_n_n.rhsIdx i q 1).val = (q ⟨0, by decide⟩).val :=
  dot_S128x1024_S2048x1024_S128x2048_1_1_0_0_n_n.rhsIdx_val_of_single rfl i q

/-- The head's matmul at row `r`, column `j`: the inner product of the row with the padded weights' row `j`. -/
private theorem matmul_at (a : FVec Ideal S128x1024 .bf16) (b : FVec Ideal S2048x1024 .bf16) (r : Fin 128) (j : Fin 2048) :
    matmul dot_S128x1024_S2048x1024_S128x2048_1_1_0_0_n_n none a b (constant (F := Ideal) S128x2048 .f32 0x00000000#32) (ix2 r j)
      = ∑ k : Fin 1024, a (ix2 r k) * b (ix2 j k) := by
  simp only [matmul]
  rw [Ideal.matmul_constant_zero_apply, ← Equiv.sum_comp (ValueIdx.contrEquiv1 dot_S128x1024_S2048x1024_S128x2048_1_1_0_0_n_n 1024 rfl rfl).symm]
  refine Finset.sum_congr rfl fun k _ => ?_
  have hk := ValueIdx.contrEquiv1_symm_val dot_S128x1024_S2048x1024_S128x2048_1_1_0_0_n_n 1024 rfl rfl k
  have el : dot_S128x1024_S2048x1024_S128x2048_1_1_0_0_n_n.lhsIdx (ix2 r j) ((ValueIdx.contrEquiv1 dot_S128x1024_S2048x1024_S128x2048_1_1_0_0_n_n 1024 rfl rfl).symm k) = ix2 r k := funext fun a => Fin.ext (by
    match a with
    | ⟨0, _⟩ => exact lhs_head_0 _ _
    | ⟨1, _⟩ => exact (lhs_head_1 _ _).trans hk)
  have er : dot_S128x1024_S2048x1024_S128x2048_1_1_0_0_n_n.rhsIdx (ix2 r j) ((ValueIdx.contrEquiv1 dot_S128x1024_S2048x1024_S128x2048_1_1_0_0_n_n 1024 rfl rfl).symm k) = ix2 j k := funext fun a => Fin.ext (by
    match a with
    | ⟨0, _⟩ => exact rhs_head_0 _ _
    | ⟨1, _⟩ => exact (rhs_head_1 _ _).trans hk)
  rw [el, er]

/-- A column index below 2048, as a signed 32-bit word, is below 2002 exactly when the number is. -/
private theorem slt_2002 (j : Fin 2048) :
    IntOp.cmpi .slt (BitVec.ofNat 32 j.val) 2002#32 = if j.val < 2002 then 1#1 else 0#1 := by
  have hj := j.isLt
  have hs : (BitVec.ofNat 32 j.val).slt 2002#32 = decide (j.val < 2002) := by
    rw [BitVec.slt, BitVec.toInt_eq_toNat_cond, BitVec.toInt_eq_toNat_cond]
    simp only [BitVec.toNat_ofNat]
    rw [Nat.mod_eq_of_lt (by omega)]
    by_cases h : j.val < 2002
    · rw [decide_eq_true h, decide_eq_true_iff]; simp; omega
    · rw [decide_eq_false h, decide_eq_false_iff_not]; simp; omega
  unfold IntOp.cmpi
  show BitVec.ofBool ((BitVec.ofNat 32 j.val).slt 2002#32) = _
  rw [hs]
  by_cases h : j.val < 2002
  · rw [if_pos h, decide_eq_true h]; rfl
  · rw [if_neg h, decide_eq_false h]; rfl

/-- The masked head logits at row `r`, column `j`. -/
private theorem pay13_at (r : Fin 128) (j : Fin 2048) :
    k0_pay13 (F := Ideal) x0 x2 (ix2 r j)
      = if j.val < 2002 then ∑ k : Fin 1024, x0 (ix2 r k) * x2 (ix2 j k) else (⊥ : EReal) := by
  unfold k0_pay13 k0_pay10
  show Scalar.select (IntOp.cmpi .slt (iota .tc S128x2048 32 [1] iota_S128x2048_d1_w32 (ix2 r j)) 2002#32)
        (matmul dot_S128x1024_S2048x1024_S128x2048_1_1_0_0_n_n none (shapeCast S128x1024 x0 shapeCasts_S128x1024_S128x1024)
          (shapeCast S2048x1024 x2 shapeCasts_S2048x1024_S2048x1024) (constant (F := Ideal) S128x2048 .f32 0x00000000#32) (ix2 r j))
        (Named.named (F := Ideal) Cert.KernelIdeal.κ "neg_big" (φ := .f32) 0xF149F2CA#32) = _
  rw [iota_at, slt_2002, shapeCast_self, shapeCast_self, matmul_at, neg_big]
  by_cases h : j.val < 2002
  · rw [if_pos h, if_pos h, select_one]
  · rw [if_neg h, if_neg h, select_zero]

/-- Row `r` of the masked head logits is the row's 2002 real logits, then −∞. -/
private theorem row_masked (hx0 : ∀ r k, x0 (ix2 r k) = ((xr r k : ℝ) : EReal)) (hx2 : ∀ j k, x2 (ix2 j k) = ((hwr j k : ℝ) : EReal)) (r : Fin 128) :
    Cert.Lse.Masked 2002 (headRow (xr r) hwr) (fun j : Fin 2048 => k0_pay13 (F := Ideal) x0 x2 (ix2 r j)) := by
  intro j
  show k0_pay13 (F := Ideal) x0 x2 (ix2 r j) = _
  rw [pay13_at]
  by_cases h : j.val < 2002
  · rw [if_pos h, dif_pos h]
    have hs : ∑ k : Fin 1024, x0 (ix2 r k) * x2 (ix2 j k) = ∑ k : Fin 1024, ((xr r k : ℝ) : EReal) * ((hwr j k : ℝ) : EReal) :=
      Finset.sum_congr rfl (fun k _ => by rw [hx0, hx2])
    rw [hs, Cert.Lse.dot_coe]
    rfl
  · rw [if_neg h, dif_neg h]

/-- The index a lane reduction reads at row `r`, lane `k`. -/
private theorem lift_at (r : Fin 128) (k : Fin 2048) : reduces_S128x2048_S128.lift (ix1 r) k = ix2 r k :=
  funext fun a => Fin.ext (by
    match a with
    | ⟨0, _⟩ => rfl
    | ⟨1, _⟩ => rfl)

/-- The pattern of −∞ denotes −∞. -/
private theorem ninf_f32 : FloatOps.ofBits (F := Ideal) .f32 0xFF800000#32 = (⊥ : EReal) := by
  simp [Ideal.ofBits, Ideal.ieee]

/-- A row's lane maximum: the fold of `max` from −∞ over the row. -/
private theorem rowmax_at (z : FVec Ideal S128x2048 .f32) (r : Fin 128) :
    multiReduction (F := Ideal) .maximumf [1] S128 z 0xFF800000#32 reduces_S128x2048_S128 (.inl rfl) rfl (ix1 r)
      = (Finset.univ : Finset (Fin 2048)).fold max (⊥ : EReal) (fun j => z (ix2 r j)) := by
  refine (Ideal.multiReduction_maximumf_single z 0xFF800000#32 reduces_S128x2048_S128 (.inl rfl) rfl (ix1 r)).trans ?_
  rw [ninf_f32]
  exact congrArg (fun f : Fin 2048 → EReal => (Finset.univ : Finset (Fin 2048)).fold max (⊥ : EReal) f)
    (funext fun k => congrArg z (lift_at r k))

/-- A row's lane sum. -/
private theorem rowsum_at (z : FVec Ideal S128x2048 .f32) (r : Fin 128) :
    multiReduction (F := Ideal) .add [1] S128 z 0x00000000#32 reduces_S128x2048_S128 (.inl rfl) rfl (ix1 r)
      = ∑ k : Fin 2048, z (ix2 r k) := by
  refine (Ideal.multiReduction_add_single z 0x00000000#32 reduces_S128x2048_S128 (.inl rfl) rfl (ix1 r)).trans ?_
  exact Finset.sum_congr rfl (fun k _ => congrArg z (lift_at r k))

/-- The column "maximum + log of the sum of shifted exponentials" of a block of rows, at a row whose maximum is the
    real number `M`. -/
private theorem lse_col (z : FVec Ideal S128x2048 .f32) (r : Fin 128) (M : ℝ)
    (hM : (Finset.univ : Finset (Fin 2048)).fold max (⊥ : EReal) (fun j => z (ix2 r j)) = (M : EReal)) :
    addf (shapeCast S128x1 (multiReduction (F := Ideal) .maximumf [1] S128 z 0xFF800000#32 reduces_S128x2048_S128 (.inl rfl) rfl) shapeCasts_S128_S128x1)
      (log (shapeCast S128x1 (multiReduction (F := Ideal) .add [1] S128 (exp (subf z (broadcastTo S128x2048 (shapeCast S128x1 (multiReduction (F := Ideal) .maximumf [1] S128 z 0xFF800000#32 reduces_S128x2048_S128 (.inl rfl) rfl) shapeCasts_S128_S128x1) broadcasts_S128x1_S128x2048))) 0x00000000#32 reduces_S128x2048_S128 (.inl rfl) rfl) shapeCasts_S128_S128x1)) (ix2 r (0 : Fin 1))
    = (M : EReal) + Ideal.log (∑ k : Fin 2048, Ideal.exp (z (ix2 r k) - (M : EReal))) := by
  have hcol : ∀ u : Fin 1, shapeCast S128x1 (multiReduction (F := Ideal) .maximumf [1] S128 z 0xFF800000#32 reduces_S128x2048_S128 (.inl rfl) rfl) shapeCasts_S128_S128x1 (ix2 r u) = (M : EReal) := by
    intro u
    rw [shapeCast_a_a1_apply, rowmax_at, hM]
  rw [addf_apply, hcol]
  show _ + Ideal.log (shapeCast S128x1 _ _ (ix2 r 0)) = _
  rw [shapeCast_a_a1_apply, rowsum_at]
  refine congrArg (fun s => (M : EReal) + Ideal.log s) (Finset.sum_congr rfl fun k _ => ?_)
  show Ideal.exp (z (ix2 r k) - broadcastTo S128x2048 _ _ (ix2 r k)) = _
  rw [broadcastTo_a1_ab_apply, hcol]

/-- The head's log-sum-exp column at row `r`. -/
private theorem pay14_at (hx0 : ∀ r k, x0 (ix2 r k) = ((xr r k : ℝ) : EReal)) (hx2 : ∀ j k, x2 (ix2 j k) = ((hwr j k : ℝ) : EReal)) (r : Fin 128) :
    k0_pay14 (F := Ideal) x0 x2 (ix2 r (0 : Fin 1)) = ((lse (headRow (xr r) hwr) : ℝ) : EReal) := by
  have hz := row_masked x0 x2 xr hwr hx0 hx2 r
  obtain ⟨M, hM⟩ := Cert.Lse.fold_max_real (headRow (xr r) hwr) _ (by norm_num) (by norm_num) hz
  have hl : Ideal.log (∑ k : Fin 2048, Ideal.exp (k0_pay13 (F := Ideal) x0 x2 (ix2 r k) - (M : EReal)))
      = ((lse (headRow (xr r) hwr) - M : ℝ) : EReal) :=
    Cert.Lse.log_sum_exp_shift (headRow (xr r) hwr) _ (by norm_num) (by norm_num) hz M
  unfold k0_pay14
  refine (lse_col (k0_pay13 (F := Ideal) x0 x2) r M hM).trans ?_
  rw [hl, ← EReal.coe_add]
  congr 1
  ring

/-- A signed word clamped into [0, 1999] is, as a natural number, below 2002. -/
private theorem clamp_lt (v : BitVec 32) : (clampW 1999#32 v).toNat < 2002 := by
  unfold clampW IntOp.minsi IntOp.maxsi
  split_ifs with h1 h2 h2
  · decide
  · decide
  · decide
  · have hv := v.isLt
    rw [BitVec.slt, decide_eq_true_iff, BitVec.toInt_eq_toNat_cond, BitVec.toInt_eq_toNat_cond] at h1 h2
    simp at h1 h2
    omega
/-- The entry of the row at a literal column below 2002. -/
private theorem atW_lit (H : Fin 2002 → ℝ) (n : ℕ) (hn : n < 2002) : atW H (BitVec.ofNat 32 n) = H ⟨n, hn⟩ := by
  have h32 : (BitVec.ofNat 32 n).toNat = n := by
    rw [BitVec.toNat_ofNat]; exact Nat.mod_eq_of_lt (by omega)
  unfold atW
  rw [dif_pos (by rw [h32]; exact hn)]
  congr 1
  exact Fin.ext h32

/-- The label a row is scored at. -/
theorem tgt_eq (r : Fin 128) : k0_pay12 (F := Ideal) x1 (ix1 r) = tgt (x1 (ix1 r)) := by
  rfl

/-- The row weight. -/
theorem vf_eq (r : Fin 128) : k0_pay8 (F := Ideal) (k0_pay11 (F := Ideal) x1) (ix1 r) = ((vfR (x1 (ix1 r)) : ℝ) : EReal) := by
  show (((((IntOp.cmpi .ne (x1 (ix1 r)) 4294967295#32).setWidth 32).toInt : ℝ)) : EReal) = _
  unfold vfR
  rcases bit_cases (IntOp.cmpi .ne (x1 (ix1 r)) 4294967295#32) with h | h <;> rw [h] <;> simp

/-- The head's log-probability at the clamped label. -/
theorem logp_eq (hx0 : ∀ r k, x0 (ix2 r k) = ((xr r k : ℝ) : EReal)) (hx2 : ∀ j k, x2 (ix2 j k) = ((hwr j k : ℝ) : EReal)) (r : Fin 128) :
    k0_pay15 (F := Ideal) x0 x1 x2 (ix1 r)
      = ((atW (headRow (xr r) hwr) (clampW 1999#32 (tgt (x1 (ix1 r)))) - lse (headRow (xr r) hwr) : ℝ) : EReal) := by
  have hz := row_masked x0 x2 xr hwr hx0 hx2 r
  unfold k0_pay15
  dsimp only
  rw [subf_apply, shapeCast_a1_a_apply, pay14_at x0 x2 xr hwr hx0 hx2 r, rowsum_at, EReal.coe_sub]
  refine congrArg (fun s : EReal => s - ((lse (headRow (xr r) hwr) : ℝ) : EReal)) ?_
  refine (Finset.sum_congr rfl fun k _ => ?_).trans
    (Cert.Lse.onehot_sum (headRow (xr r) hwr) (fun j : Fin 2048 => k0_pay13 (F := Ideal) x0 x2 (ix2 r j)) (by norm_num) (by norm_num) hz
      (clampW 1999#32 (tgt (x1 (ix1 r)))) (clamp_lt _))
  show Scalar.select (IntOp.cmpi .eq (iota .tc S128x2048 32 [1] iota_S128x2048_d1_w32 (ix2 r k)) (broadcastTo S128x2048 _ _ (ix2 r k)))
      (k0_pay13 (F := Ideal) x0 x2 (ix2 r k)) (Ideal.ofBits .f32 0x00000000#32) = _
  rw [iota_at, broadcastTo_a1_ab_apply, shapeCast_a_a1_apply, Ideal.ofBits_zero_f32]
  rfl

/-- The head's log-probability of the first cluster's slot (column 2000). -/
theorem slot0_eq (hx0 : ∀ r k, x0 (ix2 r k) = ((xr r k : ℝ) : EReal)) (hx2 : ∀ j k, x2 (ix2 j k) = ((hwr j k : ℝ) : EReal)) (r : Fin 128) :
    k0_pay16 (F := Ideal) x0 x2 (ix1 r) = ((atW (headRow (xr r) hwr) 2000#32 - lse (headRow (xr r) hwr) : ℝ) : EReal) := by
  have hz := row_masked x0 x2 xr hwr hx0 hx2 r
  unfold k0_pay16
  rw [subf_apply, shapeCast_a1_a_apply, shapeCast_a1_a_apply, pay14_at x0 x2 xr hwr hx0 hx2 r,
    slice2_axis1_apply 2000 (k0_pay13 (F := Ideal) x0 x2) slices_S128x2048_o0_2000_S128x1 r (0 : Fin 1) (⟨2000, by norm_num⟩ : Fin 2048) rfl,
    EReal.coe_sub]
  refine congrArg (fun s : EReal => s - ((lse (headRow (xr r) hwr) : ℝ) : EReal)) ?_
  refine (hz ⟨2000, by norm_num⟩).trans ?_
  rw [dif_pos (show (2000 : ℕ) < 2002 by norm_num)]
  exact congrArg _ (atW_lit (headRow (xr r) hwr) 2000 (by norm_num)).symm

/-- The head's log-probability of the second cluster's slot (column 2001). -/
theorem slot1_eq (hx0 : ∀ r k, x0 (ix2 r k) = ((xr r k : ℝ) : EReal)) (hx2 : ∀ j k, x2 (ix2 j k) = ((hwr j k : ℝ) : EReal)) (r : Fin 128) :
    k0_pay19 (F := Ideal) (k0_pay17 (F := Ideal) x0 x2) (k0_pay18 (F := Ideal) x0 x2) (ix1 r)
      = ((atW (headRow (xr r) hwr) 2001#32 - lse (headRow (xr r) hwr) : ℝ) : EReal) := by
  have hz := row_masked x0 x2 xr hwr hx0 hx2 r
  unfold k0_pay19 k0_pay17 k0_pay18
  rw [subf_apply, shapeCast_a1_a_apply, shapeCast_a1_a_apply, pay14_at x0 x2 xr hwr hx0 hx2 r,
    slice2_axis1_apply 2001 (k0_pay13 (F := Ideal) x0 x2) slices_S128x2048_o0_2001_S128x1 r (0 : Fin 1) (⟨2001, by norm_num⟩ : Fin 2048) rfl,
    EReal.coe_sub]
  refine congrArg (fun s : EReal => s - ((lse (headRow (xr r) hwr) : ℝ) : EReal)) ?_
  refine (hz ⟨2001, by norm_num⟩).trans ?_
  rw [dif_pos (show (2001 : ℕ) < 2002 by norm_num)]
  exact congrArg _ (atW_lit (headRow (xr r) hwr) 2001 (by norm_num)).symm

end Cert.KernelIdeal.Head

end
-- ==== Proof.KernelTail0.lean ====
/-
  The first tail cluster of the kernel's body at one row: the row projected to 256 dimensions, scored against the
  8192 padded classes in 8 chunks of 1024 with the padded classes masked to −∞, the chunks folded by the online
  softmax; the picked logit minus the log-sum-exp is the class's log-probability inside the cluster, added to the
  head's slot and selected for the rows whose label lies in the cluster.
-/
import proofs.«409923_j27530740367371_2_alg».proof.Proof.KernelPieces
import proofs.«409923_j27530740367371_2_alg».proof.Proof.Rows
import proofs.«409923_j27530740367371_2_alg».proof.Proof.LibLse
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open Idealize.ShloMosaic Idealize.ShloMosaic.TcCoe Idealize.SL.Sem Idealize.ShloMosaic.ValueIdx

namespace Cert.KernelIdeal.Tail0

open Cert.KernelIdeal Cert.KernelIdeal.Gen Cert.KernelIdeal.Pieces Cert.Spec Cert.Rows

variable (x0 : Vec Ideal S128x1024 .bf16) (x1 : Vec Ideal S128 .i32) (x3 : Vec Ideal S256x1024 .bf16) (x4 : Vec Ideal S8192x256 .bf16)
  (xr : Fin 128 → Fin 1024 → ℝ) (p0r : Fin 256 → Fin 1024 → ℝ) (o0r : Fin 8192 → Fin 256 → ℝ)

/-- The loop runs 8 trips. -/
private theorem trips_eq : k0_t1_loop.trips = 8 := by decide

/-- The bit pattern of −∞. -/
private theorem negInf_f32 : Ideal.ofBits .f32 0xFF800000#32 = (⊥ : EReal) := by simp [Ideal.ofBits, Ideal.ieee]

/-- The masking fill is −∞ at the ideal values. -/
private theorem neg_big : Named.named (F := Ideal) Cert.KernelIdeal.κ "neg_big" (φ := .f32) 0xF149F2CA#32 = (⊥ : EReal) :=
  IdealRules.named_const.ideal_named_scalar _ _ _ _ rfl

/-- Trip `k`'s first column, `k · 1024`, as the 32-bit word the loop computes. -/
private theorem base_word : ∀ k : Fin k0_t1_loop.trips, Scalar.muli (Scf.iv 0#32 1#32 k) 1024#32 = BitVec.ofNat 32 (k.val * 1024) := by decide +kernel

/-- The column number at `(r, j)` in trip `k`: `k · 1024 + j`. -/
private theorem col_word (k : Fin k0_t1_loop.trips) (r : Fin 128) (j : Fin 1024) :
    k0_pay23 k (ix2 r j) = BitVec.ofNat 32 (k.val * 1024 + j.val) := by
  unfold k0_pay23
  show IntOp.addi (Scalar.muli (Scf.iv 0#32 1#32 k) 1024#32) (iota .tc S128x1024 32 [1] iota_S128x1024_d1_w32 (ix2 r j)) = _
  rw [base_word k, iota_single_apply]
  show BitVec.ofNat 32 (k.val * 1024) + BitVec.ofNat 32 j.val = _
  rw [← BitVec.ofNat_add]

/-! ## Column vectors: the keepdims layout forms -/

/-- An `[a]` array cast to `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
private theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an index -/

/-! The operand indices of the projection's product, axis by axis. -/

private theorem lhs_proj_0 (i : S128x256.Idx) (q : dot_S128x1024_S256x1024_S128x256_1_1_0_0_n_n.contr.Idx) :
    (dot_S128x1024_S256x1024_S128x256_1_1_0_0_n_n.lhsIdx i q 0).val = (i 0).val := by
  unfold DotDims.lhsIdx
  rw [dif_neg (show ¬(0 : Fin S128x1024.rank) ∈ dot_S128x1024_S256x1024_S128x256_1_1_0_0_n_n.lhsBatch by decide), dif_pos (show (0 : Fin S128x1024.rank) ∈ dot_S128x1024_S256x1024_S128x256_1_1_0_0_n_n.lhsNonContracting by decide)]
  rfl
private theorem lhs_proj_1 (i : S128x256.Idx) (q : dot_S128x1024_S256x1024_S128x256_1_1_0_0_n_n.contr.Idx) :
    (dot_S128x1024_S256x1024_S128x256_1_1_0_0_n_n.lhsIdx i q 1).val = (q ⟨0, by decide⟩).val :=
  dot_S128x1024_S256x1024_S128x256_1_1_0_0_n_n.lhsIdx_val_of_single rfl i q
private theorem rhs_proj_0 (i : S128x256.Idx) (q : dot_S128x1024_S256x1024_S128x256_1_1_0_0_n_n.contr.Idx) :
    (dot_S128x1024_S256x1024_S128x256_1_1_0_0_n_n.rhsIdx i q 0).val = (i 1).val := by
  unfold DotDims.rhsIdx
  rw [dif_neg (show ¬(0 : Fin S256x1024.rank) ∈ dot_S128x1024_S256x1024_S128x256_1_1_0_0_n_n.rhsBatch by decide), dif_pos (show (0 : Fin S256x1024.rank) ∈ dot_S128x1024_S256x1024_S128x256_1_1_0_0_n_n.rhsNonContracting by decide)]
  rfl
private theorem rhs_proj_1 (i : S128x256.Idx) (q : dot_S128x1024_S256x1024_S128x256_1_1_0_0_n_n.contr.Idx) :
    (dot_S128x1024_S256x1024_S128x256_1_1_0_0_n_n.rhsIdx i q 1).val = (q ⟨0, by decide⟩).val :=
  dot_S128x1024_S256x1024_S128x256_1_1_0_0_n_n.rhsIdx_val_of_single rfl i q

/-- The projection: entry `(r, c)` is the inner product of row `r` of the block with row `c` of the projection matrix. -/
private theorem proj_apply (lhs : FVec Ideal S128x1024 .bf16) (rhs : FVec Ideal S256x1024 .bf16) (r : Fin 128) (c : Fin 256) :
    matmul dot_S128x1024_S256x1024_S128x256_1_1_0_0_n_n none lhs rhs (constant (F := Ideal) S128x256 .f32 0x00000000#32) (ix2 r c)
      = ∑ k : Fin 1024, lhs (ix2 r k) * rhs (ix2 c k) := by
  refine (Ideal.matmul_constant_zero_apply dot_S128x1024_S256x1024_S128x256_1_1_0_0_n_n none lhs rhs (ix2 r c)).trans ?_
  rw [← Equiv.sum_comp (contrEquiv1 dot_S128x1024_S256x1024_S128x256_1_1_0_0_n_n 1024 rfl rfl).symm]
  refine Finset.sum_congr rfl fun k _ => ?_
  have hk := contrEquiv1_symm_val dot_S128x1024_S256x1024_S128x256_1_1_0_0_n_n 1024 rfl rfl k
  have el : dot_S128x1024_S256x1024_S128x256_1_1_0_0_n_n.lhsIdx (ix2 r c) ((contrEquiv1 dot_S128x1024_S256x1024_S128x256_1_1_0_0_n_n 1024 rfl rfl).symm k) = ix2 r k := funext fun a => Fin.ext (by
    match a with
    | ⟨0, _⟩ => exact lhs_proj_0 _ _
    | ⟨1, _⟩ => exact (lhs_proj_1 _ _).trans hk)
  have er : dot_S128x1024_S256x1024_S128x256_1_1_0_0_n_n.rhsIdx (ix2 r c) ((contrEquiv1 dot_S128x1024_S256x1024_S128x256_1_1_0_0_n_n 1024 rfl rfl).symm k) = ix2 c k := funext fun a => Fin.ext (by
    match a with
    | ⟨0, _⟩ => exact rhs_proj_0 _ _
    | ⟨1, _⟩ => exact (rhs_proj_1 _ _).trans hk)
  rw [el, er]

/-! The operand indices of the scores' product, axis by axis. -/

private theorem lhs_score_0 (i : S128x1024.Idx) (q : dot_S128x256_S1024x256_S128x1024_1_1_0_0_n_n.contr.Idx) :
    (dot_S128x256_S1024x256_S128x1024_1_1_0_0_n_n.lhsIdx i q 0).val = (i 0).val := by
  unfold DotDims.lhsIdx
  rw [dif_neg (show ¬(0 : Fin S128x256.rank) ∈ dot_S128x256_S1024x256_S128x1024_1_1_0_0_n_n.lhsBatch by decide), dif_pos (show (0 : Fin S128x256.rank) ∈ dot_S128x256_S1024x256_S128x1024_1_1_0_0_n_n.lhsNonContracting by decide)]
  rfl
private theorem lhs_score_1 (i : S128x1024.Idx) (q : dot_S128x256_S1024x256_S128x1024_1_1_0_0_n_n.contr.Idx) :
    (dot_S128x256_S1024x256_S128x1024_1_1_0_0_n_n.lhsIdx i q 1).val = (q ⟨0, by decide⟩).val :=
  dot_S128x256_S1024x256_S128x1024_1_1_0_0_n_n.lhsIdx_val_of_single rfl i q
private theorem rhs_score_0 (i : S128x1024.Idx) (q : dot_S128x256_S1024x256_S128x1024_1_1_0_0_n_n.contr.Idx) :
    (dot_S128x256_S1024x256_S128x1024_1_1_0_0_n_n.rhsIdx i q 0).val = (i 1).val := by
  unfold DotDims.rhsIdx
  rw [dif_neg (show ¬(0 : Fin S1024x256.rank) ∈ dot_S128x256_S1024x256_S128x1024_1_1_0_0_n_n.rhsBatch by decide), dif_pos (show (0 : Fin S1024x256.rank) ∈ dot_S128x256_S1024x256_S128x1024_1_1_0_0_n_n.rhsNonContracting by decide)]
  rfl
private theorem rhs_score_1 (i : S128x1024.Idx) (q : dot_S128x256_S1024x256_S128x1024_1_1_0_0_n_n.contr.Idx) :
    (dot_S128x256_S1024x256_S128x1024_1_1_0_0_n_n.rhsIdx i q 1).val = (q ⟨0, by decide⟩).val :=
  dot_S128x256_S1024x256_S128x1024_1_1_0_0_n_n.rhsIdx_val_of_single rfl i q

/-- The scores: entry `(r, c)` is the inner product of the projected row `r` with class row `c` of the chunk. -/
private theorem score_apply (lhs : FVec Ideal S128x256 .bf16) (rhs : FVec Ideal S1024x256 .bf16) (r : Fin 128) (c : Fin 1024) :
    matmul dot_S128x256_S1024x256_S128x1024_1_1_0_0_n_n none lhs rhs (constant (F := Ideal) S128x1024 .f32 0x00000000#32) (ix2 r c)
      = ∑ k : Fin 256, lhs (ix2 r k) * rhs (ix2 c k) := by
  refine (Ideal.matmul_constant_zero_apply dot_S128x256_S1024x256_S128x1024_1_1_0_0_n_n none lhs rhs (ix2 r c)).trans ?_
  rw [← Equiv.sum_comp (contrEquiv1 dot_S128x256_S1024x256_S128x1024_1_1_0_0_n_n 256 rfl rfl).symm]
  refine Finset.sum_congr rfl fun k _ => ?_
  have hk := contrEquiv1_symm_val dot_S128x256_S1024x256_S128x1024_1_1_0_0_n_n 256 rfl rfl k
  have el : dot_S128x256_S1024x256_S128x1024_1_1_0_0_n_n.lhsIdx (ix2 r c) ((contrEquiv1 dot_S128x256_S1024x256_S128x1024_1_1_0_0_n_n 256 rfl rfl).symm k) = ix2 r k := funext fun a => Fin.ext (by
    match a with
    | ⟨0, _⟩ => exact lhs_score_0 _ _
    | ⟨1, _⟩ => exact (lhs_score_1 _ _).trans hk)
  have er : dot_S128x256_S1024x256_S128x1024_1_1_0_0_n_n.rhsIdx (ix2 r c) ((contrEquiv1 dot_S128x256_S1024x256_S128x1024_1_1_0_0_n_n 256 rfl rfl).symm k) = ix2 c k := funext fun a => Fin.ext (by
    match a with
    | ⟨0, _⟩ => exact rhs_score_0 _ _
    | ⟨1, _⟩ => exact (rhs_score_1 _ _).trans hk)
  rw [el, er]

/-! ## Words -/

/-- A natural number below `2 ^ 31` read back from its 32-bit word as a signed integer. -/
private theorem toInt_ofNat_small (n : ℕ) (hn : n < 2 ^ 31) : (BitVec.ofNat 32 n).toInt = (n : ℤ) := by
  rw [BitVec.toInt_eq_toNat_cond, BitVec.toNat_ofNat]
  have : n % 2 ^ 32 = n := Nat.mod_eq_of_lt (by omega)
  rw [this]
  split
  · rfl
  · omega

/-- The column test `col < 8000` on a 32-bit word holding a small natural number. -/
private theorem slt_word (n : ℕ) (hn : n < 8192) : IntOp.cmpi .slt (BitVec.ofNat 32 n) 8000#32 = if n < 8000 then 1#1 else 0#1 := by
  unfold IntOp.cmpi
  show BitVec.ofBool ((BitVec.ofNat 32 n).slt 8000#32) = _
  have h1 : (BitVec.ofNat 32 n).toInt = (n : ℤ) := toInt_ofNat_small n (by omega)
  have h2 : (8000#32 : BitVec 32).toInt = 8000 := by decide
  unfold BitVec.slt
  rw [h1, h2]
  by_cases h : n < 8000
  · rw [if_pos h]
    have : ((n : ℤ) < 8000) := by omega
    simp [this]
  · rw [if_neg h]
    have : ¬ ((n : ℤ) < 8000) := by omega
    simp [this]

/-- A word clamped into `[0, 7999]` reads as a natural number below 8000. -/
private theorem clampW_lt (w : BitVec 32) : (clampW 7999#32 w).toNat < 8000 := by
  unfold clampW IntOp.minsi IntOp.maxsi
  have e0 : (0#32 : BitVec 32).toInt = 0 := by decide
  have e1 : (7999#32 : BitVec 32).toInt = 7999 := by decide
  by_cases h1 : (w.slt 0#32) = true
  · rw [if_pos h1]; decide
  · rw [if_neg h1]
    by_cases h2 : ((7999#32 : BitVec 32).slt w) = true
    · rw [if_pos h2]; decide
    · rw [if_neg h2]
      simp only [BitVec.slt, decide_eq_true_eq, e0] at h1
      simp only [BitVec.slt, decide_eq_true_eq, e1] at h2
      have h3 := BitVec.toInt_eq_toNat_cond w
      split at h3 <;> omega

/-! ## The chunk's masked logits of a row -/

/-- Chunk `k` at `(j, a)` is the padded class weights at row `k · 1024 + j`. -/
private theorem chunk0_apply (k : Fin k0_t1_loop.trips) (j : Fin 1024) (a : Fin 256)
    (hj : k.val * 1024 + j.val < 8192) : chunk0 x4 k (ix2 j a) = x4 (ix2 ⟨k.val * 1024 + j.val, hj⟩ a) := by
  unfold chunk0
  show x4 ((Rect.unit (s := S8192x256) (k0_off1 k) S1024x256.size (k0_off1_inb k)).idx (ix2 j a)) = _
  refine congrArg x4 (funext fun ax => Fin.ext ?_)
  have hoff := k0_off1_eq k
  match ax with
  | ⟨0, _⟩ =>
    show (k0_off1 k) 0 + 1 * j.val = k.val * 1024 + j.val
    rw [hoff]
    show 1024 * k.val + 1 * j.val = _
    omega
  | ⟨1, _⟩ =>
    show (k0_off1 k) 1 + 1 * a.val = a.val
    rw [hoff]
    show 0 + 1 * a.val = _
    omega

/-- The projected row: entry `a` is the real inner product of the row with projection row `a`. -/
private theorem proj_row (hx0 : ∀ r k, x0 (ix2 r k) = ((xr r k : ℝ) : EReal)) (hx3 : ∀ a k, x3 (ix2 a k) = ((p0r a k : ℝ) : EReal))
    (r : Fin 128) (a : Fin 256) :
    matmul dot_S128x1024_S256x1024_S128x256_1_1_0_0_n_n none (k0_pay10 (F := Ideal) x0) (shapeCast S256x1024 x3 shapeCasts_S256x1024_S256x1024 : FVec Ideal S256x1024 .bf16)
        (constant (F := Ideal) S128x256 .f32 0x00000000#32) (ix2 r a) = ((dot (xr r) (p0r a) : ℝ) : EReal) := by
  have e1 : k0_pay10 (F := Ideal) x0 = x0 := shapeCast_self x0 _
  have e2 : (shapeCast S256x1024 x3 shapeCasts_S256x1024_S256x1024 : FVec Ideal S256x1024 .bf16) = x3 := shapeCast_self x3 _
  rw [e1, e2, proj_apply]
  rw [Finset.sum_congr rfl (fun k _ => by rw [hx0 r k, hx3 a k])]
  exact Cert.Lse.dot_coe (xr r) (p0r a)

/-- Chunk `k`'s score of row `r` against class row `k · 1024 + j`: the real inner product of the projected row with
    that class row. -/
private theorem score_row (hx0 : ∀ r k, x0 (ix2 r k) = ((xr r k : ℝ) : EReal)) (hx3 : ∀ a k, x3 (ix2 a k) = ((p0r a k : ℝ) : EReal))
    (hx4 : ∀ j a, x4 (ix2 j a) = ((o0r j a : ℝ) : EReal)) (k : Fin k0_t1_loop.trips) (r : Fin 128) (j : Fin 1024) (hj : k.val * 1024 + j.val < 8192) :
    (matmul dot_S128x256_S1024x256_S128x1024_1_1_0_0_n_n none (truncf .bf16 (matmul dot_S128x1024_S256x1024_S128x256_1_1_0_0_n_n none (k0_pay10 (F := Ideal) x0) (shapeCast S256x1024 x3 shapeCasts_S256x1024_S256x1024 : FVec Ideal S256x1024 .bf16) (constant (F := Ideal) S128x256 .f32 0x00000000#32)) bitsLt_bf16_f32 : FVec Ideal S128x256 .bf16) (shapeCast S1024x256 (chunk0 x4 k) shapeCasts_S1024x256_S1024x256 : FVec Ideal S1024x256 .bf16) (constant (F := Ideal) S128x1024 .f32 0x00000000#32)) (ix2 r j)
      = ((dot (fun a => dot (xr r) (p0r a)) (o0r ⟨k.val * 1024 + j.val, hj⟩) : ℝ) : EReal) := by
  have e3 : (shapeCast S1024x256 (chunk0 x4 k) shapeCasts_S1024x256_S1024x256 : FVec Ideal S1024x256 .bf16) = chunk0 x4 k := shapeCast_self _ _
  rw [e3, score_apply]
  rw [Finset.sum_congr rfl (fun a _ => by
    show (matmul dot_S128x1024_S256x1024_S128x256_1_1_0_0_n_n none (k0_pay10 (F := Ideal) x0) (shapeCast S256x1024 x3 shapeCasts_S256x1024_S256x1024 : FVec Ideal S256x1024 .bf16) (constant (F := Ideal) S128x256 .f32 0x00000000#32)) (ix2 r a) * chunk0 x4 k (ix2 j a)
      = ((dot (xr r) (p0r a) : ℝ) : EReal) * ((o0r ⟨k.val * 1024 + j.val, hj⟩ a : ℝ) : EReal)
    rw [proj_row x0 x3 xr p0r hx0 hx3 r a, chunk0_apply x4 k j a hj, hx4])]
  exact Cert.Lse.dot_coe (fun a => dot (xr r) (p0r a)) (o0r ⟨k.val * 1024 + j.val, hj⟩)

/-- Row `r`'s masked logits, chunk by chunk: the cluster's 8000 real logits, −∞ on the padded classes. -/
private def zs (r : Fin 128) : Fin k0_t1_loop.trips → Fin 1024 → EReal :=
  fun c j => if h : c.val * 1024 + j.val < 8000 then ((tailRow0 (xr r) p0r o0r ⟨c.val * 1024 + j.val, h⟩ : ℝ) : EReal) else ⊥

/-- The kernel's masked chunk logits at `(r, j)`. -/
private theorem pay24_apply (hx0 : ∀ r k, x0 (ix2 r k) = ((xr r k : ℝ) : EReal)) (hx3 : ∀ a k, x3 (ix2 a k) = ((p0r a k : ℝ) : EReal))
    (hx4 : ∀ j a, x4 (ix2 j a) = ((o0r j a : ℝ) : EReal)) (k : Fin k0_t1_loop.trips) (r : Fin 128) (j : Fin 1024) :
    k0_pay24 (F := Ideal) (k0_pay10 (F := Ideal) x0) x3 k (chunk0 x4 k) (ix2 r j) = zs xr p0r o0r r k j := by
  have hk : k.val < 8 := lt_of_lt_of_le k.isLt k0_t1_abs.2.1
  have hj : k.val * 1024 + j.val < 8192 := by have := j.isLt; omega
  unfold k0_pay24
  show Scalar.select (IntOp.cmpi .slt (k0_pay23 k (ix2 r j)) 8000#32) ((matmul dot_S128x256_S1024x256_S128x1024_1_1_0_0_n_n none (truncf .bf16 (matmul dot_S128x1024_S256x1024_S128x256_1_1_0_0_n_n none (k0_pay10 (F := Ideal) x0) (shapeCast S256x1024 x3 shapeCasts_S256x1024_S256x1024 : FVec Ideal S256x1024 .bf16) (constant (F := Ideal) S128x256 .f32 0x00000000#32)) bitsLt_bf16_f32 : FVec Ideal S128x256 .bf16) (shapeCast S1024x256 (chunk0 x4 k) shapeCasts_S1024x256_S1024x256 : FVec Ideal S1024x256 .bf16) (constant (F := Ideal) S128x1024 .f32 0x00000000#32)) (ix2 r j))
      (Named.named (F := Ideal) Cert.KernelIdeal.κ "neg_big" (φ := .f32) 0xF149F2CA#32) = _
  rw [col_word, neg_big, score_row x0 x3 x4 xr p0r o0r hx0 hx3 hx4 k r j hj, slt_word _ hj]
  unfold zs
  by_cases h : k.val * 1024 + j.val < 8000
  · rw [dif_pos h, if_pos h, select_one]; rfl
  · rw [dif_neg h, if_neg h, select_zero]

/-! ## Lane reductions of a `[128, 1024]` array at a row -/

/-- The index a lane reduction reads at row `r`, lane `j`, is `(r, j)`. -/
private theorem lift_row (r : Fin 128) (j : Fin 1024) : reduces_S128x1024_S128.lift (ix1 r) j = ix2 r j :=
  funext fun ax => Fin.ext (by
    match ax with
    | ⟨0, _⟩ => rfl
    | ⟨1, _⟩ => rfl)

/-- The lane maximum at row `r`: the fold of `max` from −∞ over the row. -/
private theorem rowMax_apply (src : FVec Ideal S128x1024 .f32) (r : Fin 128) :
    multiReduction (F := Ideal) .maximumf [1] S128 src 0xFF800000#32 reduces_S128x1024_S128 (.inl rfl) rfl (ix1 r)
      = (Finset.univ : Finset (Fin 1024)).fold max (⊥ : EReal) (fun j => src (ix2 r j)) := by
  refine (Ideal.multiReduction_maximumf_single src 0xFF800000#32 reduces_S128x1024_S128 (.inl rfl) rfl (ix1 r)).trans ?_
  have hf : (src ∘ reduces_S128x1024_S128.lift (ix1 r)) = fun j : Fin 1024 => src (ix2 r j) :=
    funext fun j => congrArg src (lift_row r j)
  show (Finset.univ : Finset (Fin 1024)).fold max (Ideal.ofBits .f32 0xFF800000#32) (src ∘ reduces_S128x1024_S128.lift (ix1 r)) = _
  rw [hf, negInf_f32]
  rfl

/-- The lane sum at row `r`. -/
private theorem rowSum_apply (src : FVec Ideal S128x1024 .f32) (r : Fin 128) :
    multiReduction (F := Ideal) .add [1] S128 src 0x00000000#32 reduces_S128x1024_S128 (.inl rfl) rfl (ix1 r)
      = ∑ j : Fin 1024, src (ix2 r j) := by
  refine (Ideal.multiReduction_add_single src 0x00000000#32 reduces_S128x1024_S128 (.inl rfl) rfl (ix1 r)).trans ?_
  exact Finset.sum_congr rfl fun j _ => congrArg src (lift_row r j)

/-! ## One trip of the loop at a row -/

/-- The row's clamped position inside the cluster, as the kernel computes it. -/
private def wd (r : Fin 128) : BitVec 32 := clampW 7999#32 (IntOp.subi (tgt (x1 (ix1 r))) 2000#32)

/-- The new running maximum: the old one against the chunk's maximum. -/
private theorem pay25_apply (hx0 : ∀ r k, x0 (ix2 r k) = ((xr r k : ℝ) : EReal)) (hx3 : ∀ a k, x3 (ix2 a k) = ((p0r a k : ℝ) : EReal))
    (hx4 : ∀ j a, x4 (ix2 j a) = ((o0r j a : ℝ) : EReal)) (k : Fin k0_t1_loop.trips) (m : FVec Ideal S128x1 .f32) (r : Fin 128) :
    (k0_pay25 (F := Ideal) (k0_pay10 (F := Ideal) x0) x3 k m (chunk0 x4 k)) (ix2 r (0 : Fin 1)) = max (m (ix2 r (0 : Fin 1))) ((Finset.univ : Finset (Fin 1024)).fold max (⊥ : EReal) (zs xr p0r o0r r k)) := by
  have hf : (fun j : Fin 1024 => (k0_pay24 (F := Ideal) (k0_pay10 (F := Ideal) x0) x3 k (chunk0 x4 k)) (ix2 r j)) = zs xr p0r o0r r k :=
    funext fun j => pay24_apply x0 x3 x4 xr p0r o0r hx0 hx3 hx4 k r j
  unfold k0_pay25
  show max (m (ix2 r (0 : Fin 1))) (shapeCast S128x1 (multiReduction (F := Ideal) .maximumf [1] S128 (k0_pay24 (F := Ideal) (k0_pay10 (F := Ideal) x0) x3 k (chunk0 x4 k)) 0xFF800000#32 reduces_S128x1024_S128 (.inl rfl) rfl) shapeCasts_S128_S128x1 (ix2 r (0 : Fin 1))) = _
  rw [shapeCast_a_a1_apply, rowMax_apply, hf]

/-- The new partial sum: the old one rescaled to the new maximum, plus the chunk's exponentials. -/
private theorem pay26_apply (hx0 : ∀ r k, x0 (ix2 r k) = ((xr r k : ℝ) : EReal)) (hx3 : ∀ a k, x3 (ix2 a k) = ((p0r a k : ℝ) : EReal))
    (hx4 : ∀ j a, x4 (ix2 j a) = ((o0r j a : ℝ) : EReal)) (k : Fin k0_t1_loop.trips) (m l : FVec Ideal S128x1 .f32) (r : Fin 128) :
    k0_pay26 (F := Ideal) (k0_pay10 (F := Ideal) x0) x3 k m l (chunk0 x4 k) (ix2 r (0 : Fin 1))
      = l (ix2 r (0 : Fin 1)) * Ideal.exp (m (ix2 r (0 : Fin 1)) - max (m (ix2 r (0 : Fin 1))) ((Finset.univ : Finset (Fin 1024)).fold max (⊥ : EReal) (zs xr p0r o0r r k)))
        + ∑ j : Fin 1024, Ideal.exp (zs xr p0r o0r r k j - max (m (ix2 r (0 : Fin 1))) ((Finset.univ : Finset (Fin 1024)).fold max (⊥ : EReal) (zs xr p0r o0r r k))) := by
  unfold k0_pay26
  show l (ix2 r (0 : Fin 1)) * Ideal.exp (m (ix2 r (0 : Fin 1)) - (k0_pay25 (F := Ideal) (k0_pay10 (F := Ideal) x0) x3 k m (chunk0 x4 k)) (ix2 r (0 : Fin 1)))
      + shapeCast S128x1 (multiReduction (F := Ideal) .add [1] S128 (exp (subf (k0_pay24 (F := Ideal) (k0_pay10 (F := Ideal) x0) x3 k (chunk0 x4 k)) (broadcastTo S128x1024 (k0_pay25 (F := Ideal) (k0_pay10 (F := Ideal) x0) x3 k m (chunk0 x4 k)) broadcasts_S128x1_S128x1024))) 0x00000000#32 reduces_S128x1024_S128 (.inl rfl) rfl) shapeCasts_S128_S128x1 (ix2 r (0 : Fin 1)) = _
  rw [shapeCast_a_a1_apply, rowSum_apply]
  rw [Finset.sum_congr rfl (fun j _ => by
    show Ideal.exp ((k0_pay24 (F := Ideal) (k0_pay10 (F := Ideal) x0) x3 k (chunk0 x4 k)) (ix2 r j) - broadcastTo S128x1024 (k0_pay25 (F := Ideal) (k0_pay10 (F := Ideal) x0) x3 k m (chunk0 x4 k)) broadcasts_S128x1_S128x1024 (ix2 r j))
      = Ideal.exp (zs xr p0r o0r r k j - (k0_pay25 (F := Ideal) (k0_pay10 (F := Ideal) x0) x3 k m (chunk0 x4 k)) (ix2 r (0 : Fin 1)))
    rw [pay24_apply x0 x3 x4 xr p0r o0r hx0 hx3 hx4 k r j, broadcastTo_a1_ab_apply])]
  rw [pay25_apply x0 x3 x4 xr p0r o0r hx0 hx3 hx4 k m r]

/-- The picked logit so far: the chunk's logit at the row's position, if the position lies in the chunk. -/
private theorem pay27_apply (hx0 : ∀ r k, x0 (ix2 r k) = ((xr r k : ℝ) : EReal)) (hx3 : ∀ a k, x3 (ix2 a k) = ((p0r a k : ℝ) : EReal))
    (hx4 : ∀ j a, x4 (ix2 j a) = ((o0r j a : ℝ) : EReal)) (k : Fin k0_t1_loop.trips) (g : FVec Ideal S128x1 .f32) (r : Fin 128) :
    k0_pay27 (F := Ideal) (k0_pay10 (F := Ideal) x0) (k0_pay12 (F := Ideal) x1) x3 k g (chunk0 x4 k) (ix2 r (0 : Fin 1))
      = g (ix2 r (0 : Fin 1))
        + ∑ j : Fin 1024, Scalar.select (IntOp.cmpi .eq (BitVec.ofNat 32 (k.val * 1024 + j.val)) (wd x1 r)) (zs xr p0r o0r r k j) (0 : EReal) := by
  have hw : (minsi (broadcast S128 7999#32) (maxsi (broadcast S128 0#32) (subi (k0_pay12 (F := Ideal) x1) (broadcast S128 2000#32))) : IVec S128 32) (ix1 r) = wd x1 r := rfl
  unfold k0_pay27
  show g (ix2 r (0 : Fin 1))
      + shapeCast S128x1 (multiReduction (F := Ideal) .add [1] S128
          (select (cmpi .eq (k0_pay23 k) (broadcastTo S128x1024 (shapeCast S128x1 (minsi (broadcast S128 7999#32) (maxsi (broadcast S128 0#32) (subi (k0_pay12 (F := Ideal) x1) (broadcast S128 2000#32))) : IVec S128 32) shapeCasts_S128_S128x1) broadcasts_S128x1_S128x1024))
            (k0_pay24 (F := Ideal) (k0_pay10 (F := Ideal) x0) x3 k (chunk0 x4 k)) (broadcast S128x1024 (FloatOps.ofBits (F := Ideal) .f32 0x00000000#32)))
          0x00000000#32 reduces_S128x1024_S128 (.inl rfl) rfl) shapeCasts_S128_S128x1 (ix2 r (0 : Fin 1)) = _
  rw [shapeCast_a_a1_apply, rowSum_apply]
  rw [Finset.sum_congr rfl (fun j _ => by
    show Scalar.select (IntOp.cmpi .eq (k0_pay23 k (ix2 r j))
          (broadcastTo S128x1024 (shapeCast S128x1 (minsi (broadcast S128 7999#32) (maxsi (broadcast S128 0#32) (subi (k0_pay12 (F := Ideal) x1) (broadcast S128 2000#32))) : IVec S128 32) shapeCasts_S128_S128x1) broadcasts_S128x1_S128x1024 (ix2 r j)))
        ((k0_pay24 (F := Ideal) (k0_pay10 (F := Ideal) x0) x3 k (chunk0 x4 k)) (ix2 r j)) (Ideal.ofBits .f32 0x00000000#32)
      = Scalar.select (IntOp.cmpi .eq (BitVec.ofNat 32 (k.val * 1024 + j.val)) (wd x1 r)) (zs xr p0r o0r r k j) (0 : EReal)
    rw [col_word, broadcastTo_a1_ab_apply, shapeCast_a_a1_apply, hw, pay24_apply x0 x3 x4 xr p0r o0r hx0 hx3 hx4 k r j,
      Ideal.ofBits_zero_f32])]

/-! ## The loop at a row is the online softmax over the row's masked chunk logits -/

/-- Before every trip `n`, the three carried columns at row `r` are the online softmax's state over the row's masked
    chunk logits and clamped position. -/
private theorem online_row (hx0 : ∀ r k, x0 (ix2 r k) = ((xr r k : ℝ) : EReal)) (hx3 : ∀ a k, x3 (ix2 a k) = ((p0r a k : ℝ) : EReal))
    (hx4 : ∀ j a, x4 (ix2 j a) = ((o0r j a : ℝ) : EReal)) (r : Fin 128) : ∀ n : ℕ,
    ((online0 (F := Ideal) (k0_pay10 (F := Ideal) x0) (k0_pay12 (F := Ideal) x1) x3 x4 n).1 (ix2 r (0 : Fin 1)), (online0 (F := Ideal) (k0_pay10 (F := Ideal) x0) (k0_pay12 (F := Ideal) x1) x3 x4 n).2.1 (ix2 r (0 : Fin 1)), (online0 (F := Ideal) (k0_pay10 (F := Ideal) x0) (k0_pay12 (F := Ideal) x1) x3 x4 n).2.2 (ix2 r (0 : Fin 1)))
      = Cert.Lse.online k0_t1_loop.trips (zs xr p0r o0r r) (wd x1 r) n
  | 0 => by
    rw [online0, Cert.Lse.online]
    show (Ideal.ofBits .f32 0xFF800000#32, Ideal.ofBits .f32 0x00000000#32, Ideal.ofBits .f32 0x00000000#32)
      = ((⊥ : EReal), (0 : EReal), (0 : EReal))
    rw [negInf_f32, Ideal.ofBits_zero_f32]
  | n + 1 => by
    have ih := online_row hx0 hx3 hx4 r n
    by_cases h : n < k0_t1_loop.trips
    · rw [online0, dif_pos h, Cert.Lse.online, dif_pos h, ← ih]
      refine Prod.ext ?_ (Prod.ext ?_ ?_)
      · exact pay25_apply x0 x3 x4 xr p0r o0r hx0 hx3 hx4 ⟨n, h⟩ _ r
      · exact pay26_apply x0 x3 x4 xr p0r o0r hx0 hx3 hx4 ⟨n, h⟩ _ _ r
      · exact pay27_apply x0 x1 x3 x4 xr p0r o0r hx0 hx3 hx4 ⟨n, h⟩ _ r
    · rw [online0, dif_neg h, Cert.Lse.online, dif_neg h]
      exact ih

theorem tail0_eq (hx0 : ∀ r k, x0 (ix2 r k) = ((xr r k : ℝ) : EReal)) (hx3 : ∀ a k, x3 (ix2 a k) = ((p0r a k : ℝ) : EReal))
    (hx4 : ∀ j a, x4 (ix2 j a) = ((o0r j a : ℝ) : EReal)) (v35 v39 : FVec Ideal S128 .f32) (r : Fin 128) :
    k0_pay28 (F := Ideal) (k0_pay12 (F := Ideal) x1) v35 v39 (online0 (F := Ideal) (k0_pay10 (F := Ideal) x0) (k0_pay12 (F := Ideal) x1) x3 x4 k0_t1_loop.trips).1 (online0 (F := Ideal) (k0_pay10 (F := Ideal) x0) (k0_pay12 (F := Ideal) x1) x3 x4 k0_t1_loop.trips).2.1 (online0 (F := Ideal) (k0_pay10 (F := Ideal) x0) (k0_pay12 (F := Ideal) x1) x3 x4 k0_t1_loop.trips).2.2 (ix1 r)
      = Scalar.select (inBand 2000#32 10000#32 (tgt (x1 (ix1 r))))
          (v39 (ix1 r) + ((atW (tailRow0 (xr r) p0r o0r) (clampW 7999#32 (IntOp.subi (tgt (x1 (ix1 r))) 2000#32))
              - lse (tailRow0 (xr r) p0r o0r) : ℝ) : EReal))
          (v35 (ix1 r)) := by
  have hfin := Cert.Lse.online_final (Q := 1024) (N := 8000) k0_t1_loop.trips (tailRow0 (xr r) p0r o0r) (zs xr p0r o0r r) (wd x1 r)
    (fun c j => rfl) (by decide) (fun c => by have := c.isLt; have := trips_eq; omega) (by rw [trips_eq]; decide) (by rw [trips_eq]; decide)
    (by rw [trips_eq]; decide) (clampW_lt _)
  rw [← online_row x0 x1 x3 x4 xr p0r o0r hx0 hx3 hx4 r k0_t1_loop.trips] at hfin
  generalize (online0 (F := Ideal) (k0_pay10 (F := Ideal) x0) (k0_pay12 (F := Ideal) x1) x3 x4 k0_t1_loop.trips) = O at hfin ⊢
  have hfin' : O.2.2 (ix2 r (0 : Fin 1)) - (O.1 (ix2 r (0 : Fin 1)) + Ideal.log (O.2.1 (ix2 r (0 : Fin 1))))
      = ((atW (tailRow0 (xr r) p0r o0r) (wd x1 r) - lse (tailRow0 (xr r) p0r o0r) : ℝ) : EReal) := hfin
  unfold k0_pay28
  show Scalar.select (inBand 2000#32 10000#32 (tgt (x1 (ix1 r))))
      (v39 (ix1 r) + shapeCast S128 (subf O.2.2 (addf O.1 (log O.2.1))) shapeCasts_S128x1_S128 (ix1 r)) (v35 (ix1 r)) = _
  rw [shapeCast_a1_a_apply]
  show Scalar.select (inBand 2000#32 10000#32 (tgt (x1 (ix1 r))))
      (v39 (ix1 r) + (O.2.2 (ix2 r (0 : Fin 1)) - (O.1 (ix2 r (0 : Fin 1)) + Ideal.log (O.2.1 (ix2 r (0 : Fin 1)))))) (v35 (ix1 r)) = _
  rw [hfin']
  rfl

end Cert.KernelIdeal.Tail0

end
-- ==== Proof.KernelTail1.lean ====
/-
  The second tail cluster of the kernel's body at one row: the row projected to 64 dimensions, scored against the
  40960 padded classes in 40 chunks of 1024 with the padded classes masked to −∞, the chunks folded by the online
  softmax; the class's log-probability inside the cluster is added to the head's slot, selected for the rows whose
  label lies in the cluster, and the row's log-probability is weighted by the row weight.
-/
import proofs.«409923_j27530740367371_2_alg».proof.Proof.KernelPieces
import proofs.«409923_j27530740367371_2_alg».proof.Proof.Rows
import proofs.«409923_j27530740367371_2_alg».proof.Proof.LibLse
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open Idealize.ShloMosaic Idealize.ShloMosaic.TcCoe Idealize.SL.Sem Idealize.ShloMosaic.ValueIdx

namespace Cert.KernelIdeal.Tail1

open Cert.KernelIdeal Cert.KernelIdeal.Gen Cert.KernelIdeal.Pieces Cert.Spec Cert.Rows

section layout
variable {α : Type}

/-- A vector `[a]` cast to the column `[a, 1]` reads, at `(i, u)`, the operand at `i`. -/
private theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` cast to the vector `[a]` reads, at `i`, the operand at `(i, 0)`. -/
private theorem cast_uncol {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column `[a, 1]` broadcast to `[a, b]` reads, at `(p, c)`, the column at `p`. -/
private theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end layout

private theorem trips40 : k0_t2_loop.trips = 40 := by decide

private theorem lift_row (h : S128x1024.Reduces [1] S128) (r : Fin 128) (k : Fin 1024) : h.lift (ix1 r) k = ix2 r k := by
  funext c; apply Fin.ext
  match c with
  | ⟨0, _⟩ => rfl
  | ⟨1, _⟩ => rfl

private theorem neg_big : Named.named (F := Ideal) Cert.KernelIdeal.κ "neg_big" (φ := .f32) 0xF149F2CA#32 = (⊥ : EReal) :=
  IdealRules.named_const.ideal_named_scalar _ _ _ _ rfl

private theorem ninf : Ideal.ofBits .f32 0xFF800000#32 = (⊥ : EReal) := by simp [Ideal.ofBits, Ideal.ieee]

/-- A lane sum of a 128×1024 vector at row `r`: the sum over the row's 1024 columns. -/
private theorem sum_row (src : FVec Ideal S128x1024 .f32) (hφ : FKind.Formats .f32) (hacc : (0x00000000#32 : BitVec 32) = 0x00000000#32) (r : Fin 128) :
    multiReduction (F := Ideal) .add [1] S128 src 0x00000000#32 reduces_S128x1024_S128 hφ hacc (ix1 r) = ∑ j : Fin 1024, src (ix2 r j) :=
  (Ideal.multiReduction_add_single src 0x00000000#32 reduces_S128x1024_S128 hφ hacc (ix1 r)).trans
    (Finset.sum_congr rfl fun j _ => congrArg src (lift_row reduces_S128x1024_S128 r j))

/-- A lane maximum of a 128×1024 vector at row `r`: the maximum, from −∞, over the row's 1024 columns. -/
private theorem max_row (src : FVec Ideal S128x1024 .f32) (hφ : FKind.Formats .f32) (hacc : (0xFF800000#32 : BitVec 32) = 0xFF800000#32) (r : Fin 128) :
    multiReduction (F := Ideal) .maximumf [1] S128 src 0xFF800000#32 reduces_S128x1024_S128 hφ hacc (ix1 r)
      = (Finset.univ : Finset (Fin 1024)).fold max (⊥ : EReal) (fun j => src (ix2 r j)) := by
  refine (Ideal.multiReduction_maximumf_single src 0xFF800000#32 reduces_S128x1024_S128 hφ hacc (ix1 r)).trans ?_
  show (Finset.univ : Finset (Fin 1024)).fold max (Ideal.ofBits .f32 0xFF800000#32) (fun j => src (reduces_S128x1024_S128.lift (ix1 r) j)) = _
  rw [ninf]
  exact congrArg (fun f => (Finset.univ : Finset (Fin 1024)).fold max (⊥ : EReal) f)
    (funext fun j => congrArg src (lift_row reduces_S128x1024_S128 r j))

/-! ## The two products read at an index -/

private theorem lhsA_0 (i : S128x64.Idx) (q : dot_S128x1024_S64x1024_S128x64_1_1_0_0_n_n.contr.Idx) :
    (dot_S128x1024_S64x1024_S128x64_1_1_0_0_n_n.lhsIdx i q 0).val = (i 0).val := by
  unfold DotDims.lhsIdx
  rw [dif_neg (show ¬(0 : Fin S128x1024.rank) ∈ dot_S128x1024_S64x1024_S128x64_1_1_0_0_n_n.lhsBatch by decide), dif_pos (show (0 : Fin S128x1024.rank) ∈ dot_S128x1024_S64x1024_S128x64_1_1_0_0_n_n.lhsNonContracting by decide)]
  rfl
private theorem lhsA_1 (i : S128x64.Idx) (q : dot_S128x1024_S64x1024_S128x64_1_1_0_0_n_n.contr.Idx) :
    (dot_S128x1024_S64x1024_S128x64_1_1_0_0_n_n.lhsIdx i q 1).val = (q ⟨0, by decide⟩).val :=
  dot_S128x1024_S64x1024_S128x64_1_1_0_0_n_n.lhsIdx_val_of_single rfl i q
private theorem rhsA_0 (i : S128x64.Idx) (q : dot_S128x1024_S64x1024_S128x64_1_1_0_0_n_n.contr.Idx) :
    (dot_S128x1024_S64x1024_S128x64_1_1_0_0_n_n.rhsIdx i q 0).val = (i 1).val := by
  unfold DotDims.rhsIdx
  rw [dif_neg (show ¬(0 : Fin S64x1024.rank) ∈ dot_S128x1024_S64x1024_S128x64_1_1_0_0_n_n.rhsBatch by decide), dif_pos (show (0 : Fin S64x1024.rank) ∈ dot_S128x1024_S64x1024_S128x64_1_1_0_0_n_n.rhsNonContracting by decide)]
  rfl
private theorem rhsA_1 (i : S128x64.Idx) (q : dot_S128x1024_S64x1024_S128x64_1_1_0_0_n_n.contr.Idx) :
    (dot_S128x1024_S64x1024_S128x64_1_1_0_0_n_n.rhsIdx i q 1).val = (q ⟨0, by decide⟩).val :=
  dot_S128x1024_S64x1024_S128x64_1_1_0_0_n_n.rhsIdx_val_of_single rfl i q

/-- The projection's product into the zero accumulator, at row `r` and output dimension `a`: the inner product of
    the row with the projection's row `a`. -/
private theorem mmA_apply (x : FVec Ideal S128x1024 .bf16) (y : FVec Ideal S64x1024 .bf16) (r : Fin 128) (a : Fin 64) :
    matmul dot_S128x1024_S64x1024_S128x64_1_1_0_0_n_n none x y (constant (F := Ideal) S128x64 .f32 0x00000000#32) (ix2 r a)
      = ∑ k : Fin 1024, x (ix2 r k) * y (ix2 a k) := by
  show FloatOps.matmul dot_S128x1024_S64x1024_S128x64_1_1_0_0_n_n none x y (constant (F := Ideal) S128x64 .f32 0x00000000#32) (ix2 r a) = _
  rw [Ideal.matmul_constant_zero_apply, ← Equiv.sum_comp (ValueIdx.contrEquiv1 dot_S128x1024_S64x1024_S128x64_1_1_0_0_n_n 1024 rfl rfl).symm]
  refine Finset.sum_congr rfl fun k _ => ?_
  have hk := ValueIdx.contrEquiv1_symm_val dot_S128x1024_S64x1024_S128x64_1_1_0_0_n_n 1024 rfl rfl k
  have el : dot_S128x1024_S64x1024_S128x64_1_1_0_0_n_n.lhsIdx (ix2 r a) ((ValueIdx.contrEquiv1 dot_S128x1024_S64x1024_S128x64_1_1_0_0_n_n 1024 rfl rfl).symm k) = ix2 r k := funext fun c => Fin.ext (by
    match c with
    | ⟨0, _⟩ => exact lhsA_0 _ _
    | ⟨1, _⟩ => exact (lhsA_1 _ _).trans hk)
  have er : dot_S128x1024_S64x1024_S128x64_1_1_0_0_n_n.rhsIdx (ix2 r a) ((ValueIdx.contrEquiv1 dot_S128x1024_S64x1024_S128x64_1_1_0_0_n_n 1024 rfl rfl).symm k) = ix2 a k := funext fun c => Fin.ext (by
    match c with
    | ⟨0, _⟩ => exact rhsA_0 _ _
    | ⟨1, _⟩ => exact (rhsA_1 _ _).trans hk)
  rw [el, er]

private theorem lhsB_0 (i : S128x1024.Idx) (q : dot_S128x64_S1024x64_S128x1024_1_1_0_0_n_n.contr.Idx) :
    (dot_S128x64_S1024x64_S128x1024_1_1_0_0_n_n.lhsIdx i q 0).val = (i 0).val := by
  unfold DotDims.lhsIdx
  rw [dif_neg (show ¬(0 : Fin S128x64.rank) ∈ dot_S128x64_S1024x64_S128x1024_1_1_0_0_n_n.lhsBatch by decide), dif_pos (show (0 : Fin S128x64.rank) ∈ dot_S128x64_S1024x64_S128x1024_1_1_0_0_n_n.lhsNonContracting by decide)]
  rfl
private theorem lhsB_1 (i : S128x1024.Idx) (q : dot_S128x64_S1024x64_S128x1024_1_1_0_0_n_n.contr.Idx) :
    (dot_S128x64_S1024x64_S128x1024_1_1_0_0_n_n.lhsIdx i q 1).val = (q ⟨0, by decide⟩).val :=
  dot_S128x64_S1024x64_S128x1024_1_1_0_0_n_n.lhsIdx_val_of_single rfl i q
private theorem rhsB_0 (i : S128x1024.Idx) (q : dot_S128x64_S1024x64_S128x1024_1_1_0_0_n_n.contr.Idx) :
    (dot_S128x64_S1024x64_S128x1024_1_1_0_0_n_n.rhsIdx i q 0).val = (i 1).val := by
  unfold DotDims.rhsIdx
  rw [dif_neg (show ¬(0 : Fin S1024x64.rank) ∈ dot_S128x64_S1024x64_S128x1024_1_1_0_0_n_n.rhsBatch by decide), dif_pos (show (0 : Fin S1024x64.rank) ∈ dot_S128x64_S1024x64_S128x1024_1_1_0_0_n_n.rhsNonContracting by decide)]
  rfl
private theorem rhsB_1 (i : S128x1024.Idx) (q : dot_S128x64_S1024x64_S128x1024_1_1_0_0_n_n.contr.Idx) :
    (dot_S128x64_S1024x64_S128x1024_1_1_0_0_n_n.rhsIdx i q 1).val = (q ⟨0, by decide⟩).val :=
  dot_S128x64_S1024x64_S128x1024_1_1_0_0_n_n.rhsIdx_val_of_single rfl i q

/-- A chunk's product into the zero accumulator, at row `r` and class `j` of the chunk: the inner product of the
    projected row with the class's weights. -/
private theorem mmB_apply (x : FVec Ideal S128x64 .bf16) (y : FVec Ideal S1024x64 .bf16) (r : Fin 128) (j : Fin 1024) :
    matmul dot_S128x64_S1024x64_S128x1024_1_1_0_0_n_n none x y (constant (F := Ideal) S128x1024 .f32 0x00000000#32) (ix2 r j)
      = ∑ a : Fin 64, x (ix2 r a) * y (ix2 j a) := by
  show FloatOps.matmul dot_S128x64_S1024x64_S128x1024_1_1_0_0_n_n none x y (constant (F := Ideal) S128x1024 .f32 0x00000000#32) (ix2 r j) = _
  rw [Ideal.matmul_constant_zero_apply, ← Equiv.sum_comp (ValueIdx.contrEquiv1 dot_S128x64_S1024x64_S128x1024_1_1_0_0_n_n 64 rfl rfl).symm]
  refine Finset.sum_congr rfl fun k _ => ?_
  have hk := ValueIdx.contrEquiv1_symm_val dot_S128x64_S1024x64_S128x1024_1_1_0_0_n_n 64 rfl rfl k
  have el : dot_S128x64_S1024x64_S128x1024_1_1_0_0_n_n.lhsIdx (ix2 r j) ((ValueIdx.contrEquiv1 dot_S128x64_S1024x64_S128x1024_1_1_0_0_n_n 64 rfl rfl).symm k) = ix2 r k := funext fun c => Fin.ext (by
    match c with
    | ⟨0, _⟩ => exact lhsB_0 _ _
    | ⟨1, _⟩ => exact (lhsB_1 _ _).trans hk)
  have er : dot_S128x64_S1024x64_S128x1024_1_1_0_0_n_n.rhsIdx (ix2 r j) ((ValueIdx.contrEquiv1 dot_S128x64_S1024x64_S128x1024_1_1_0_0_n_n 64 rfl rfl).symm k) = ix2 j k := funext fun c => Fin.ext (by
    match c with
    | ⟨0, _⟩ => exact rhsB_0 _ _
    | ⟨1, _⟩ => exact (rhsB_1 _ _).trans hk)
  rw [el, er]

/-- The projected row: the row's 64 inner products with the projection's rows. -/
private theorem pay29_apply (x0 : Vec Ideal S128x1024 .bf16) (x5 : Vec Ideal S64x1024 .bf16) (xr : Fin 128 → Fin 1024 → ℝ) (p1r : Fin 64 → Fin 1024 → ℝ)
    (hx0 : ∀ r k, x0 (ix2 r k) = ((xr r k : ℝ) : EReal)) (hx5 : ∀ a k, x5 (ix2 a k) = ((p1r a k : ℝ) : EReal)) (r : Fin 128) (a : Fin 64) :
    k0_pay29 (F := Ideal) (k0_pay10 (F := Ideal) x0) x5 (ix2 r a) = ((dot (xr r) (p1r a) : ℝ) : EReal) := by
  unfold k0_pay29 k0_pay10
  rw [shapeCast_self, shapeCast_self]
  refine (mmA_apply x0 x5 r a).trans ?_
  rw [← Cert.Lse.dot_coe]
  exact Finset.sum_congr rfl fun k _ => by rw [hx0, hx5]

/-- The class number of column `j` of chunk `k`, as the kernel computes it on 32-bit words. -/
private theorem pay3_apply (k : Fin k0_t2_loop.trips) (r : Fin 128) (j : Fin 1024) :
    k0_pay3 k (ix2 r j) = BitVec.ofNat 32 (k.val * 1024 + j.val) := by
  have hk : k.val < 40 := trips40 ▸ k.isLt
  unfold k0_pay3
  show IntOp.addi (Scalar.muli (Scf.iv 0#32 1#32 k) 1024#32) (iota .tc S128x1024 32 [1] iota_S128x1024_d1_w32 (ix2 r j)) = _
  rw [iota_single_apply]
  show (0#32 + BitVec.ofNat 32 k.val * 1#32) * 1024#32 + BitVec.ofNat 32 j.val = _
  apply BitVec.eq_of_toNat_eq
  have hj := j.isLt
  simp only [BitVec.toNat_add, BitVec.toNat_mul, BitVec.toNat_ofNat]
  omega

/-- The signed comparison with the number of classes, on a class number below `2 ^ 31`. -/
private theorem slt_ofNat (n : ℕ) (hn : n < 2 ^ 31) :
    IntOp.cmpi .slt (BitVec.ofNat 32 n) 40257#32 = if n < 40257 then 1#1 else 0#1 := by
  unfold IntOp.cmpi
  show BitVec.ofBool ((BitVec.ofNat 32 n).slt 40257#32) = _
  have h1 : (BitVec.ofNat 32 n).slt 40257#32 = decide (n < 40257) := by
    rw [BitVec.slt_eq_decide]
    have : (BitVec.ofNat 32 n).toInt = (n : ℤ) := by
      rw [BitVec.toInt_eq_toNat_cond, BitVec.toNat_ofNat]
      have : n % 2 ^ 32 = n := Nat.mod_eq_of_lt (by omega)
      rw [this, if_pos (by omega)]
    rw [this]
    have h2 : (40257#32 : BitVec 32).toInt = 40257 := by decide
    rw [h2]
    simp
  rw [h1]
  by_cases h : n < 40257
  · simp [h]
  · simp [h]

/-- A chunk of the class weights read at an index: row `j` of chunk `k` is row `1024·k + j` of the array. -/
private theorem chunk1_apply (x6 : Vec Ideal S40960x64 .bf16) (k : Fin k0_t2_loop.trips) (j : Fin 1024) (a : Fin 64)
    (h : k.val * 1024 + j.val < 40960) :
    chunk1 x6 k (ix2 j a) = x6 (ix2 (⟨k.val * 1024 + j.val, h⟩ : Fin 40960) a) := by
  unfold chunk1
  show x6 ((Rect.unit (s := S40960x64) (k0_off2 k) S1024x64.size (k0_off2_inb k)).idx (ix2 j a)) = _
  refine congrArg x6 (funext fun c => Fin.ext ?_)
  have e := k0_off2_eq k
  match c with
  | ⟨0, _⟩ =>
    show k0_off2 k 0 + 1 * j.val = k.val * 1024 + j.val
    rw [e]
    show 1024 * k.val + 1 * j.val = _
    omega
  | ⟨1, _⟩ =>
    show k0_off2 k 1 + 1 * a.val = a.val
    rw [e]
    show 0 + 1 * a.val = _
    omega

/-- The running maximum after a trip, at row `r`: the old one against the chunk's row maximum. -/
private theorem pay5_apply (v73 : FVec Ideal S128x64 .bf16) (k : Fin k0_t2_loop.trips) (m : FVec Ideal S128x1 .f32) (ch : Vec Ideal S1024x64 .bf16) (r : Fin 128) :
    k0_pay5 (F := Ideal) v73 k m ch (ix2 r (0 : Fin 1))
      = max (m (ix2 r (0 : Fin 1))) ((Finset.univ : Finset (Fin 1024)).fold max (⊥ : EReal) (fun j => k0_pay4 (F := Ideal) v73 k ch (ix2 r j))) := by
  unfold k0_pay5
  show max (m (ix2 r (0 : Fin 1))) (shapeCast S128x1 (multiReduction (F := Ideal) .maximumf [1] S128 (k0_pay4 (F := Ideal) v73 k ch) 0xFF800000#32 reduces_S128x1024_S128 (.inl rfl) rfl) shapeCasts_S128_S128x1 (ix2 r (0 : Fin 1))) = _
  rw [cast_col, max_row]

/-- The rescaled sum of exponentials after a trip, at row `r`. -/
private theorem pay6_apply (v73 : FVec Ideal S128x64 .bf16) (k : Fin k0_t2_loop.trips) (m l : FVec Ideal S128x1 .f32) (ch : Vec Ideal S1024x64 .bf16) (r : Fin 128) :
    k0_pay6 (F := Ideal) v73 k m l ch (ix2 r (0 : Fin 1))
      = l (ix2 r (0 : Fin 1)) * Ideal.exp (m (ix2 r (0 : Fin 1)) - k0_pay5 (F := Ideal) v73 k m ch (ix2 r (0 : Fin 1)))
        + ∑ j : Fin 1024, Ideal.exp (k0_pay4 (F := Ideal) v73 k ch (ix2 r j) - k0_pay5 (F := Ideal) v73 k m ch (ix2 r (0 : Fin 1))) := by
  unfold k0_pay6
  show l (ix2 r (0 : Fin 1)) * Ideal.exp (m (ix2 r (0 : Fin 1)) - k0_pay5 (F := Ideal) v73 k m ch (ix2 r (0 : Fin 1)))
      + shapeCast S128x1 (multiReduction (F := Ideal) .add [1] S128 (exp (subf (k0_pay4 (F := Ideal) v73 k ch) (broadcastTo S128x1024 (k0_pay5 (F := Ideal) v73 k m ch) broadcasts_S128x1_S128x1024))) 0x00000000#32 reduces_S128x1024_S128 (.inl rfl) rfl) shapeCasts_S128_S128x1 (ix2 r (0 : Fin 1)) = _
  rw [cast_col, sum_row]
  congr 1
  refine Finset.sum_congr rfl fun j _ => ?_
  show Ideal.exp (k0_pay4 (F := Ideal) v73 k ch (ix2 r j) - broadcastTo S128x1024 (k0_pay5 (F := Ideal) v73 k m ch) broadcasts_S128x1_S128x1024 (ix2 r j)) = _
  rw [bcast_col]

/-- The picked logit after a trip, at row `r`: the old one plus the chunk's logits weighted by the indicator of the
    row's position. -/
private theorem pay7_apply (v73 : FVec Ideal S128x64 .bf16) (v79 : IVec S128 32) (k : Fin k0_t2_loop.trips) (g : FVec Ideal S128x1 .f32) (ch : Vec Ideal S1024x64 .bf16) (r : Fin 128) :
    k0_pay7 (F := Ideal) v73 v79 k g ch (ix2 r (0 : Fin 1))
      = g (ix2 r (0 : Fin 1))
        + ∑ j : Fin 1024, Scalar.select (IntOp.cmpi .eq (k0_pay3 k (ix2 r j)) (v79 (ix1 r))) (k0_pay4 (F := Ideal) v73 k ch (ix2 r j)) (0 : EReal) := by
  unfold k0_pay7
  show g (ix2 r (0 : Fin 1))
      + shapeCast S128x1 (multiReduction (F := Ideal) .add [1] S128 (select (cmpi .eq (k0_pay3 k) (broadcastTo S128x1024 (shapeCast S128x1 v79 shapeCasts_S128_S128x1) broadcasts_S128x1_S128x1024)) (k0_pay4 (F := Ideal) v73 k ch) (broadcast S128x1024 (Scalar.ofBits (F := Ideal) .f32 0x00000000#32))) 0x00000000#32 reduces_S128x1024_S128 (.inl rfl) rfl) shapeCasts_S128_S128x1 (ix2 r (0 : Fin 1)) = _
  rw [cast_col, sum_row]
  congr 1
  refine Finset.sum_congr rfl fun j _ => ?_
  show Scalar.select (IntOp.cmpi .eq (k0_pay3 k (ix2 r j)) (broadcastTo S128x1024 (shapeCast S128x1 v79 shapeCasts_S128_S128x1) broadcasts_S128x1_S128x1024 (ix2 r j))) (k0_pay4 (F := Ideal) v73 k ch (ix2 r j)) (Ideal.ofBits .f32 0x00000000#32) = _
  rw [bcast_col, cast_col, Ideal.ofBits_zero_f32]

/-! ## The row's masked logits, chunk by chunk -/

section row

variable (x0 : Vec Ideal S128x1024 .bf16) (x5 : Vec Ideal S64x1024 .bf16) (x6 : Vec Ideal S40960x64 .bf16)
  (xr : Fin 128 → Fin 1024 → ℝ) (p1r : Fin 64 → Fin 1024 → ℝ) (o1r : Fin 40960 → Fin 64 → ℝ)

/-- The logits of row `r` against the 40960 padded classes, by chunk and column: the real logit below class 40257,
    −∞ from there on. -/
private def zrow (r : Fin 128) (c : Fin 40) (j : Fin 1024) : EReal :=
  if h : c.val * 1024 + j.val < 40257 then ((tailRow1 (xr r) p1r o1r ⟨c.val * 1024 + j.val, h⟩ : ℝ) : EReal) else ⊥

/-- A chunk's masked logits at row `r`. -/
private theorem pay4_apply (hx0 : ∀ r k, x0 (ix2 r k) = ((xr r k : ℝ) : EReal)) (hx5 : ∀ a k, x5 (ix2 a k) = ((p1r a k : ℝ) : EReal))
    (hx6 : ∀ j a, x6 (ix2 j a) = ((o1r j a : ℝ) : EReal)) (k : Fin k0_t2_loop.trips) (r : Fin 128) (j : Fin 1024) :
    k0_pay4 (F := Ideal) (k0_pay29 (F := Ideal) (k0_pay10 (F := Ideal) x0) x5) k (chunk1 x6 k) (ix2 r j)
      = if h : k.val * 1024 + j.val < 40257 then ((tailRow1 (xr r) p1r o1r ⟨k.val * 1024 + j.val, h⟩ : ℝ) : EReal) else ⊥ := by
  have hk : k.val < 40 := trips40 ▸ k.isLt
  have hj := j.isLt
  unfold k0_pay4
  show Scalar.select (IntOp.cmpi .slt (k0_pay3 k (ix2 r j)) 40257#32)
      (matmul dot_S128x64_S1024x64_S128x1024_1_1_0_0_n_n none (k0_pay29 (F := Ideal) (k0_pay10 (F := Ideal) x0) x5)
        (shapeCast S1024x64 (chunk1 x6 k) shapeCasts_S1024x64_S1024x64) (constant (F := Ideal) S128x1024 .f32 0x00000000#32) (ix2 r j))
      (Named.named (F := Ideal) κ "neg_big" (φ := .f32) 0xF149F2CA#32) = _
  rw [pay3_apply, slt_ofNat _ (by omega), neg_big, shapeCast_self, mmB_apply]
  by_cases h : k.val * 1024 + j.val < 40257
  · rw [if_pos h, dif_pos h, select_one]
    have hlt : k.val * 1024 + j.val < 40960 := by omega
    rw [show tailRow1 (xr r) p1r o1r ⟨k.val * 1024 + j.val, h⟩
        = dot (fun a => dot (xr r) (p1r a)) (o1r ⟨k.val * 1024 + j.val, hlt⟩) from rfl, ← Cert.Lse.dot_coe]
    exact Finset.sum_congr rfl fun a _ => by rw [pay29_apply x0 x5 xr p1r hx0 hx5, chunk1_apply x6 k j a hlt, hx6]
  · rw [if_neg h, dif_neg h, select_zero]

/-- The loop's carried triple at row `r` before trip `n` is the online softmax's state over the row's masked logits. -/
private theorem online_row (hx0 : ∀ r k, x0 (ix2 r k) = ((xr r k : ℝ) : EReal)) (hx5 : ∀ a k, x5 (ix2 a k) = ((p1r a k : ℝ) : EReal))
    (hx6 : ∀ j a, x6 (ix2 j a) = ((o1r j a : ℝ) : EReal)) (v79 : IVec S128 32) (r : Fin 128) : ∀ n : ℕ, n ≤ 40 →
    ((online1 (F := Ideal) (k0_pay29 (F := Ideal) (k0_pay10 (F := Ideal) x0) x5) v79 x6 n).1 (ix2 r (0 : Fin 1)),
      (online1 (F := Ideal) (k0_pay29 (F := Ideal) (k0_pay10 (F := Ideal) x0) x5) v79 x6 n).2.1 (ix2 r (0 : Fin 1)),
      (online1 (F := Ideal) (k0_pay29 (F := Ideal) (k0_pay10 (F := Ideal) x0) x5) v79 x6 n).2.2 (ix2 r (0 : Fin 1)))
      = Cert.Lse.online 40 (zrow xr p1r o1r r) (v79 (ix1 r)) n := by
  intro n
  induction n with
  | zero =>
    intro _
    show (Ideal.ofBits .f32 0xFF800000#32, Ideal.ofBits .f32 0x00000000#32, Ideal.ofBits .f32 0x00000000#32) = ((⊥ : EReal), (0 : EReal), (0 : EReal))
    rw [ninf, Ideal.ofBits_zero_f32]
  | succ n ih =>
    intro hle
    have hn40 : n < 40 := by omega
    have hn' : n < k0_t2_loop.trips := trips40.symm ▸ hn40
    have ih' := ih (by omega)
    have hz : (fun j => k0_pay4 (F := Ideal) (k0_pay29 (F := Ideal) (k0_pay10 (F := Ideal) x0) x5) ⟨n, hn'⟩ (chunk1 x6 ⟨n, hn'⟩) (ix2 r j))
        = zrow xr p1r o1r r ⟨n, hn40⟩ := funext fun j => pay4_apply x0 x5 x6 xr p1r o1r hx0 hx5 hx6 ⟨n, hn'⟩ r j
    have h5 := pay5_apply (k0_pay29 (F := Ideal) (k0_pay10 (F := Ideal) x0) x5) ⟨n, hn'⟩
      (online1 (F := Ideal) (k0_pay29 (F := Ideal) (k0_pay10 (F := Ideal) x0) x5) v79 x6 n).1 (chunk1 x6 ⟨n, hn'⟩) r
    rw [hz] at h5
    rw [online1, dif_pos hn', Cert.Lse.online, dif_pos hn40, ← ih']
    unfold Cert.Lse.step
    refine Prod.ext h5 (Prod.ext ?_ ?_)
    · refine (pay6_apply _ ⟨n, hn'⟩ _ _ (chunk1 x6 ⟨n, hn'⟩) r).trans ?_
      rw [h5]
      congr 1
      exact Finset.sum_congr rfl fun j _ => by rw [pay4_apply x0 x5 x6 xr p1r o1r hx0 hx5 hx6 ⟨n, hn'⟩ r j]; rfl
    · refine (pay7_apply _ v79 ⟨n, hn'⟩ _ (chunk1 x6 ⟨n, hn'⟩) r).trans ?_
      congr 1
      exact Finset.sum_congr rfl fun j _ => by rw [pay3_apply, pay4_apply x0 x5 x6 xr p1r o1r hx0 hx5 hx6 ⟨n, hn'⟩ r j]; rfl

end row

/-- A clamped position lies among the 40257 classes. -/
private theorem clamp_lt (w : BitVec 32) : (clampW 40256#32 w).toNat < 40257 := by
  have hc := BitVec.toInt_eq_toNat_cond w
  have hl := w.isLt
  have h0 : (0#32 : BitVec 32).toInt = 0 := by decide
  have h1 : (40256#32 : BitVec 32).toInt = 40256 := by decide
  unfold clampW IntOp.minsi IntOp.maxsi
  simp only [BitVec.slt_eq_decide, decide_eq_true_eq, h0, h1]
  by_cases hneg : w.toInt < 0
  · rw [if_pos hneg, h0, if_neg (by omega)]
    decide
  · rw [if_neg hneg]
    by_cases hbig : 40256 < w.toInt
    · rw [if_pos hbig]
      decide
    · rw [if_neg hbig]
      split at hc <;> omega

/-- The last payload at row `r`: the cluster's term, from the loop's final triple, added to the head's slot and selected
    by the label's band, times the row weight. -/
private theorem pay9_apply (v4 : IVec S128 1) (v6 : Vec Ideal S128 .i32) (v43 v69 : FVec Ideal S128 .f32) (M L G : FVec Ideal S128x1 .f32) (r : Fin 128) :
    k0_pay9 (F := Ideal) v4 v6 v43 v69 M L G (ix1 r)
      = Scalar.select (inBand 10000#32 50257#32 (v6 (ix1 r)))
          (v43 (ix1 r) + (G (ix2 r (0 : Fin 1)) - (M (ix2 r (0 : Fin 1)) + Ideal.log (L (ix2 r (0 : Fin 1)))))) (v69 (ix1 r))
        * k0_pay8 (F := Ideal) v4 (ix1 r) := by
  unfold k0_pay9
  show Scalar.select (inBand 10000#32 50257#32 (v6 (ix1 r)))
      (v43 (ix1 r) + shapeCast S128 (subf G (addf M (log L))) shapeCasts_S128x1_S128 (ix1 r)) (v69 (ix1 r)) * k0_pay8 (F := Ideal) v4 (ix1 r) = _
  rw [cast_uncol]
  rfl

variable (x0 : Vec Ideal S128x1024 .bf16) (x1 : Vec Ideal S128 .i32) (x5 : Vec Ideal S64x1024 .bf16) (x6 : Vec Ideal S40960x64 .bf16)
  (xr : Fin 128 → Fin 1024 → ℝ) (p1r : Fin 64 → Fin 1024 → ℝ) (o1r : Fin 40960 → Fin 64 → ℝ)

theorem tail1_eq (hx0 : ∀ r k, x0 (ix2 r k) = ((xr r k : ℝ) : EReal)) (hx5 : ∀ a k, x5 (ix2 a k) = ((p1r a k : ℝ) : EReal))
    (hx6 : ∀ j a, x6 (ix2 j a) = ((o1r j a : ℝ) : EReal)) (v4 : IVec S128 1) (v43 v69 : FVec Ideal S128 .f32) (r : Fin 128) :
    k0_pay9 (F := Ideal) v4 (k0_pay12 (F := Ideal) x1) v43 v69 (online1 (F := Ideal) (k0_pay29 (F := Ideal) (k0_pay10 (F := Ideal) x0) x5) (k0_pay30 (F := Ideal) (k0_pay12 (F := Ideal) x1)) x6 k0_t2_loop.trips).1 (online1 (F := Ideal) (k0_pay29 (F := Ideal) (k0_pay10 (F := Ideal) x0) x5) (k0_pay30 (F := Ideal) (k0_pay12 (F := Ideal) x1)) x6 k0_t2_loop.trips).2.1 (online1 (F := Ideal) (k0_pay29 (F := Ideal) (k0_pay10 (F := Ideal) x0) x5) (k0_pay30 (F := Ideal) (k0_pay12 (F := Ideal) x1)) x6 k0_t2_loop.trips).2.2 (ix1 r)
      = Scalar.select (inBand 10000#32 50257#32 (tgt (x1 (ix1 r))))
          (v43 (ix1 r) + ((atW (tailRow1 (xr r) p1r o1r) (clampW 40256#32 (IntOp.subi (tgt (x1 (ix1 r))) 10000#32))
              - lse (tailRow1 (xr r) p1r o1r) : ℝ) : EReal))
          (v69 (ix1 r))
        * k0_pay8 (F := Ideal) v4 (ix1 r) := by
  have hrow := online_row x0 x5 x6 xr p1r o1r hx0 hx5 hx6 (k0_pay30 (F := Ideal) (k0_pay12 (F := Ideal) x1)) r 40 (le_refl _)
  have hw : k0_pay30 (F := Ideal) (k0_pay12 (F := Ideal) x1) (ix1 r) = clampW 40256#32 (IntOp.subi (tgt (x1 (ix1 r))) 10000#32) := rfl
  rw [hw] at hrow
  have hfin := Cert.Lse.online_final 40 (tailRow1 (xr r) p1r o1r) (zrow xr p1r o1r r)
    (clampW 40256#32 (IntOp.subi (tgt (x1 (ix1 r))) 10000#32)) (fun c j => rfl) (by decide) (fun c => by have := c.isLt; omega)
    (by decide) (by decide) (by decide) (clamp_lt _)
  rw [← hrow] at hfin
  have ht : k0_pay12 (F := Ideal) x1 (ix1 r) = tgt (x1 (ix1 r)) := rfl
  rw [trips40]
  refine (pay9_apply v4 _ v43 v69 _ _ _ r).trans ?_
  rw [ht]
  exact congrArg (fun t => Scalar.select (inBand 10000#32 50257#32 (tgt (x1 (ix1 r)))) (v43 (ix1 r) + t) (v69 (ix1 r))
    * k0_pay8 (F := Ideal) v4 (ix1 r)) hfin

end Cert.KernelIdeal.Tail1

end
-- ==== Proof.KernelBlock.lean ====
/-
  One row of the block a grid point stores, as a real number: the head's log-probability, overridden by the first
  cluster's and then the second's for the rows whose label lies in that cluster, times the row weight.
-/
import proofs.«409923_j27530740367371_2_alg».proof.Proof.KernelHead
import proofs.«409923_j27530740367371_2_alg».proof.Proof.KernelTail0
import proofs.«409923_j27530740367371_2_alg».proof.Proof.KernelTail1

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen Cert.KernelIdeal.Pieces Cert.Spec Cert.Rows

variable (x0 : Vec Ideal S128x1024 .bf16) (x1 : Vec Ideal S128 .i32) (x2 : Vec Ideal S2048x1024 .bf16)
  (x3 : Vec Ideal S256x1024 .bf16) (x4 : Vec Ideal S8192x256 .bf16) (x5 : Vec Ideal S64x1024 .bf16) (x6 : Vec Ideal S40960x64 .bf16)
  (xr : Fin 128 → Fin 1024 → ℝ) (hwr : Fin 2048 → Fin 1024 → ℝ) (p0r : Fin 256 → Fin 1024 → ℝ) (o0r : Fin 8192 → Fin 256 → ℝ)
  (p1r : Fin 64 → Fin 1024 → ℝ) (o1r : Fin 40960 → Fin 64 → ℝ)

/-- The coercion of the reals into the extended reals passes through a selection. -/
private theorem select_coe (b : BitVec 1) (u v : ℝ) :
    Scalar.select b ((u : ℝ) : EReal) ((v : ℝ) : EReal) = ((Scalar.select b u v : ℝ) : EReal) := by
  unfold Scalar.select
  split <;> rfl

/-- The stored row weight. -/
theorem block_vf (r : Fin 128) : blockVf (F := Ideal) x1 (ix1 r) = ((vfR (x1 (ix1 r)) : ℝ) : EReal) := by
  unfold blockVf
  exact Head.vf_eq x1 r

/-- The stored weighted log-probability of row `r`. -/
theorem block_contrib (hx0 : ∀ r k, x0 (ix2 r k) = ((xr r k : ℝ) : EReal)) (hx2 : ∀ j k, x2 (ix2 j k) = ((hwr j k : ℝ) : EReal))
    (hx3 : ∀ a k, x3 (ix2 a k) = ((p0r a k : ℝ) : EReal)) (hx4 : ∀ j a, x4 (ix2 j a) = ((o0r j a : ℝ) : EReal))
    (hx5 : ∀ a k, x5 (ix2 a k) = ((p1r a k : ℝ) : EReal)) (hx6 : ∀ j a, x6 (ix2 j a) = ((o1r j a : ℝ) : EReal)) (r : Fin 128) :
    blockContrib (F := Ideal) x0 x1 x2 x3 x4 x5 x6 (ix1 r)
      = ((contribRow (xr r) (x1 (ix1 r)) hwr p0r o0r p1r o1r : ℝ) : EReal) := by
  unfold blockContrib
  -- the second cluster's override and the row weight, around the first cluster's override of the head's value
  rw [Tail1.tail1_eq x0 x1 x5 x6 xr p1r o1r hx0 hx5 hx6 (k0_pay11 (F := Ideal) x1)
    (k0_pay19 (F := Ideal) (k0_pay17 (F := Ideal) x0 x2) (k0_pay18 (F := Ideal) x0 x2)) _ r]
  rw [Tail0.tail0_eq x0 x1 x3 x4 xr p0r o0r hx0 hx3 hx4 (k0_pay15 (F := Ideal) x0 x1 x2) (k0_pay16 (F := Ideal) x0 x2) r]
  rw [Head.logp_eq x0 x1 x2 xr hwr hx0 hx2 r, Head.slot0_eq x0 x2 xr hwr hx0 hx2 r, Head.slot1_eq x0 x2 xr hwr hx0 hx2 r,
    Head.vf_eq x1 r]
  -- every operand is now a real number: the sums, the selections and the product are taken in ℝ
  rw [← EReal.coe_add, ← EReal.coe_add, select_coe, select_coe, ← EReal.coe_mul]
  unfold contribRow contribR logpR headRow tailRow0 tailRow1
  rfl

end Cert.KernelIdeal.Block

end
-- ==== Proof.Blocks.lean ====
/-
  Names, at their literal types, for what the kernel's grid point `t` sees: the seven input blocks (a block of 128
  rows and their labels; the five weight arrays whole) and the seven argument arrays; and the loss as the host computes
  it from the two per-row arrays: minus the sum of the weighted log-probabilities over the sum of the weights.
-/
import proofs.«409923_j27530740367371_2_alg».proof.Proof.KernelPieces

noncomputable section

open Idealize.ShloMosaic Idealize.ShloMosaic.TcCoe Idealize.SL.Sem

namespace Cert.KernelIdeal.Blocks

open Cert.KernelIdeal Cert.KernelIdeal.Gen

variable (m : (ℓ : Loc nD τ sig) → Buf (Elt Ideal) ℓ)

abbrev blk0 (c : Dev nD) (t : Fin cfg0.N) : Vec Ideal S128x1024 .bf16 := iblk m c 0 t
abbrev blk1 (c : Dev nD) (t : Fin cfg0.N) : Vec Ideal S128 .i32 := iblk m c 1 t
abbrev blk2 (c : Dev nD) (t : Fin cfg0.N) : Vec Ideal S2048x1024 .bf16 := iblk m c 2 t
abbrev blk3 (c : Dev nD) (t : Fin cfg0.N) : Vec Ideal S256x1024 .bf16 := iblk m c 3 t
abbrev blk4 (c : Dev nD) (t : Fin cfg0.N) : Vec Ideal S8192x256 .bf16 := iblk m c 4 t
abbrev blk5 (c : Dev nD) (t : Fin cfg0.N) : Vec Ideal S64x1024 .bf16 := iblk m c 5 t
abbrev blk6 (c : Dev nD) (t : Fin cfg0.N) : Vec Ideal S40960x64 .bf16 := iblk m c 6 t

abbrev a0 (c : Dev nD) : Vec Ideal S4096x1024 .f32 := m ((c : Thread nD τ).loc main_arg0)
abbrev a1 (c : Dev nD) : Vec Ideal S4096 .i32 := m ((c : Thread nD τ).loc main_arg1)
abbrev a2 (c : Dev nD) : Vec Ideal S2002x1024 .f32 := m ((c : Thread nD τ).loc main_arg2)
abbrev a3 (c : Dev nD) : Vec Ideal S256x1024 .f32 := m ((c : Thread nD τ).loc main_arg3)
abbrev a4 (c : Dev nD) : Vec Ideal S8000x256 .f32 := m ((c : Thread nD τ).loc main_arg4)
abbrev a5 (c : Dev nD) : Vec Ideal S64x1024 .f32 := m ((c : Thread nD τ).loc main_arg5)
abbrev a6 (c : Dev nD) : Vec Ideal S40257x64 .f32 := m ((c : Thread nD τ).loc main_arg6)

/-- The loss from the per-row arrays: `−(∑ contrib) / ∑ weight`, as the host's four operations. -/
def lossOf (C V : FVec Ideal S4096 .f32) : FVec Ideal S_ .f32 :=
  Host.divf (F := Ideal) (Host.negf (F := Ideal) (Host.reduceAdd (F := Ideal) C (constant (F := Ideal) S_ .f32 0x00000000#32) reducesTo_S4096_S_d0 h_S_))
    (Host.reduceAdd (F := Ideal) V (constant (F := Ideal) S_ .f32 0x00000000#32) reducesTo_S4096_S_d0 h_S_)

end Cert.KernelIdeal.Blocks

end
-- ==== Proof.KernelBlocksRead.lean ====
/-
  What the kernel's windows hold, read off the argument arrays: before the launch the host only changes formats
  (the identity over the extended reals) and pads the three class-weight arrays with zero rows up to a multiple of the
  chunk; window 0 is rows 128t … 128t+127 of the data, window 1 their labels, the five weight windows the whole
  (padded) arrays at every grid point.
-/
import proofs.«409923_j27530740367371_2_alg».proof.Proof.Blocks
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BlocksRead

open Cert.KernelIdeal Cert.KernelIdeal.Gen Cert.KernelIdeal.Blocks

variable (m : (ℓ : Loc nD τ sig) → Buf (Elt Ideal) ℓ)

/-- Rows appended below a matrix: inside the original rows the padded matrix is the matrix, below them the padding value. -/
private theorem pad_rows_apply {n0 n1 w p : Nat} (x : (⟨2, ![n0, w]⟩ : Shape).Idx → EReal) (v : S_.Idx → EReal)
    (hp : (⟨2, ![n0, w]⟩ : Shape).Pads (![0, 0] : Fin 2 → Nat) ![p, 0] ![0, 0] ⟨2, ![n1, w]⟩) (hu : 0 < S_.numel)
    (j : Fin n1) (k : Fin w) :
    pad ⟨2, ![n1, w]⟩ ![0, 0] ![p, 0] ![0, 0] x v hp hu (ix2 j k)
      = if h : j.val < n0 then x (ix2 ⟨j.val, h⟩ k) else v (Shape.Idx.first hu) := by
  by_cases h : j.val < n0
  · rw [dif_pos h]
    exact pad_apply_of_inside _ _ _ x v hp hu _ (ix2 ⟨j.val, h⟩ k) (by
      intro a
      match a with
      | ⟨0, _⟩ => show j.val = 0 + j.val * (0 + 1); omega
      | ⟨1, _⟩ => show k.val = 0 + k.val * (0 + 1); omega)
  · rw [dif_neg h]
    exact pad_apply_of_not_inside _ _ _ x v hp hu _ (0 : Fin 2) (by
      intro hin
      have e : (j.val - 0) / (0 + 1) < n0 := hin.2.2
      simp only [Nat.sub_zero, Nat.zero_add, Nat.div_one] at e
      exact h e)

/-- The padding value, the integer zero converted, is the real zero. -/
private theorem padv_zero (i : S_.Idx) : (sitofp .f32 (constantI S_ 32 0#32) : FVec Ideal S_ .f32) i = (0 : EReal) := by
  show ((((0#32 : BitVec 32).toInt : ℤ) : ℝ) : EReal) = 0
  simp

/-- The array the window stages, as the host left it before the launch. -/
private theorem V_v0 (c : Dev nD) :
    V m c main_v0 = (truncf .bf16 (a0 m c) bitsLt_bf16_f32 : FVec Ideal S4096x1024 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  all_goals rfl

/-- The array the window stages, as the host left it before the launch. -/
private theorem V_v2 (c : Dev nD) :
    V m c main_v2 = (truncf .bf16 (pad S2048x1024 ![0, 0] ![46, 0] ![0, 0] (a2 m c) (sitofp .f32 (constantI S_ 32 0#32) : FVec Ideal S_ .f32) pads_S2002x1024_S2048x1024_0460_000 h_S_ : FVec Ideal S2048x1024 .f32) bitsLt_bf16_f32 : FVec Ideal S2048x1024 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  all_goals rfl

/-- The array the window stages, as the host left it before the launch. -/
private theorem V_v3 (c : Dev nD) :
    V m c main_v3 = (truncf .bf16 (a3 m c) bitsLt_bf16_f32 : FVec Ideal S256x1024 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  all_goals rfl

/-- The array the window stages, as the host left it before the launch. -/
private theorem V_v5 (c : Dev nD) :
    V m c main_v5 = (truncf .bf16 (pad S8192x256 ![0, 0] ![192, 0] ![0, 0] (a4 m c) (sitofp .f32 (constantI S_ 32 0#32) : FVec Ideal S_ .f32) pads_S8000x256_S8192x256_01920_000 h_S_ : FVec Ideal S8192x256 .f32) bitsLt_bf16_f32 : FVec Ideal S8192x256 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  all_goals rfl

/-- The array the window stages, as the host left it before the launch. -/
private theorem V_v6 (c : Dev nD) :
    V m c main_v6 = (truncf .bf16 (a5 m c) bitsLt_bf16_f32 : FVec Ideal S64x1024 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  all_goals rfl

/-- The array the window stages, as the host left it before the launch. -/
private theorem V_v8 (c : Dev nD) :
    V m c main_v8 = (truncf .bf16 (pad S40960x64 ![0, 0] ![703, 0] ![0, 0] (a6 m c) (sitofp .f32 (constantI S_ 32 0#32) : FVec Ideal S_ .f32) pads_S40257x64_S40960x64_07030_000 h_S_ : FVec Ideal S40960x64 .f32) bitsLt_bf16_f32 : FVec Ideal S40960x64 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  all_goals rfl

/-- The padded array read at a row and a column: the argument inside its rows, zero below them. -/
private theorem v2_at (c : Dev nD) (j : Fin 2048) (k : Fin 1024) (i : S2048x1024.Idx) (hi : i = ix2 j k) :
    (V m c main_v2 : S2048x1024.Idx → EReal) i = if h : j.val < 2002 then a2 m c (ix2 ⟨j.val, h⟩ k) else (0 : EReal) := by
  subst hi
  rw [V_v2]
  show pad S2048x1024 ![0, 0] ![46, 0] ![0, 0] (a2 m c) _ pads_S2002x1024_S2048x1024_0460_000 h_S_ (ix2 j k) = _
  rw [pad_rows_apply, padv_zero]

/-- The padded array read at a row and a column: the argument inside its rows, zero below them. -/
private theorem v5_at (c : Dev nD) (j : Fin 8192) (k : Fin 256) (i : S8192x256.Idx) (hi : i = ix2 j k) :
    (V m c main_v5 : S8192x256.Idx → EReal) i = if h : j.val < 8000 then a4 m c (ix2 ⟨j.val, h⟩ k) else (0 : EReal) := by
  subst hi
  rw [V_v5]
  show pad S8192x256 ![0, 0] ![192, 0] ![0, 0] (a4 m c) _ pads_S8000x256_S8192x256_01920_000 h_S_ (ix2 j k) = _
  rw [pad_rows_apply, padv_zero]

/-- The padded array read at a row and a column: the argument inside its rows, zero below them. -/
private theorem v8_at (c : Dev nD) (j : Fin 40960) (k : Fin 64) (i : S40960x64.Idx) (hi : i = ix2 j k) :
    (V m c main_v8 : S40960x64.Idx → EReal) i = if h : j.val < 40257 then a6 m c (ix2 ⟨j.val, h⟩ k) else (0 : EReal) := by
  subst hi
  rw [V_v8]
  show pad S40960x64 ![0, 0] ![703, 0] ![0, 0] (a6 m c) _ pads_S40257x64_S40960x64_07030_000 h_S_ (ix2 j k) = _
  rw [pad_rows_apply, padv_zero]

theorem blk0_eq (c : Dev nD) (t : Fin cfg0.N) (r : Fin 128) (k : Fin 1024) (n : Fin 4096) (hn : n.val = 128 * t.val + r.val) :
    blk0 m c t (ix2 r k) = a0 m c (ix2 n k) := by
  have hi : ∀ t : Fin grid0.N, win0_0.index t (0 : Fin 2) = t.val ∧ win0_0.index t (1 : Fin 2) = 0 := by decide +kernel
  show iblk m c 0 t (ix2 r k) = _
  unfold iblk
  rw [View.read_apply]
  show V m c main_v0 _ = _
  rw [V_v0]
  show a0 m c _ = a0 m c _
  congr 1
  funext d
  apply Fin.ext
  match d with
  | ⟨0, _⟩ => show win0_0.index t 0 * 128 + 1 * r.val = n.val; rw [(hi t).1]; omega
  | ⟨1, _⟩ => show win0_0.index t 1 * 1024 + 1 * k.val = k.val; rw [(hi t).2]; omega

theorem blk1_eq (c : Dev nD) (t : Fin cfg0.N) (r : Fin 128) (n : Fin 4096) (hn : n.val = 128 * t.val + r.val) :
    blk1 m c t (ix1 r) = a1 m c (ix1 n) := by
  have hi : ∀ t : Fin grid0.N, win0_1.index t (0 : Fin 1) = t.val := by decide +kernel
  show iblk m c 1 t (ix1 r) = _
  unfold iblk
  rw [View.read_apply]
  show V m c main_arg1 _ = _
  rw [V_main_arg1]
  show a1 m c _ = a1 m c _
  congr 1
  funext d
  apply Fin.ext
  match d with
  | ⟨0, _⟩ => show win0_1.index t 0 * 128 + 1 * r.val = n.val; rw [hi t]; omega

theorem blk2_eq (c : Dev nD) (t : Fin cfg0.N) (j : Fin 2048) (k : Fin 1024) :
    blk2 m c t (ix2 j k) = if h : j.val < 2002 then a2 m c (ix2 ⟨j.val, h⟩ k) else (0 : EReal) := by
  have hi : ∀ t : Fin grid0.N, win0_2.index t (0 : Fin 2) = 0 ∧ win0_2.index t (1 : Fin 2) = 0 := by decide +kernel
  show iblk m c 2 t (ix2 j k) = _
  unfold iblk
  rw [View.read_apply]
  show V m c main_v2 _ = _
  refine v2_at m c j k _ ?_
  funext d
  apply Fin.ext
  match d with
  | ⟨0, _⟩ => show win0_2.index t 0 * 2048 + 1 * j.val = j.val; rw [(hi t).1]; omega
  | ⟨1, _⟩ => show win0_2.index t 1 * 1024 + 1 * k.val = k.val; rw [(hi t).2]; omega

theorem blk3_eq (c : Dev nD) (t : Fin cfg0.N) (a : Fin 256) (k : Fin 1024) :
    blk3 m c t (ix2 a k) = a3 m c (ix2 a k) := by
  have hi : ∀ t : Fin grid0.N, win0_3.index t (0 : Fin 2) = 0 ∧ win0_3.index t (1 : Fin 2) = 0 := by decide +kernel
  show iblk m c 3 t (ix2 a k) = _
  unfold iblk
  rw [View.read_apply]
  show V m c main_v3 _ = _
  rw [V_v3]
  show a3 m c _ = a3 m c _
  congr 1
  funext d
  apply Fin.ext
  match d with
  | ⟨0, _⟩ => show win0_3.index t 0 * 256 + 1 * a.val = a.val; rw [(hi t).1]; omega
  | ⟨1, _⟩ => show win0_3.index t 1 * 1024 + 1 * k.val = k.val; rw [(hi t).2]; omega

theorem blk4_eq (c : Dev nD) (t : Fin cfg0.N) (j : Fin 8192) (a : Fin 256) :
    blk4 m c t (ix2 j a) = if h : j.val < 8000 then a4 m c (ix2 ⟨j.val, h⟩ a) else (0 : EReal) := by
  have hi : ∀ t : Fin grid0.N, win0_4.index t (0 : Fin 2) = 0 ∧ win0_4.index t (1 : Fin 2) = 0 := by decide +kernel
  show iblk m c 4 t (ix2 j a) = _
  unfold iblk
  rw [View.read_apply]
  show V m c main_v5 _ = _
  refine v5_at m c j a _ ?_
  funext d
  apply Fin.ext
  match d with
  | ⟨0, _⟩ => show win0_4.index t 0 * 8192 + 1 * j.val = j.val; rw [(hi t).1]; omega
  | ⟨1, _⟩ => show win0_4.index t 1 * 256 + 1 * a.val = a.val; rw [(hi t).2]; omega

theorem blk5_eq (c : Dev nD) (t : Fin cfg0.N) (a : Fin 64) (k : Fin 1024) :
    blk5 m c t (ix2 a k) = a5 m c (ix2 a k) := by
  have hi : ∀ t : Fin grid0.N, win0_5.index t (0 : Fin 2) = 0 ∧ win0_5.index t (1 : Fin 2) = 0 := by decide +kernel
  show iblk m c 5 t (ix2 a k) = _
  unfold iblk
  rw [View.read_apply]
  show V m c main_v6 _ = _
  rw [V_v6]
  show a5 m c _ = a5 m c _
  congr 1
  funext d
  apply Fin.ext
  match d with
  | ⟨0, _⟩ => show win0_5.index t 0 * 64 + 1 * a.val = a.val; rw [(hi t).1]; omega
  | ⟨1, _⟩ => show win0_5.index t 1 * 1024 + 1 * k.val = k.val; rw [(hi t).2]; omega

theorem blk6_eq (c : Dev nD) (t : Fin cfg0.N) (j : Fin 40960) (a : Fin 64) :
    blk6 m c t (ix2 j a) = if h : j.val < 40257 then a6 m c (ix2 ⟨j.val, h⟩ a) else (0 : EReal) := by
  have hi : ∀ t : Fin grid0.N, win0_6.index t (0 : Fin 2) = 0 ∧ win0_6.index t (1 : Fin 2) = 0 := by decide +kernel
  show iblk m c 6 t (ix2 j a) = _
  unfold iblk
  rw [View.read_apply]
  show V m c main_v8 _ = _
  refine v8_at m c j a _ ?_
  funext d
  apply Fin.ext
  match d with
  | ⟨0, _⟩ => show win0_6.index t 0 * 40960 + 1 * j.val = j.val; rw [(hi t).1]; omega
  | ⟨1, _⟩ => show win0_6.index t 1 * 64 + 1 * a.val = a.val; rw [(hi t).2]; omega

end Cert.KernelIdeal.BlocksRead

end
-- ==== Proof.KernelRun.lean ====
/-
  From the blocks to the program's result: grid point `t` writes rows 128t … 128t+127 of the two per-row arrays, the
  32 points cover them, and the host's last four operations turn the two arrays into the loss. So if every point's
  two stored blocks are the restrictions of two row functions `Cf`, `Vf`, the program ends with the loss of those.
-/
import proofs.«409923_j27530740367371_2_alg».proof.Proof.Blocks
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Pieces Cert.KernelIdeal.Blocks

variable (m : (ℓ : Loc nD τ sig) → Buf (Elt Ideal) ℓ) (ρ : Dev nD → PrngReg)

/-- Grid point `t` of the 32 works on block `t` of the two per-row arrays: the block index of either output window
    at point `t` is `t` itself (checked over the grid). -/
private theorem contribIdx : ∀ t : Fin cfg0.N, win0_7.index t (0 : Fin 1) = t.val :=
  (by decide +kernel : ∀ t : Fin grid0.N, win0_7.index t (0 : Fin 1) = t.val)
private theorem weightIdx : ∀ t : Fin cfg0.N, win0_8.index t (0 : Fin 1) = t.val :=
  (by decide +kernel : ∀ t : Fin grid0.N, win0_8.index t (0 : Fin 1) = t.val)

/-- What point `t` writes back to the array of weighted log-probabilities is the restriction of the row function `Cf`
    to rows `128 t … 128 t + 127`: entry `r` of the stored block is the body's value at `r`, which is `Cf` at row
    `128 t + r`, and that row is where entry `r` of block `t` sits in the array (`t · 128 + 1 · r`). -/
private theorem contribFlushed (Cf : Dev nD → Fin 4096 → EReal)
    (hC : ∀ (c : Dev nD) (t : Fin cfg0.N) (r : Fin 128) (n : Fin 4096), n.val = 128 * t.val + r.val →
      blockContrib (F := Ideal) (blk0 m c t) (blk1 m c t) (blk2 m c t) (blk3 m c t) (blk4 m c t) (blk5 m c t) (blk6 m c t) (ix1 r) = Cf c n)
    (c : Dev nD) (t : Fin cfg0.N) :
    (dats m 0 c).flushed 7 t = ((cfg0.win 7).blk t).view.read (Elt Ideal) (fun i => Cf c (i 0)) := by
  show (cfg0.win 7).cut (grid0.coords t) ((dats m 0 c).after 7 t) = _
  rw [after0_7]
  unfold outsAt0
  dsimp only
  rw [Pieces.out7_eq]
  refine funext fun (y : S128.Idx) => ?_
  obtain ⟨r, rfl⟩ : ∃ r : Fin 128, y = ix1 r := ⟨y 0, eq_ix1 y⟩
  show blockContrib (F := Ideal) (blk0 m c t) (blk1 m c t) (blk2 m c t) (blk3 m c t) (blk4 m c t) (blk5 m c t) (blk6 m c t) (ix1 r)
    = Cf c ((((cfg0.win 7).blk t).view.emb (ix1 r)) 0)
  refine hC c t r _ ?_
  show win0_7.index t (0 : Fin 1) * 128 + 1 * r.val = 128 * t.val + r.val
  rw [contribIdx t]; omega

/-- The same for the array of row weights and the row function `Vf`. -/
private theorem weightFlushed (Vf : Dev nD → Fin 4096 → EReal)
    (hV : ∀ (c : Dev nD) (t : Fin cfg0.N) (r : Fin 128) (n : Fin 4096), n.val = 128 * t.val + r.val →
      blockVf (F := Ideal) (blk1 m c t) (ix1 r) = Vf c n)
    (c : Dev nD) (t : Fin cfg0.N) :
    (dats m 0 c).flushed 8 t = ((cfg0.win 8).blk t).view.read (Elt Ideal) (fun i => Vf c (i 0)) := by
  show (cfg0.win 8).cut (grid0.coords t) ((dats m 0 c).after 8 t) = _
  rw [after0_8]
  unfold outsAt0
  dsimp only
  rw [Pieces.out8_eq]
  refine funext fun (y : S128.Idx) => ?_
  obtain ⟨r, rfl⟩ : ∃ r : Fin 128, y = ix1 r := ⟨y 0, eq_ix1 y⟩
  show blockVf (F := Ideal) (blk1 m c t) (ix1 r)
    = Vf c ((((cfg0.win 8).blk t).view.emb (ix1 r)) 0)
  refine hV c t r _ ?_
  show win0_8.index t (0 : Fin 1) * 128 + 1 * r.val = 128 * t.val + r.val
  rw [weightIdx t]; omega

/-- Row `i` lies in point `t`'s block iff `128 · index t ≤ i < 128 · index t + 128`. -/
private theorem contribMemBlk (t : Fin cfg0.N) (i : S4096.Idx) :
    i ∈ ((cfg0.win 7).blk t).view.set ↔ ∀ a : Fin 1, win0_7.index t a * S128.size a ≤ (i a).val ∧ (i a).val < win0_7.index t a * S128.size a + S128.size a := by
  show i ∈ ((View.whole main_v9_0).slice (win0_7.rect t)).set ↔ _
  rw [View.set_slice_whole, Rect.mem_set_unit]
  exact Iff.rfl

private theorem weightMemBlk (t : Fin cfg0.N) (i : S4096.Idx) :
    i ∈ ((cfg0.win 8).blk t).view.set ↔ ∀ a : Fin 1, win0_8.index t a * S128.size a ≤ (i a).val ∧ (i a).val < win0_8.index t a * S128.size a + S128.size a := by
  show i ∈ ((View.whole main_v9_1).slice (win0_8.rect t)).set ↔ _
  rw [View.set_slice_whole, Rect.mem_set_unit]
  exact Iff.rfl

/-- The 32 blocks of 128 rows cover the 4096 rows: row `i` is in the block of point `i / 128`, which writes back. -/
private theorem contribCover (i : S4096.Idx) : ∃ t : Fin cfg0.N, (cfg0.win 7).flush t = true ∧ i ∈ ((cfg0.win 7).blk t).view.set := by
  have hi : (i 0).val < 4096 := (i 0).isLt
  have hN : cfg0.N = 32 := N_0
  have hq : (i 0).val / 128 < cfg0.N := by rw [hN]; omega
  refine ⟨⟨(i 0).val / 128, hq⟩, flush0_7 _, ?_⟩
  rw [contribMemBlk]
  intro a
  match a with
  | ⟨0, _⟩ =>
    show win0_7.index ⟨(i 0).val / 128, hq⟩ (0 : Fin 1) * 128 ≤ (i 0).val ∧ (i 0).val < win0_7.index ⟨(i 0).val / 128, hq⟩ (0 : Fin 1) * 128 + 128
    rw [contribIdx ⟨(i 0).val / 128, hq⟩]
    show (i 0).val / 128 * 128 ≤ (i 0).val ∧ (i 0).val < (i 0).val / 128 * 128 + 128
    omega

private theorem weightCover (i : S4096.Idx) : ∃ t : Fin cfg0.N, (cfg0.win 8).flush t = true ∧ i ∈ ((cfg0.win 8).blk t).view.set := by
  have hi : (i 0).val < 4096 := (i 0).isLt
  have hN : cfg0.N = 32 := N_0
  have hq : (i 0).val / 128 < cfg0.N := by rw [hN]; omega
  refine ⟨⟨(i 0).val / 128, hq⟩, flush0_8 _, ?_⟩
  rw [weightMemBlk]
  intro a
  match a with
  | ⟨0, _⟩ =>
    show win0_8.index ⟨(i 0).val / 128, hq⟩ (0 : Fin 1) * 128 ≤ (i 0).val ∧ (i 0).val < win0_8.index ⟨(i 0).val / 128, hq⟩ (0 : Fin 1) * 128 + 128
    rw [weightIdx ⟨(i 0).val / 128, hq⟩]
    show (i 0).val / 128 * 128 ≤ (i 0).val ∧ (i 0).val < (i 0).val / 128 * 128 + 128
    omega

/-- So after the last grid point the array of weighted log-probabilities is `Cf`, row by row, -/
private theorem contribFinal (Cf : Dev nD → Fin 4096 → EReal)
    (hC : ∀ (c : Dev nD) (t : Fin cfg0.N) (r : Fin 128) (n : Fin 4096), n.val = 128 * t.val + r.val →
      blockContrib (F := Ideal) (blk0 m c t) (blk1 m c t) (blk2 m c t) (blk3 m c t) (blk4 m c t) (blk5 m c t) (blk6 m c t) (ix1 r) = Cf c n)
    (c : Dev nD) : (dats m 0 c).arrAt 7 cfg0.N = (fun i => Cf c (i 0)) :=
  (dats m 0 c).arrAt_eq_of_cover 7 (fun i => Cf c (i 0)) (fun t _ => contribFlushed m Cf hC c t) contribCover

/-- and the array of row weights is `Vf`. -/
private theorem weightFinal (Vf : Dev nD → Fin 4096 → EReal)
    (hV : ∀ (c : Dev nD) (t : Fin cfg0.N) (r : Fin 128) (n : Fin 4096), n.val = 128 * t.val + r.val →
      blockVf (F := Ideal) (blk1 m c t) (ix1 r) = Vf c n)
    (c : Dev nD) : (dats m 0 c).arrAt 8 cfg0.N = (fun i => Vf c (i 0)) :=
  (dats m 0 c).arrAt_eq_of_cover 8 (fun i => Vf c (i 0)) (fun t _ => weightFlushed m Vf hV c t) weightCover

/-- The host's operations after the grid (a zero, the sum of the first array, its negation, a zero, the sum of the second
    array, the quotient) leave in the result the loss of the two arrays as the grid left them. -/
private theorem lossAfterGrid (c : Dev nD) :
    Pipeline.afterTail₀ cfgs (dats m) 0 (V0 m) [hostOps1] c main_v13
      = lossOf ((dats m 0 c).arrAt 7 cfg0.N) ((dats m 0 c).arrAt 8 cfg0.N) := by
  unfold Pipeline.afterTail₀
  show StableHlo.after hostOps1 _ (Proc.devRef .tc main_v13) = _
  after_results
  have e7 : Pipeline.withArrays (cfgs 0).spec c (V0 m c) (fun w => (dats m 0 c).arrAt w (cfgs 0).N) (Proc.devRef .tc main_v9_0)
      = (dats m 0 c).arrAt 7 cfg0.N := Pipeline.withArrays_arr spec0 launch0.win.arr_inj c _ _ 7
  have e8 : Pipeline.withArrays (cfgs 0).spec c (V0 m c) (fun w => (dats m 0 c).arrAt w (cfgs 0).N) (Proc.devRef .tc main_v9_1)
      = (dats m 0 c).arrAt 8 cfg0.N := Pipeline.withArrays_arr spec0 launch0.win.arr_inj c _ _ 8
  rw [e7, e8]
  rfl

/-- THE KERNEL'S RUN: if each point's two stored blocks are the restrictions of `Cf` and `Vf` to its 128 rows, every
    execution ends with the loss of `Cf` and `Vf` in the result and with the seven arguments as launched (an argument
    the grid stages is never written; the others are touched neither by the grid nor by the host's operations). -/
theorem kernel_run (Cf Vf : Dev nD → Fin 4096 → EReal)
    (hC : ∀ (c : Dev nD) (t : Fin cfg0.N) (r : Fin 128) (n : Fin 4096), n.val = 128 * t.val + r.val →
      blockContrib (F := Ideal) (blk0 m c t) (blk1 m c t) (blk2 m c t) (blk3 m c t) (blk4 m c t) (blk5 m c t) (blk6 m c t) (ix1 r) = Cf c n)
    (hV : ∀ (c : Dev nD) (t : Fin cfg0.N) (r : Fin 128) (n : Fin 4096), n.val = 128 * t.val + r.val →
      blockVf (F := Ideal) (blk1 m c t) (ix1 r) = Vf c n) :
    θ_run (defs (F := Ideal)) (onTc (τ := τ) (main (F := Ideal))) ⟨m, fun _ => 0, ρ⟩ (fun r => ∀ c : Dev nD,
        r.2.mem ((c.tc : Thread nD τ).loc main_v13) = lossOf (fun i => Cf c (i 0)) (fun i => Vf c (i 0))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => ⟨
      ((h c).2 main_v13 (Pipeline.mem_restRefs_of main_v13 (by decide) (by decide))).trans
        ((lossAfterGrid m c).trans (congrArg₂ lossOf (contribFinal m Cf hC c) (weightFinal m Vf hV c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.KernelValue.lean ====
/-
  The kernel's result over real inputs: with every float input pointwise a real number, the program ends with the
  loss of the two per-row real functions of the specification (each row's weighted log-probability and weight),
  and its arguments unchanged. The weights the windows hold are the arguments padded with zero rows; the padded
  rows are exactly the classes the kernel masks, so they drop out of the specification's rows.
-/
import proofs.«409923_j27530740367371_2_alg».proof.Proof.KernelBlock
import proofs.«409923_j27530740367371_2_alg».proof.Proof.KernelBlocksRead
import proofs.«409923_j27530740367371_2_alg».proof.Proof.KernelRun

set_option maxRecDepth 16384

noncomputable section

open Idealize.ShloMosaic Idealize.ShloMosaic.TcCoe Idealize.SL.Sem Idealize.ShloMosaic.ValueIdx

namespace Cert.KernelIdeal.KernelValue

open Cert.KernelIdeal Cert.KernelIdeal.Gen Cert.KernelIdeal.Pieces Cert.KernelIdeal.Blocks Cert.Spec

/-- Weights padded with zero rows, as the kernel's windows hold them. -/
def padRows {N D : ℕ} (P : ℕ) (W : Fin N → Fin D → ℝ) : Fin P → Fin D → ℝ :=
  fun j a => if h : j.val < N then W ⟨j.val, h⟩ a else 0

theorem padRows_castLE {N D P : ℕ} (hNP : N ≤ P) (W : Fin N → Fin D → ℝ) :
    (fun j : Fin N => padRows P W (Fin.castLE hNP j)) = W := by
  funext j a
  unfold padRows
  rw [dif_pos (show (Fin.castLE hNP j).val < N from j.isLt)]
  rfl

theorem padRows_coe {N D P : ℕ} (W : Fin N → Fin D → ℝ) (f : Fin N → Fin D → EReal) (hf : ∀ j a, f j a = ((W j a : ℝ) : EReal))
    (j : Fin P) (a : Fin D) :
    (if h : j.val < N then f ⟨j.val, h⟩ a else (0 : EReal)) = ((padRows P W j a : ℝ) : EReal) := by
  unfold padRows
  split
  · exact hf _ a
  · exact EReal.coe_zero.symm

variable (m : (ℓ : Loc nD τ sig) → Buf (Elt Ideal) ℓ) (ρ : Dev nD → PrngReg)

theorem kernel_value (X : Dev nD → Fin 4096 → Fin 1024 → ℝ) (HW : Dev nD → Fin 2002 → Fin 1024 → ℝ)
    (P0 : Dev nD → Fin 256 → Fin 1024 → ℝ) (O0 : Dev nD → Fin 8000 → Fin 256 → ℝ)
    (P1 : Dev nD → Fin 64 → Fin 1024 → ℝ) (O1 : Dev nD → Fin 40257 → Fin 64 → ℝ)
    (hX : ∀ c n k, a0 m c (ix2 n k) = ((X c n k : ℝ) : EReal)) (hHW : ∀ c j k, a2 m c (ix2 j k) = ((HW c j k : ℝ) : EReal))
    (hP0 : ∀ c a k, a3 m c (ix2 a k) = ((P0 c a k : ℝ) : EReal)) (hO0 : ∀ c j a, a4 m c (ix2 j a) = ((O0 c j a : ℝ) : EReal))
    (hP1 : ∀ c a k, a5 m c (ix2 a k) = ((P1 c a k : ℝ) : EReal)) (hO1 : ∀ c j a, a6 m c (ix2 j a) = ((O1 c j a : ℝ) : EReal)) :
    θ_run (defs (F := Ideal)) (onTc (τ := τ) (main (F := Ideal))) ⟨m, fun _ => 0, ρ⟩ (fun r => ∀ c : Dev nD,
        r.2.mem ((c.tc : Thread nD τ).loc main_v13)
          = lossOf (fun i => ((contribR (X c (i 0)) (a1 m c (ix1 (i 0))) (HW c) (P0 c) (O0 c) (P1 c) (O1 c) : ℝ) : EReal))
              (fun i => ((vfR (a1 m c (ix1 (i 0))) : ℝ) : EReal))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  refine Cert.KernelIdeal.Run.kernel_run m ρ
    (fun c n => ((contribR (X c n) (a1 m c (ix1 n)) (HW c) (P0 c) (O0 c) (P1 c) (O1 c) : ℝ) : EReal))
    (fun c n => ((vfR (a1 m c (ix1 n)) : ℝ) : EReal)) ?_ ?_
  · intro c t r n hn
    have ht : t.val < 32 := Nat.lt_of_lt_of_le t.isLt (le_of_eq N_0)
    have hrow : ∀ (r' : Fin 128), 128 * t.val + r'.val < 4096 := fun r' => by have := r'.isLt; omega
    rw [Cert.KernelIdeal.Block.block_contrib _ _ _ _ _ _ _
      (fun r' k => X c ⟨128 * t.val + r'.val, hrow r'⟩ k) (padRows 2048 (HW c)) (P0 c) (padRows 8192 (O0 c)) (P1 c) (padRows 40960 (O1 c))
      (fun r' k => (Cert.KernelIdeal.BlocksRead.blk0_eq m c t r' k ⟨128 * t.val + r'.val, hrow r'⟩ rfl).trans (hX c _ k))
      (fun j k => (Cert.KernelIdeal.BlocksRead.blk2_eq m c t j k).trans
        (padRows_coe (HW c) (fun j k => a2 m c (ix2 j k)) (hHW c) j k))
      (fun a k => (Cert.KernelIdeal.BlocksRead.blk3_eq m c t a k).trans (hP0 c a k))
      (fun j a => (Cert.KernelIdeal.BlocksRead.blk4_eq m c t j a).trans
        (padRows_coe (O0 c) (fun j a => a4 m c (ix2 j a)) (hO0 c) j a))
      (fun a k => (Cert.KernelIdeal.BlocksRead.blk5_eq m c t a k).trans (hP1 c a k))
      (fun j a => (Cert.KernelIdeal.BlocksRead.blk6_eq m c t j a).trans
        (padRows_coe (O1 c) (fun j a => a6 m c (ix2 j a)) (hO1 c) j a))
      r]
    unfold Cert.Rows.contribRow
    rw [padRows_castLE, padRows_castLE, padRows_castLE, Cert.KernelIdeal.BlocksRead.blk1_eq m c t r n hn]
    have hnn : (⟨128 * t.val + r.val, hrow r⟩ : Fin 4096) = n := Fin.ext hn.symm
    rw [hnn]
  · intro c t r n hn
    rw [Cert.KernelIdeal.Block.block_vf, Cert.KernelIdeal.BlocksRead.blk1_eq m c t r n hn]

end Cert.KernelIdeal.KernelValue

end
-- ==== Proof.RefHead.lean ====
/-
  The reference's head at one row, over the extended reals: the 2002 logits of the row, their log-softmax through the
  row maximum, the entry gathered at the clamped label, the two cluster-slot columns; the label with the ignore
  index replaced; the row weight.
-/
import proofs.«409923_j27530740367371_2_alg».proof.Proof.RefRead
import proofs.«409923_j27530740367371_2_alg».proof.Proof.Spec
import proofs.«409923_j27530740367371_2_alg».proof.Proof.LibLse
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefHead

open Cert.ReferenceIdeal Cert.ReferenceIdeal.Gen Cert.ReferenceIdeal.ReadP Cert.Spec

variable (x0 : (⟨S4096x1024, .f32⟩ : BufTy).Contents (Elt Ideal)) (x1 : (⟨S4096, .i32⟩ : BufTy).Contents (Elt Ideal)) (x2 : (⟨S2002x1024, .f32⟩ : BufTy).Contents (Elt Ideal))
  (X : Fin 4096 → Fin 1024 → ℝ) (HW : Fin 2002 → Fin 1024 → ℝ)

/-! ## The row maximum -/

private theorem reduces_row : S4096x2002.Reduces [1] S4096 := by decide

/-- The reduced index `n` with column `k` put back is `(n, k)`. -/
private theorem lift_row (n : Fin 4096) (k : Fin (S4096x2002.size 1)) :
    reduces_row.lift (ix1 n) k = ix2 n (⟨k.val, k.isLt⟩ : Fin 2002) := by
  funext c; apply Fin.ext
  fin_cases c <;> rfl

/-- From −∞ the maximum-reduce over the columns, at row `n`, is the running maximum of the row. -/
private theorem rowmax_fold (y : (⟨S4096x2002, .f32⟩ : BufTy).Contents (Elt Ideal)) (n : Fin 4096) :
    Host.reduce FloatOps.maximumf y (constant (F := Ideal) S_ .f32 0xFF800000#32) reducesTo_S4096x2002_S4096_d1 h_S_ (ix1 n)
      = (Finset.univ : Finset (Fin 2002)).fold max (⊥ : EReal) (fun j => y (ix2 n j)) := by
  refine (Host.reduce_eq_fold_single (FloatOps.maximumf (F := Ideal) (φ := .f32)) y
    (constant (F := Ideal) S_ .f32 0xFF800000#32) reducesTo_S4096x2002_S4096_d1 reduces_row h_S_ (ix1 n)).trans ?_
  have hb : (constant (F := Ideal) S_ .f32 0xFF800000#32) (Shape.Idx.first h_S_) = (⊥ : EReal) := by
    show Ideal.ofBits .f32 0xFF800000#32 = ⊥
    simp [Ideal.ofBits, Ideal.ieee]
  rw [hb]
  have hf : (y ∘ reduces_row.lift (ix1 n)) = fun k : Fin 2002 => y (ix2 n k) := funext fun k => congrArg y (lift_row n k)
  exact congrArg (fun f => Finset.fold max (⊥ : EReal) f (Finset.univ : Finset (Fin 2002))) hf

/-! ## The log-softmax of a real row, as computed through its maximum -/

private theorem lsm_real {N : ℕ} (hN : 0 < N) (a : Fin N → ℝ) (z : Fin N → EReal) (hz : ∀ j, z j = ((a j : ℝ) : EReal)) (j : Fin N) :
    (z j - max (⊥ : EReal) ((Finset.univ : Finset (Fin N)).fold max (⊥ : EReal) z))
      - Ideal.log ((0 : EReal) + ∑ k, Ideal.exp (z k - max (⊥ : EReal) ((Finset.univ : Finset (Fin N)).fold max (⊥ : EReal) z)))
      = ((a j - lse a : ℝ) : EReal) := by
  have hm : Cert.Lse.Masked N a z := fun j => by rw [hz j, dif_pos j.isLt]
  obtain ⟨M, hM⟩ := Cert.Lse.fold_max_real a z hN (le_refl N) hm
  rw [hM, max_eq_right bot_le, zero_add, Cert.Lse.log_sum_exp_shift a z hN (le_refl N) hm M, hz j, ← EReal.coe_sub, ← EReal.coe_sub]
  congr 1; ring

/-! ## The gather -/

/-- The row coordinate the gather reads for result row `n`: the first word of pair `n`, signed and clamped. -/
private theorem gather_coord0 (idx : IVec S4096x2 32) (n : Fin 4096) :
    (gather_S4096x2002_S4096x2_S4096_n_01_n_n_01_1_11.operandIdx (ix1 n) idx (0 : Fin 2)).val
      = min (idx (ix2 n (0 : Fin 2))).toInt.toNat 4095 := by
  show gather_S4096x2002_S4096x2_S4096_n_01_n_n_01_1_11.start (ix1 n) idx (0 : Fin 2)
      + gather_S4096x2002_S4096x2_S4096_n_01_n_n_01_1_11.batchCoord (ix1 n) (0 : Fin 2)
      + gather_S4096x2002_S4096x2_S4096_n_01_n_n_01_1_11.offCoord (ix1 n) (0 : Fin 2) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S4096x2002_S4096x2_S4096_n_01_n_n_01_1_11.startIndexMap by decide)]
  have hsi : gather_S4096x2002_S4096x2_S4096_n_01_n_n_01_1_11.siIdx (ix1 n)
      ⟨List.idxOf (0 : Fin 2) gather_S4096x2002_S4096x2_S4096_n_01_n_n_01_1_11.startIndexMap,
        List.idxOf_lt_length_iff.2 (by decide)⟩ = ix2 n (0 : Fin 2) := by
    funext b; refine Fin.ext ?_
    match b with
    | ⟨0, _⟩ => rfl
    | ⟨1, _⟩ => rfl
  rw [hsi]
  rfl

/-- The class coordinate the gather reads for result row `n`: the second word of pair `n`, signed and clamped. -/
private theorem gather_coord1 (idx : IVec S4096x2 32) (n : Fin 4096) :
    (gather_S4096x2002_S4096x2_S4096_n_01_n_n_01_1_11.operandIdx (ix1 n) idx (1 : Fin 2)).val
      = min (idx (ix2 n (1 : Fin 2))).toInt.toNat 2001 := by
  show gather_S4096x2002_S4096x2_S4096_n_01_n_n_01_1_11.start (ix1 n) idx (1 : Fin 2)
      + gather_S4096x2002_S4096x2_S4096_n_01_n_n_01_1_11.batchCoord (ix1 n) (1 : Fin 2)
      + gather_S4096x2002_S4096x2_S4096_n_01_n_n_01_1_11.offCoord (ix1 n) (1 : Fin 2) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gather_S4096x2002_S4096x2_S4096_n_01_n_n_01_1_11.startIndexMap by decide)]
  have hsi : gather_S4096x2002_S4096x2_S4096_n_01_n_n_01_1_11.siIdx (ix1 n)
      ⟨List.idxOf (1 : Fin 2) gather_S4096x2002_S4096x2_S4096_n_01_n_n_01_1_11.startIndexMap,
        List.idxOf_lt_length_iff.2 (by decide)⟩ = ix2 n (1 : Fin 2) := by
    funext b; refine Fin.ext ?_
    match b with
    | ⟨0, _⟩ => rfl
    | ⟨1, _⟩ => rfl
  rw [hsi]
  rfl

/-- The gather of a two-axis operand at (row word, class word) pairs reads, at row `n`, the operand at the two
    words of pair `n`, each read as a signed integer and clamped into its axis. -/
private theorem gather_pair_apply {α : Type} (x : S4096x2002.Idx → α) (idx : IVec S4096x2 32) (n : Fin 4096) :
    Host.gather gather_S4096x2002_S4096x2_S4096_n_01_n_n_01_1_11 x idx (ix1 n)
      = x (ix2 (⟨min (idx (ix2 n (0 : Fin 2))).toInt.toNat 4095, by omega⟩ : Fin 4096)
              (⟨min (idx (ix2 n (1 : Fin 2))).toInt.toNat 2001, by omega⟩ : Fin 2002)) := by
  unfold Host.gather
  congr 1
  funext a
  refine Fin.ext ?_
  match a with
  | ⟨0, _⟩ => exact gather_coord0 idx n
  | ⟨1, _⟩ => exact gather_coord1 idx n

/-! ## The (row word, class word) pairs -/

/-- The first word of pair `n` is the first array's word of row `n`. -/
private theorem pair_fst {α : Type} (a b : S4096x1.Idx → α) (n : Fin 4096) :
    concatenate S4096x2 1 [⟨S4096x1, a⟩, ⟨S4096x1, b⟩] concatenates_S4096x1_S4096x1_S4096x2_d1 (ix2 n (0 : Fin 2))
      = a (ix2 n (0 : Fin 1)) := by
  refine concatenate_pair_apply_left (1 : Fin 2) a b concatenates_S4096x1_S4096x1_S4096x2_d1 (ix2 n (0 : Fin 2)) rfl
    (ix2 n (0 : Fin 1)) (fun c => ?_)
  match c with
  | ⟨0, _⟩ => rfl
  | ⟨1, _⟩ => rfl

/-- The second word of pair `n` is the second array's word of row `n`. -/
private theorem pair_snd {α : Type} (a b : S4096x1.Idx → α) (n : Fin 4096) :
    concatenate S4096x2 1 [⟨S4096x1, a⟩, ⟨S4096x1, b⟩] concatenates_S4096x1_S4096x1_S4096x2_d1 (ix2 n (1 : Fin 2))
      = b (ix2 n (0 : Fin 1)) := by
  refine concatenate_pair_apply_right (1 : Fin 2) a b concatenates_S4096x1_S4096x1_S4096x2_d1 (ix2 n (1 : Fin 2)) rfl rfl
    (ix2 n (0 : Fin 1)) (fun c hc => ?_) rfl
  match c with
  | ⟨0, _⟩ => rfl
  | ⟨1, _⟩ => exact absurd rfl hc

/-! ## The index words -/

/-- A signed word that is not negative compares "less than zero" false. -/
private theorem slt_zero_of_nonneg (w : BitVec 32) (h : 0 ≤ w.toInt) : IntOp.cmpi .slt w 0#32 = 0#1 := by
  unfold IntOp.cmpi
  have hz : (0#32 : BitVec 32).toInt = 0 := by decide
  have : w.slt 0#32 = false := by
    rw [BitVec.slt, hz, decide_eq_false_iff_not]
    omega
  simp only [this]
  rfl

/-- A clamped word lies between 0 and the upper bound, as signed integers. -/
private theorem clampW_range (hi w : BitVec 32) (hhi : 0 ≤ hi.toInt) :
    0 ≤ (clampW hi w).toInt ∧ (clampW hi w).toInt ≤ hi.toInt := by
  unfold clampW IntOp.minsi IntOp.maxsi
  have hz : (0#32 : BitVec 32).toInt = 0 := by decide
  by_cases h1 : w.slt 0#32 = true
  · rw [if_pos h1]
    by_cases h2 : hi.slt 0#32 = true
    · rw [if_pos h2]; exact ⟨hhi, le_refl _⟩
    · rw [if_neg h2, hz]; exact ⟨le_refl _, hhi⟩
  · rw [if_neg h1]
    have h1' : 0 ≤ w.toInt := by
      rw [BitVec.slt, decide_eq_true_eq, hz] at h1; omega
    by_cases h2 : hi.slt w = true
    · rw [if_pos h2]; exact ⟨hhi, le_refl _⟩
    · rw [if_neg h2]
      rw [BitVec.slt, decide_eq_true_eq] at h2
      exact ⟨h1', by omega⟩

/-- A word with a nonnegative signed value reads the same signed and unsigned. -/
private theorem toInt_toNat_of_nonneg (w : BitVec 32) (h : 0 ≤ w.toInt) : w.toInt.toNat = w.toNat := by
  have h' := BitVec.toInt_eq_toNat_cond w
  have := w.isLt
  split at h' <;> omega

/-- The row word of row `n`, with the negative-index wrap, read signed and clamped, is `n`. -/
private theorem row_word (n : Fin 4096) :
    min (Scalar.select (IntOp.cmpi .slt (BitVec.ofNat 32 n.val) 0#32) (IntOp.addi (BitVec.ofNat 32 n.val) 4096#32)
      (BitVec.ofNat 32 n.val)).toInt.toNat 4095 = n.val := by
  have hn := n.isLt
  have hnat : (BitVec.ofNat 32 n.val).toNat = n.val := by rw [BitVec.toNat_ofNat]; omega
  have hint : (BitVec.ofNat 32 n.val).toInt = (n.val : Int) := by
    have h' := BitVec.toInt_eq_toNat_cond (BitVec.ofNat 32 n.val)
    rw [hnat] at h'
    split at h' <;> omega
  rw [slt_zero_of_nonneg _ (by rw [hint]; omega), select_zero, hint]
  omega

/-- The class word: a label clamped into [0, 1999], with the negative-index wrap, read signed and clamped into the
    2002 columns, is the clamped label read as a natural number, below 2000. -/
private theorem class_word (w : BitVec 32) :
    min (Scalar.select (IntOp.cmpi .slt (clampW 1999#32 w) 0#32) (IntOp.addi (clampW 1999#32 w) 2002#32)
      (clampW 1999#32 w)).toInt.toNat 2001 = (clampW 1999#32 w).toNat ∧ (clampW 1999#32 w).toNat < 2000 := by
  obtain ⟨h0, h1⟩ := clampW_range 1999#32 w (by decide)
  have h19 : (1999#32 : BitVec 32).toInt = 1999 := by decide
  rw [h19] at h1
  have hnat := toInt_toNat_of_nonneg _ h0
  rw [slt_zero_of_nonneg _ h0, select_zero, hnat]
  omega

/-! ## The head's logits and their log-softmax, at one entry -/

/-- The head's logit of row `n` and column `j` is the inner product of the row with the column's weights. -/
private theorem logits_eq (hx0 : ∀ n k, x0 (ix2 n k) = ((X n k : ℝ) : EReal)) (hx2 : ∀ j k, x2 (ix2 j k) = ((HW j k : ℝ) : EReal))
    (n : Fin 4096) (j : Fin 2002) :
    val_main_v0 (F := Ideal) x0 x2 (ix2 n j) = ((headLogits (X n) HW j : ℝ) : EReal) := by
  rw [val_main_v0_apply]
  have el : ∀ k : Fin 1024, lidx_main_v0 (ix2 n j) k = ix2 n k := fun k =>
    funext fun a => Fin.ext (by match a with | ⟨0, _⟩ => rfl | ⟨1, _⟩ => rfl)
  have er : ∀ k : Fin 1024, ridx_main_v0 (ix2 n j) k = ix2 j k := fun k =>
    funext fun a => Fin.ext (by match a with | ⟨0, _⟩ => rfl | ⟨1, _⟩ => rfl)
  simp only [el, er, hx0, hx2]
  exact Cert.Lse.dot_coe (X n) (HW j)

/-- The row's maximum, as the reference takes it: from −∞, and once more against −∞. -/
private theorem rowmax_eq (n : Fin 4096) :
    val_main_call0_v2 (F := Ideal) x0 x2 (ix1 n)
      = max (⊥ : EReal) ((Finset.univ : Finset (Fin 2002)).fold max (⊥ : EReal) (fun j => val_main_v0 (F := Ideal) x0 x2 (ix2 n j))) := by
  rw [val_main_call0_v2_apply, val_main_call0_v1_apply, val_main_call0_cst_0_apply]
  unfold val_main_call0_v0 val_main_call0_cst
  rw [rowmax_fold]
  have hb : FloatOps.ofBits (F := Ideal) .f32 0xFF800000#32 = (⊥ : EReal) := by
    show Ideal.ofBits .f32 0xFF800000#32 = ⊥
    simp [Ideal.ofBits, Ideal.ieee]
  rw [Ideal.maximumf_def, hb]

/-- The shifted logit: the logit less the row's maximum. -/
private theorem shifted_eq (n : Fin 4096) (j : Fin 2002) :
    val_main_call0_v5 (F := Ideal) x0 x2 (ix2 n j)
      = val_main_v0 (F := Ideal) x0 x2 (ix2 n j) - val_main_call0_v2 (F := Ideal) x0 x2 (ix1 n) := by
  rw [val_main_call0_v5_apply, val_main_call0_v4_apply, val_main_call0_v3_apply, Ideal.subf_def]
  have e : idx_main_call0_v3 (idx_main_call0_v4 (ix2 n j)) = ix1 n :=
    funext fun a => Fin.ext (by match a with | ⟨0, _⟩ => rfl)
  rw [e]

/-- The row's sum of exponentials of the shifted logits. -/
private theorem sumexp_eq (n : Fin 4096) :
    val_main_call0_v7 (F := Ideal) x0 x2 (ix1 n)
      = (0 : EReal) + ∑ k : Fin 2002, Ideal.exp (val_main_call0_v5 (F := Ideal) x0 x2 (ix2 n k)) := by
  rw [val_main_call0_v7_apply, val_main_call0_cst_1_apply]
  have e : ∀ k : Fin 2002, idx_main_call0_v7 (ix1 n) k = ix2 n k := fun k =>
    funext fun a => Fin.ext (by match a with | ⟨0, _⟩ => rfl | ⟨1, _⟩ => rfl)
  have h0 : FloatOps.ofBits (F := Ideal) .f32 0x00000000#32 = (0 : EReal) := by
    show Ideal.ofBits .f32 0x00000000#32 = 0
    simp [Ideal.ofBits, Ideal.ieee]
  simp only [e, val_main_call0_v6_apply, Ideal.hostUnary_exp_def, h0]

/-- The log-softmax entry: the shifted logit less the logarithm of the row's sum. -/
private theorem lsm_stage (n : Fin 4096) (j : Fin 2002) :
    val_main_v1 (F := Ideal) x0 x2 (ix2 n j)
      = val_main_call0_v5 (F := Ideal) x0 x2 (ix2 n j) - Ideal.log (val_main_call0_v7 (F := Ideal) x0 x2 (ix1 n)) := by
  rw [val_main_v1_apply, val_main_call0_v10_apply, val_main_call0_v9_apply, val_main_call0_v8_apply, Ideal.subf_def,
    Ideal.hostUnary_log_def]
  have e : idx_main_call0_v8 (idx_main_call0_v10 (ix2 n j)) = ix1 n :=
    funext fun a => Fin.ext (by match a with | ⟨0, _⟩ => rfl)
  rw [e]

/-- The head's log-probability of column `j` at row `n`: the logit less the log-sum-exp of the row's logits. -/
private theorem head_lp_eq (hx0 : ∀ n k, x0 (ix2 n k) = ((X n k : ℝ) : EReal)) (hx2 : ∀ j k, x2 (ix2 j k) = ((HW j k : ℝ) : EReal))
    (n : Fin 4096) (j : Fin 2002) :
    val_main_v1 (F := Ideal) x0 x2 (ix2 n j) = ((headLogits (X n) HW j - lse (headLogits (X n) HW) : ℝ) : EReal) := by
  rw [lsm_stage, sumexp_eq]
  simp only [shifted_eq, rowmax_eq]
  exact lsm_real (by decide) (headLogits (X n) HW) (fun j => val_main_v0 (F := Ideal) x0 x2 (ix2 n j))
    (fun j => logits_eq x0 x2 X HW hx0 hx2 n j) j

/-! ## The label, the weight, and the three readings of the head -/

/-- The label a row is scored at. -/
theorem tgt_eq (n : Fin 4096) : val_main_v5 (F := Ideal) x1 (ix1 n) = tgt (x1 (ix1 n)) := by
  rw [val_main_v5_apply, val_main_v4_apply, val_main_v3_apply, val_main_c_apply, val_main_call1_v1_apply,
    val_main_call1_v0_apply, val_main_c_0_apply]
  rfl

/-- The row weight. -/
theorem vf_eq (n : Fin 4096) : val_main_v79 (F := Ideal) x1 (ix1 n) = ((vfR (x1 (ix1 n)) : ℝ) : EReal) := by
  rw [val_main_v79_apply, val_main_v4_apply, val_main_v3_apply, val_main_c_apply]
  rfl

/-- The first word of pair `n`: the row's own number, with the negative-index wrap. -/
private theorem row_idx_word (n : Fin 4096) :
    val_main_v19 (F := Ideal) x1 (ix2 n (0 : Fin 2))
      = Scalar.select (IntOp.cmpi .slt (BitVec.ofNat 32 n.val) 0#32) (IntOp.addi (BitVec.ofNat 32 n.val) 4096#32)
          (BitVec.ofNat 32 n.val) := by
  unfold val_main_v19
  rw [pair_fst, val_main_v17_apply, val_main_v11_apply, val_main_v8_apply, val_main_v10_apply, val_main_v2_apply,
    val_main_v7_apply, val_main_c_3_apply, val_main_v9_apply, val_main_c_4_apply]

/-- The label clamped into the head's 2000 classes. -/
private theorem clamped_eq (n : Fin 4096) :
    val_main_v6 (F := Ideal) x1 (ix1 n) = clampW 1999#32 (tgt (x1 (ix1 n))) := by
  rw [val_main_v6_apply, val_main_call2_v4_apply, val_main_call2_v3_apply, val_main_c_2_apply, val_main_call2_v2_apply,
    val_main_call2_v1_apply, val_main_call2_v0_apply, val_main_c_1_apply, tgt_eq]
  rfl

/-- The second word of pair `n`: the clamped label, with the negative-index wrap. -/
private theorem class_idx_word (n : Fin 4096) :
    val_main_v19 (F := Ideal) x1 (ix2 n (1 : Fin 2))
      = Scalar.select (IntOp.cmpi .slt (clampW 1999#32 (tgt (x1 (ix1 n)))) 0#32)
          (IntOp.addi (clampW 1999#32 (tgt (x1 (ix1 n)))) 2002#32) (clampW 1999#32 (tgt (x1 (ix1 n)))) := by
  unfold val_main_v19
  rw [pair_snd, val_main_v18_apply, val_main_v16_apply, val_main_v13_apply, val_main_v15_apply, val_main_v12_apply,
    val_main_c_5_apply, val_main_v14_apply, val_main_c_6_apply]
  have e : idx_main_v18 (ix2 n (0 : Fin 1)) = ix1 n :=
    funext fun a => Fin.ext (by match a with | ⟨0, _⟩ => rfl)
  rw [e, clamped_eq]

/-- The head's log-probability gathered at the clamped label. -/
theorem logp_eq (hx0 : ∀ n k, x0 (ix2 n k) = ((X n k : ℝ) : EReal)) (hx2 : ∀ j k, x2 (ix2 j k) = ((HW j k : ℝ) : EReal)) (n : Fin 4096) :
    val_main_v20 (F := Ideal) x0 x1 x2 (ix1 n)
      = ((atW (headLogits (X n) HW) (clampW 1999#32 (tgt (x1 (ix1 n)))) - lse (headLogits (X n) HW) : ℝ) : EReal) := by
  unfold val_main_v20
  rw [gather_pair_apply]
  obtain ⟨hcw, hlt⟩ := class_word (tgt (x1 (ix1 n)))
  have e0 : (⟨min (val_main_v19 (F := Ideal) x1 (ix2 n (0 : Fin 2))).toInt.toNat 4095, by omega⟩ : Fin 4096) = n :=
    Fin.ext (by
      show min (val_main_v19 (F := Ideal) x1 (ix2 n (0 : Fin 2))).toInt.toNat 4095 = n.val
      rw [row_idx_word]; exact row_word n)
  have e1 : (⟨min (val_main_v19 (F := Ideal) x1 (ix2 n (1 : Fin 2))).toInt.toNat 2001, by omega⟩ : Fin 2002)
      = ⟨(clampW 1999#32 (tgt (x1 (ix1 n)))).toNat, by omega⟩ :=
    Fin.ext (by
      show min (val_main_v19 (F := Ideal) x1 (ix2 n (1 : Fin 2))).toInt.toNat 2001 = (clampW 1999#32 (tgt (x1 (ix1 n)))).toNat
      rw [class_idx_word]; exact hcw)
  rw [e0, e1, head_lp_eq x0 x2 X HW hx0 hx2]
  unfold atW
  rw [dif_pos (show (clampW 1999#32 (tgt (x1 (ix1 n)))).toNat < 2002 by omega)]

/-- The head's log-probability of the first cluster's slot (column 2000). -/
theorem slot0_eq (hx0 : ∀ n k, x0 (ix2 n k) = ((X n k : ℝ) : EReal)) (hx2 : ∀ j k, x2 (ix2 j k) = ((HW j k : ℝ) : EReal)) (n : Fin 4096) :
    val_main_v28 (F := Ideal) x0 x2 (ix1 n) = ((atW (headLogits (X n) HW) 2000#32 - lse (headLogits (X n) HW) : ℝ) : EReal) := by
  rw [val_main_v28_apply, val_main_v27_apply]
  have e : idx_main_v27 (idx_main_v28 (ix1 n)) = ix2 n (⟨2000, by decide⟩ : Fin 2002) :=
    funext fun a => Fin.ext (by
      match a with
      | ⟨0, _⟩ => exact Nat.div_one _
      | ⟨1, _⟩ => rfl)
  rw [e, head_lp_eq x0 x2 X HW hx0 hx2]
  have hat : atW (headLogits (X n) HW) 2000#32 = headLogits (X n) HW (⟨2000, by decide⟩ : Fin 2002) := by
    unfold atW
    rw [dif_pos (show (2000#32 : BitVec 32).toNat < 2002 by decide)]
    rfl
  rw [hat]

/-- The head's log-probability of the second cluster's slot (column 2001). -/
theorem slot1_eq (hx0 : ∀ n k, x0 (ix2 n k) = ((X n k : ℝ) : EReal)) (hx2 : ∀ j k, x2 (ix2 j k) = ((HW j k : ℝ) : EReal)) (n : Fin 4096) :
    val_main_v57 (F := Ideal) x0 x2 (ix1 n) = ((atW (headLogits (X n) HW) 2001#32 - lse (headLogits (X n) HW) : ℝ) : EReal) := by
  rw [val_main_v57_apply, val_main_v56_apply]
  have e : idx_main_v56 (idx_main_v57 (ix1 n)) = ix2 n (⟨2001, by decide⟩ : Fin 2002) :=
    funext fun a => Fin.ext (by
      match a with
      | ⟨0, _⟩ => exact Nat.div_one _
      | ⟨1, _⟩ => rfl)
  rw [e, head_lp_eq x0 x2 X HW hx0 hx2]
  have hat : atW (headLogits (X n) HW) 2001#32 = headLogits (X n) HW (⟨2001, by decide⟩ : Fin 2002) := by
    unfold atW
    rw [dif_pos (show (2001#32 : BitVec 32).toNat < 2002 by decide)]
    rfl
  rw [hat]

end Cert.ReferenceIdeal.RefHead

end
-- ==== Proof.RefTails.lean ====
/-
  The reference's two tail clusters at one row, over the extended reals: the row projected, scored against the
  cluster's classes, the log-softmax of the scores through the row maximum, the entry gathered at the clamped
  position of the label inside the cluster.
-/
import proofs.«409923_j27530740367371_2_alg».proof.Proof.RefRead
import proofs.«409923_j27530740367371_2_alg».proof.Proof.Spec
import proofs.«409923_j27530740367371_2_alg».proof.Proof.LibLse
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefTails

open Cert.ReferenceIdeal Cert.ReferenceIdeal.Gen Cert.ReferenceIdeal.ReadP Cert.Spec

variable (x0 : (⟨S4096x1024, .f32⟩ : BufTy).Contents (Elt Ideal)) (x1 : (⟨S4096, .i32⟩ : BufTy).Contents (Elt Ideal))
  (X : Fin 4096 → Fin 1024 → ℝ)

/-! ## General facts -/

/-- The word of −∞ denotes the bottom of the extended reals. -/
private theorem ninf : Ideal.ofBits .f32 0xFF800000#32 = (⊥ : EReal) := by simp [Ideal.ofBits, Ideal.ieee]

/-- Dropping the column axis of an [R, C] array leaves its rows. -/
private theorem reduces_cols (R C : Nat) : (⟨2, ![R, C]⟩ : Shape).Reduces [1] (⟨1, ![R]⟩ : Shape) :=
  ⟨rfl, Nat.one_pos, fun b => by match b with | ⟨0, _⟩ => rfl⟩

/-- The row index `n` with column `k` put back is (n, k). -/
private theorem lift_cols {R C : Nat} (h : (⟨2, ![R, C]⟩ : Shape).Reduces [1] (⟨1, ![R]⟩ : Shape)) (n : Fin R)
    (k : Fin ((⟨2, ![R, C]⟩ : Shape).size 1)) : h.lift (ix1 n) k = ix2 n (⟨k.val, k.isLt⟩ : Fin C) := by
  funext c; apply Fin.ext
  fin_cases c <;> rfl

/-- The host's maximum over the columns, at row `n`, is the maximum of the row's entries from the initial value. -/
private theorem rowmax_fold {R C : Nat} (x : (⟨2, ![R, C]⟩ : Shape).Idx → Ideal .f32) {u : Shape} (init : u.Idx → Ideal .f32)
    (h' : (⟨2, ![R, C]⟩ : Shape).ReducesTo [1] (⟨1, ![R]⟩ : Shape)) (hu : 0 < u.numel) (n : Fin R) :
    Host.reduce FloatOps.maximumf x init h' hu (ix1 n)
      = (Finset.univ : Finset (Fin C)).fold max (init (Shape.Idx.first hu)) (fun k : Fin C => x (ix2 n k)) := by
  rw [Host.reduce_eq_fold_single FloatOps.maximumf x init h' (reduces_cols R C) hu]
  have hf : (x ∘ (reduces_cols R C).lift (ix1 n)) = fun k : Fin C => x (ix2 n k) :=
    funext fun k => congrArg x (lift_cols (reduces_cols R C) n k)
  exact congrArg (fun f => Finset.fold max (init (Shape.Idx.first hu)) f (Finset.univ : Finset (Fin C))) hf

section Gather
variable {α : Type}

/-- The dimension numbers of `x[rows, cols]` on an [R, C] operand: start indices [R, 2], both axes collapsed. -/
private abbrev pairDims (R C : Nat) (wf : GatherDims.WF ⟨2, ![R, C]⟩ ⟨2, ![R, 2]⟩ ⟨1, ![R]⟩ [] [0, 1] [] [0, 1] [] 1 ![1, 1]) :
    GatherDims ⟨2, ![R, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- That gather at `n`: the operand at (row word, column word), each read signed and clamped into its axis. -/
private theorem gather_pair_apply {R C w : Nat}
    (wf : GatherDims.WF ⟨2, ![R, C]⟩ ⟨2, ![R, 2]⟩ ⟨1, ![R]⟩ [] [0, 1] [] [0, 1] [] 1 ![1, 1])
    (x : (⟨2, ![R, C]⟩ : Shape).Idx → α) (idx : IVec ⟨2, ![R, 2]⟩ w) (n r : Fin R) (c : Fin C)
    (hr : min (idx (ix2 n (0 : Fin 2))).toInt.toNat (R - 1) = r.val)
    (hc : min (idx (ix2 n (1 : Fin 2))).toInt.toNat (C - 1) = c.val) :
    Host.gather (pairDims R C wf) x idx (ix1 n) = x (ix2 r c) := by
  have m0 : (0 : Fin 2) ∈ ([0, 1] : List (Fin 2)) := List.mem_cons_self
  have m1 : (1 : Fin 2) ∈ ([0, 1] : List (Fin 2)) := List.mem_cons_of_mem _ (List.mem_singleton.mpr rfl)
  have h0 : (pairDims R C wf).start (ix1 n) idx (0 : Fin 2) + (pairDims R C wf).batchCoord (ix1 n) (0 : Fin 2)
      + (pairDims R C wf).offCoord (ix1 n) (0 : Fin 2) = r.val := by
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈ (pairDims R C wf).startIndexMap from m0)]
    have hsi : (pairDims R C wf).siIdx (ix1 n) ⟨List.idxOf (0 : Fin 2) (pairDims R C wf).startIndexMap,
        List.idxOf_lt_length_iff.2 m0⟩ = ix2 n (0 : Fin 2) := by
      funext b; refine Fin.ext ?_
      match b with
      | ⟨0, _⟩ => rfl
      | ⟨1, _⟩ => rfl
    rw [hsi]
    exact hr
  have h1 : (pairDims R C wf).start (ix1 n) idx (1 : Fin 2) + (pairDims R C wf).batchCoord (ix1 n) (1 : Fin 2)
      + (pairDims R C wf).offCoord (ix1 n) (1 : Fin 2) = c.val := by
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 2) ∈ (pairDims R C wf).startIndexMap from m1)]
    have hsi : (pairDims R C wf).siIdx (ix1 n) ⟨List.idxOf (1 : Fin 2) (pairDims R C wf).startIndexMap,
        List.idxOf_lt_length_iff.2 m1⟩ = ix2 n (1 : Fin 2) := by
      funext b; refine Fin.ext ?_
      match b with
      | ⟨0, _⟩ => rfl
      | ⟨1, _⟩ => rfl
    rw [hsi]
    exact hc
  unfold Host.gather
  congr 1
  funext a
  refine Fin.ext ?_
  match a with
  | ⟨0, _⟩ => exact h0
  | ⟨1, _⟩ => exact h1

/-- Two [R, 1] columns side by side, at column 0: the first. -/
private theorem concat_cols_at0 {R : Nat} (a b : (⟨2, ![R, 1]⟩ : Shape).Idx → α)
    (h : Shape.Concatenates [(⟨2, ![R, 1]⟩ : Shape), (⟨2, ![R, 1]⟩ : Shape)] (⟨2, ![R, 2]⟩ : Shape) 1) (n : Fin R) :
    concatenate (⟨2, ![R, 2]⟩ : Shape) 1 [⟨(⟨2, ![R, 1]⟩ : Shape), a⟩, ⟨(⟨2, ![R, 1]⟩ : Shape), b⟩] h (ix2 n (0 : Fin 2))
      = a (ix2 n (0 : Fin 1)) := by
  refine Idealize.ShloMosaic.concatenate_pair_apply_left 1 a b h (ix2 n (0 : Fin 2)) rfl (ix2 n (0 : Fin 1)) ?_
  intro c
  match c with
  | ⟨0, _⟩ => rfl
  | ⟨1, _⟩ => rfl

/-- Two [R, 1] columns side by side, at column 1: the second. -/
private theorem concat_cols_at1 {R : Nat} (a b : (⟨2, ![R, 1]⟩ : Shape).Idx → α)
    (h : Shape.Concatenates [(⟨2, ![R, 1]⟩ : Shape), (⟨2, ![R, 1]⟩ : Shape)] (⟨2, ![R, 2]⟩ : Shape) 1) (n : Fin R) :
    concatenate (⟨2, ![R, 2]⟩ : Shape) 1 [⟨(⟨2, ![R, 1]⟩ : Shape), a⟩, ⟨(⟨2, ![R, 1]⟩ : Shape), b⟩] h (ix2 n (1 : Fin 2))
      = b (ix2 n (0 : Fin 1)) := by
  refine Idealize.ShloMosaic.concatenate_pair_apply_right 1 a b h (ix2 n (1 : Fin 2)) rfl rfl (ix2 n (0 : Fin 1)) ?_ ?_
  · intro c hc
    match c with
    | ⟨0, _⟩ => rfl
    | ⟨1, _⟩ => exact absurd rfl hc
  · rfl

end Gather

/-- A clamp into `[0, hi]` (signed, `hi` non-negative) is a natural number at most `hi`. -/
private theorem clampW_le (hi w : BitVec 32) (hhi : hi.toNat < 2 ^ 31) : (clampW hi w).toNat ≤ hi.toNat := by
  unfold clampW IntOp.minsi IntOp.maxsi
  simp only [BitVec.slt, BitVec.toInt_eq_toNat_cond]
  have := w.isLt
  split_ifs <;> simp_all <;> omega

/-- A word below 2 ^ 31 is not negative as a signed word. -/
private theorem not_neg_of_lt (c : BitVec 32) (hc : c.toNat < 2 ^ 31) : IntOp.cmpi .slt c 0#32 = 0#1 := by
  have hs : c.slt 0#32 = false := by
    rw [BitVec.slt, decide_eq_false_iff_not, BitVec.toInt_eq_toNat_cond, BitVec.toInt_eq_toNat_cond]
    have h0 : (0#32 : BitVec 32).toNat = 0 := rfl
    rw [h0]
    split_ifs <;> omega
  show BitVec.ofBool (c.slt 0#32) = 0#1
  rw [hs]; rfl

/-- Read signed, a word below 2 ^ 31 is the same natural number. -/
private theorem toInt_toNat_of_lt (c : BitVec 32) (hc : c.toNat < 2 ^ 31) : c.toInt.toNat = c.toNat := by
  rw [BitVec.toInt_eq_toNat_cond]
  split_ifs <;> omega

/-- A row number below 2 ^ 31 is its word's natural number. -/
private theorem toNat_row (n : Nat) (hn : n < 2 ^ 31) : (BitVec.ofNat 32 n).toNat = n := by
  rw [BitVec.toNat_ofNat]
  exact Nat.mod_eq_of_lt (by omega)

/-- The log-softmax of a real row computed on the extended reals through a real shift `M`. -/
private theorem log_softmax_real {N : ℕ} (L : Fin N → ℝ) (hN : 0 < N) (M : ℝ) (j : Fin N) :
    (((L j : ℝ) : EReal) - (M : EReal)) - Ideal.log (0 + ∑ k : Fin N, Ideal.exp (((L k : ℝ) : EReal) - (M : EReal)))
      = ((L j - lse L : ℝ) : EReal) := by
  have hz : Cert.Lse.Masked N L (fun k : Fin N => ((L k : ℝ) : EReal)) := by
    intro k
    rw [dif_pos k.isLt]
  rw [zero_add, Cert.Lse.log_sum_exp_shift L (fun k : Fin N => ((L k : ℝ) : EReal)) hN (le_refl N) hz M,
    ← EReal.coe_sub, ← EReal.coe_sub]
  congr 1
  ring

/-- The maximum of a real row, from −∞, is a real number. -/
private theorem rowmax_real {N : ℕ} (L : Fin N → ℝ) (hN : 0 < N) :
    ∃ M : ℝ, max (⊥ : EReal) ((Finset.univ : Finset (Fin N)).fold max (⊥ : EReal) (fun k : Fin N => ((L k : ℝ) : EReal))) = (M : EReal) := by
  have hz : Cert.Lse.Masked N L (fun k : Fin N => ((L k : ℝ) : EReal)) := by
    intro k
    rw [dif_pos k.isLt]
  obtain ⟨M, hM⟩ := Cert.Lse.fold_max_real L (fun k : Fin N => ((L k : ℝ) : EReal)) hN (le_refl N) hz
  exact ⟨M, by rw [hM]; exact max_eq_right bot_le⟩

/-! ## The first cluster -/

section Tail0

variable (x3 : (⟨S256x1024, .f32⟩ : BufTy).Contents (Elt Ideal)) (x4 : (⟨S8000x256, .f32⟩ : BufTy).Contents (Elt Ideal))
  (P0 : Fin 256 → Fin 1024 → ℝ) (O0 : Fin 8000 → Fin 256 → ℝ)

/-- The row projected: an inner product of reals. -/
private theorem proj0_eq (hx0 : ∀ n k, x0 (ix2 n k) = ((X n k : ℝ) : EReal)) (hx3 : ∀ a k, x3 (ix2 a k) = ((P0 a k : ℝ) : EReal))
    (n : Fin 4096) (a : Fin 256) :
    val_main_v21 (F := Ideal) x0 x3 (ix2 n a) = ((dot (X n) (P0 a) : ℝ) : EReal) := by
  rw [val_main_v21_apply]
  have e : ∀ k : Fin 1024, x0 (lidx_main_v21 (ix2 n a) k) * x3 (ridx_main_v21 (ix2 n a) k)
      = ((X n k : ℝ) : EReal) * ((P0 a k : ℝ) : EReal) := by
    intro k
    have el : lidx_main_v21 (ix2 n a) k = ix2 n k :=
      funext fun d => Fin.ext (by match d with | ⟨0, _⟩ => rfl | ⟨1, _⟩ => rfl)
    have er : ridx_main_v21 (ix2 n a) k = ix2 a k :=
      funext fun d => Fin.ext (by match d with | ⟨0, _⟩ => rfl | ⟨1, _⟩ => rfl)
    rw [el, er, hx0, hx3]
  rw [Finset.sum_congr rfl (fun k _ => e k)]
  exact Cert.Lse.dot_coe (X n) (P0 a)

/-- The cluster's logits of a row are real. -/
private theorem logits0_eq (hx0 : ∀ n k, x0 (ix2 n k) = ((X n k : ℝ) : EReal)) (hx3 : ∀ a k, x3 (ix2 a k) = ((P0 a k : ℝ) : EReal))
    (hx4 : ∀ j a, x4 (ix2 j a) = ((O0 j a : ℝ) : EReal)) (n : Fin 4096) (j : Fin 8000) :
    val_main_v22 (F := Ideal) x0 x3 x4 (ix2 n j) = ((tailLogits (X n) P0 O0 j : ℝ) : EReal) := by
  rw [val_main_v22_apply]
  have e : ∀ k : Fin 256, val_main_v21 (F := Ideal) x0 x3 (lidx_main_v22 (ix2 n j) k) * x4 (ridx_main_v22 (ix2 n j) k)
      = ((dot (X n) (P0 k) : ℝ) : EReal) * ((O0 j k : ℝ) : EReal) := by
    intro k
    have el : lidx_main_v22 (ix2 n j) k = ix2 n k :=
      funext fun d => Fin.ext (by match d with | ⟨0, _⟩ => rfl | ⟨1, _⟩ => rfl)
    have er : ridx_main_v22 (ix2 n j) k = ix2 j k :=
      funext fun d => Fin.ext (by match d with | ⟨0, _⟩ => rfl | ⟨1, _⟩ => rfl)
    rw [el, er, proj0_eq x0 X x3 P0 hx0 hx3 n k, hx4]
  rw [Finset.sum_congr rfl (fun k _ => e k)]
  exact Cert.Lse.dot_coe (fun a => dot (X n) (P0 a)) (O0 j)

/-- The row's maximum, as the log-softmax takes it, is a real number. -/
private theorem rowmax0 (hx0 : ∀ n k, x0 (ix2 n k) = ((X n k : ℝ) : EReal)) (hx3 : ∀ a k, x3 (ix2 a k) = ((P0 a k : ℝ) : EReal))
    (hx4 : ∀ j a, x4 (ix2 j a) = ((O0 j a : ℝ) : EReal)) (n : Fin 4096) :
    ∃ M : ℝ, val_main_call3_v2 (F := Ideal) x0 x3 x4 (ix1 n) = (M : EReal) := by
  obtain ⟨M, hM⟩ := rowmax_real (tailLogits (X n) P0 O0) (by decide : 0 < 8000)
  refine ⟨M, ?_⟩
  rw [val_main_call3_v2_apply, val_main_call3_v1_apply, val_main_call3_cst_0_apply]
  unfold val_main_call3_v0
  rw [rowmax_fold (val_main_v22 (F := Ideal) x0 x3 x4) (val_main_call3_cst (F := Ideal)) _ _ n, val_main_call3_cst_apply]
  have hf : (fun k : Fin 8000 => val_main_v22 (F := Ideal) x0 x3 x4 (ix2 n k))
      = fun k : Fin 8000 => ((tailLogits (X n) P0 O0 k : ℝ) : EReal) :=
    funext fun k => logits0_eq x0 X x3 x4 P0 O0 hx0 hx3 hx4 n k
  rw [hf]
  simp only [Ideal.ofBits_def, Ideal.maximumf_def, ninf]
  exact hM

/-- The log-softmax of the cluster's logits at (n, j). -/
private theorem lsm0 (hx0 : ∀ n k, x0 (ix2 n k) = ((X n k : ℝ) : EReal)) (hx3 : ∀ a k, x3 (ix2 a k) = ((P0 a k : ℝ) : EReal))
    (hx4 : ∀ j a, x4 (ix2 j a) = ((O0 j a : ℝ) : EReal)) (n : Fin 4096) (j : Fin 8000) :
    val_main_v23 (F := Ideal) x0 x3 x4 (ix2 n j)
      = ((tailLogits (X n) P0 O0 j - lse (tailLogits (X n) P0 O0) : ℝ) : EReal) := by
  obtain ⟨M, hM⟩ := rowmax0 x0 X x3 x4 P0 O0 hx0 hx3 hx4 n
  have hv5 : ∀ k : Fin 8000, val_main_call3_v5 (F := Ideal) x0 x3 x4 (ix2 n k)
      = ((tailLogits (X n) P0 O0 k : ℝ) : EReal) - (M : EReal) := by
    intro k
    have e4 : idx_main_call3_v3 (idx_main_call3_v4 (ix2 n k)) = ix1 n :=
      funext fun d => Fin.ext (by match d with | ⟨0, _⟩ => rfl)
    rw [val_main_call3_v5_apply, val_main_call3_v4_apply, val_main_call3_v3_apply, e4, hM,
      logits0_eq x0 X x3 x4 P0 O0 hx0 hx3 hx4 n k]
    rfl
  have hv7 : val_main_call3_v7 (F := Ideal) x0 x3 x4 (ix1 n)
      = 0 + ∑ k : Fin 8000, Ideal.exp (((tailLogits (X n) P0 O0 k : ℝ) : EReal) - (M : EReal)) := by
    rw [val_main_call3_v7_apply, val_main_call3_cst_1_apply]
    simp only [Ideal.ofBits_def, Ideal.ofBits_zero_f32]
    refine congrArg (0 + ·) (Finset.sum_congr rfl fun k _ => ?_)
    have e7 : idx_main_call3_v7 (ix1 n) k = ix2 n k :=
      funext fun d => Fin.ext (by match d with | ⟨0, _⟩ => rfl | ⟨1, _⟩ => rfl)
    rw [e7, val_main_call3_v6_apply, hv5 k]
    rfl
  have e10 : idx_main_call3_v8 (idx_main_call3_v10 (ix2 n j)) = ix1 n :=
    funext fun d => Fin.ext (by match d with | ⟨0, _⟩ => rfl)
  rw [val_main_v23_apply, val_main_call3_v10_apply, val_main_call3_v9_apply, val_main_call3_v8_apply, e10, hv7, hv5 j]
  simp only [Ideal.subf_def, Ideal.hostUnary_log_def]
  exact log_softmax_real (tailLogits (X n) P0 O0) (by norm_num) M j

/-- The gather's row word at row `n` is `n`. -/
private theorem rowword0 (n : Fin 4096) : val_main_v41 (F := Ideal) x1 (ix2 n (0 : Fin 2)) = BitVec.ofNat 32 n.val := by
  unfold val_main_v41
  refine (concat_cols_at0 _ _ _ n).trans ?_
  have e : idx_main_v39 (ix2 n (0 : Fin 1)) = ix1 n := funext fun d => Fin.ext (by match d with | ⟨0, _⟩ => rfl)
  rw [val_main_v39_apply, e, val_main_v33_apply, val_main_v30_apply, val_main_v2_apply, val_main_v29_apply, val_main_c_10_apply]
  have hn : (BitVec.ofNat 32 n.val).toNat < 2 ^ 31 := by rw [toNat_row _ (by have := n.isLt; omega)]; have := n.isLt; omega
  rw [not_neg_of_lt _ hn, select_zero]

/-- The gather's column word at row `n` is the label's clamped position inside the cluster. -/
private theorem colword0 (n : Fin 4096) :
    val_main_v41 (F := Ideal) x1 (ix2 n (1 : Fin 2)) = clampW 7999#32 (IntOp.subi (tgt (x1 (ix1 n))) 2000#32) := by
  unfold val_main_v41
  refine (concat_cols_at1 _ _ _ n).trans ?_
  have e : idx_main_v40 (ix2 n (0 : Fin 1)) = ix1 n := funext fun d => Fin.ext (by match d with | ⟨0, _⟩ => rfl)
  have h26 : val_main_v26 (F := Ideal) x1 (ix1 n) = clampW 7999#32 (IntOp.subi (tgt (x1 (ix1 n))) 2000#32) := by
    rw [val_main_v26_apply, val_main_call4_v4_apply, val_main_call4_v3_apply, val_main_c_9_apply, val_main_call4_v2_apply,
      val_main_call4_v1_apply, val_main_call4_v0_apply, val_main_c_8_apply, val_main_v25_apply, val_main_v24_apply,
      val_main_c_7_apply, val_main_v5_apply, val_main_v4_apply, val_main_v3_apply, val_main_c_apply, val_main_call1_v1_apply,
      val_main_call1_v0_apply, val_main_c_0_apply]
    rfl
  rw [val_main_v40_apply, e, val_main_v38_apply, val_main_v35_apply, val_main_v34_apply, val_main_c_12_apply, h26]
  have hc : (clampW 7999#32 (IntOp.subi (tgt (x1 (ix1 n))) 2000#32)).toNat < 2 ^ 31 :=
    lt_of_le_of_lt (clampW_le _ _ (by decide)) (by decide)
  rw [not_neg_of_lt _ hc, select_zero]

end Tail0

/-- The first cluster: the class's log-probability inside the cluster. -/
theorem tail0_eq (x3 : (⟨S256x1024, .f32⟩ : BufTy).Contents (Elt Ideal)) (x4 : (⟨S8000x256, .f32⟩ : BufTy).Contents (Elt Ideal)) (P0 : Fin 256 → Fin 1024 → ℝ) (O0 : Fin 8000 → Fin 256 → ℝ)
    (hx0 : ∀ n k, x0 (ix2 n k) = ((X n k : ℝ) : EReal)) (hx3 : ∀ a k, x3 (ix2 a k) = ((P0 a k : ℝ) : EReal))
    (hx4 : ∀ j a, x4 (ix2 j a) = ((O0 j a : ℝ) : EReal)) (n : Fin 4096) :
    val_main_v42 (F := Ideal) x0 x1 x3 x4 (ix1 n)
      = ((atW (tailLogits (X n) P0 O0) (clampW 7999#32 (IntOp.subi (tgt (x1 (ix1 n))) 2000#32)) - lse (tailLogits (X n) P0 O0) : ℝ) : EReal) := by
  have hw : (clampW 7999#32 (IntOp.subi (tgt (x1 (ix1 n))) 2000#32)).toNat ≤ (7999#32 : BitVec 32).toNat :=
    clampW_le _ _ (by decide)
  have h7999 : (7999#32 : BitVec 32).toNat = 7999 := rfl
  have hlt : (clampW 7999#32 (IntOp.subi (tgt (x1 (ix1 n))) 2000#32)).toNat < 8000 := by omega
  have hn := n.isLt
  unfold val_main_v42
  have hg : gather_S4096x8000_S4096x2_S4096_n_01_n_n_01_1_11
      = pairDims 4096 8000 Cert.ReferenceIdeal.Gen.gather_S4096x8000_S4096x2_S4096_n_01_n_n_01_1_11_wf := rfl
  rw [hg, gather_pair_apply _ _ _ n n ⟨_, hlt⟩]
  · rw [lsm0 x0 X x3 x4 P0 O0 hx0 hx3 hx4 n]
    unfold atW
    rw [dif_pos hlt]
  · rw [rowword0 x1 n, toInt_toNat_of_lt _ (by rw [toNat_row _ (by omega)]; omega), toNat_row _ (by omega)]
    exact min_eq_left (by omega)
  · rw [colword0 x1 n, toInt_toNat_of_lt _ (by omega)]
    exact min_eq_left (by omega)

/-! ## The second cluster -/

section Tail1

variable (x5 : (⟨S64x1024, .f32⟩ : BufTy).Contents (Elt Ideal)) (x6 : (⟨S40257x64, .f32⟩ : BufTy).Contents (Elt Ideal))
  (P1 : Fin 64 → Fin 1024 → ℝ) (O1 : Fin 40257 → Fin 64 → ℝ)

/-- The row projected: an inner product of reals. -/
private theorem proj1_eq (hx0 : ∀ n k, x0 (ix2 n k) = ((X n k : ℝ) : EReal)) (hx5 : ∀ a k, x5 (ix2 a k) = ((P1 a k : ℝ) : EReal))
    (n : Fin 4096) (a : Fin 64) :
    val_main_v50 (F := Ideal) x0 x5 (ix2 n a) = ((dot (X n) (P1 a) : ℝ) : EReal) := by
  rw [val_main_v50_apply]
  have e : ∀ k : Fin 1024, x0 (lidx_main_v50 (ix2 n a) k) * x5 (ridx_main_v50 (ix2 n a) k)
      = ((X n k : ℝ) : EReal) * ((P1 a k : ℝ) : EReal) := by
    intro k
    have el : lidx_main_v50 (ix2 n a) k = ix2 n k :=
      funext fun d => Fin.ext (by match d with | ⟨0, _⟩ => rfl | ⟨1, _⟩ => rfl)
    have er : ridx_main_v50 (ix2 n a) k = ix2 a k :=
      funext fun d => Fin.ext (by match d with | ⟨0, _⟩ => rfl | ⟨1, _⟩ => rfl)
    rw [el, er, hx0, hx5]
  rw [Finset.sum_congr rfl (fun k _ => e k)]
  exact Cert.Lse.dot_coe (X n) (P1 a)

/-- The cluster's logits of a row are real. -/
private theorem logits1_eq (hx0 : ∀ n k, x0 (ix2 n k) = ((X n k : ℝ) : EReal)) (hx5 : ∀ a k, x5 (ix2 a k) = ((P1 a k : ℝ) : EReal))
    (hx6 : ∀ j a, x6 (ix2 j a) = ((O1 j a : ℝ) : EReal)) (n : Fin 4096) (j : Fin 40257) :
    val_main_v51 (F := Ideal) x0 x5 x6 (ix2 n j) = ((tailLogits (X n) P1 O1 j : ℝ) : EReal) := by
  rw [val_main_v51_apply]
  have e : ∀ k : Fin 64, val_main_v50 (F := Ideal) x0 x5 (lidx_main_v51 (ix2 n j) k) * x6 (ridx_main_v51 (ix2 n j) k)
      = ((dot (X n) (P1 k) : ℝ) : EReal) * ((O1 j k : ℝ) : EReal) := by
    intro k
    have el : lidx_main_v51 (ix2 n j) k = ix2 n k :=
      funext fun d => Fin.ext (by match d with | ⟨0, _⟩ => rfl | ⟨1, _⟩ => rfl)
    have er : ridx_main_v51 (ix2 n j) k = ix2 j k :=
      funext fun d => Fin.ext (by match d with | ⟨0, _⟩ => rfl | ⟨1, _⟩ => rfl)
    rw [el, er, proj1_eq x0 X x5 P1 hx0 hx5 n k, hx6]
  rw [Finset.sum_congr rfl (fun k _ => e k)]
  exact Cert.Lse.dot_coe (fun a => dot (X n) (P1 a)) (O1 j)

/-- The row's maximum, as the log-softmax takes it, is a real number. -/
private theorem rowmax1 (hx0 : ∀ n k, x0 (ix2 n k) = ((X n k : ℝ) : EReal)) (hx5 : ∀ a k, x5 (ix2 a k) = ((P1 a k : ℝ) : EReal))
    (hx6 : ∀ j a, x6 (ix2 j a) = ((O1 j a : ℝ) : EReal)) (n : Fin 4096) :
    ∃ M : ℝ, val_main_call6_v2 (F := Ideal) x0 x5 x6 (ix1 n) = (M : EReal) := by
  obtain ⟨M, hM⟩ := rowmax_real (tailLogits (X n) P1 O1) (by decide : 0 < 40257)
  refine ⟨M, ?_⟩
  rw [val_main_call6_v2_apply, val_main_call6_v1_apply, val_main_call6_cst_0_apply]
  unfold val_main_call6_v0
  rw [rowmax_fold (val_main_v51 (F := Ideal) x0 x5 x6) (val_main_call6_cst (F := Ideal)) _ _ n, val_main_call6_cst_apply]
  have hf : (fun k : Fin 40257 => val_main_v51 (F := Ideal) x0 x5 x6 (ix2 n k))
      = fun k : Fin 40257 => ((tailLogits (X n) P1 O1 k : ℝ) : EReal) :=
    funext fun k => logits1_eq x0 X x5 x6 P1 O1 hx0 hx5 hx6 n k
  rw [hf]
  simp only [Ideal.ofBits_def, Ideal.maximumf_def, ninf]
  exact hM

/-- The log-softmax of the cluster's logits at (n, j). -/
private theorem lsm1 (hx0 : ∀ n k, x0 (ix2 n k) = ((X n k : ℝ) : EReal)) (hx5 : ∀ a k, x5 (ix2 a k) = ((P1 a k : ℝ) : EReal))
    (hx6 : ∀ j a, x6 (ix2 j a) = ((O1 j a : ℝ) : EReal)) (n : Fin 4096) (j : Fin 40257) :
    val_main_v52 (F := Ideal) x0 x5 x6 (ix2 n j)
      = ((tailLogits (X n) P1 O1 j - lse (tailLogits (X n) P1 O1) : ℝ) : EReal) := by
  obtain ⟨M, hM⟩ := rowmax1 x0 X x5 x6 P1 O1 hx0 hx5 hx6 n
  have hv5 : ∀ k : Fin 40257, val_main_call6_v5 (F := Ideal) x0 x5 x6 (ix2 n k)
      = ((tailLogits (X n) P1 O1 k : ℝ) : EReal) - (M : EReal) := by
    intro k
    have e4 : idx_main_call6_v3 (idx_main_call6_v4 (ix2 n k)) = ix1 n :=
      funext fun d => Fin.ext (by match d with | ⟨0, _⟩ => rfl)
    rw [val_main_call6_v5_apply, val_main_call6_v4_apply, val_main_call6_v3_apply, e4, hM,
      logits1_eq x0 X x5 x6 P1 O1 hx0 hx5 hx6 n k]
    rfl
  have hv7 : val_main_call6_v7 (F := Ideal) x0 x5 x6 (ix1 n)
      = 0 + ∑ k : Fin 40257, Ideal.exp (((tailLogits (X n) P1 O1 k : ℝ) : EReal) - (M : EReal)) := by
    rw [val_main_call6_v7_apply, val_main_call6_cst_1_apply]
    simp only [Ideal.ofBits_def, Ideal.ofBits_zero_f32]
    refine congrArg (0 + ·) (Finset.sum_congr rfl fun k _ => ?_)
    have e7 : idx_main_call6_v7 (ix1 n) k = ix2 n k :=
      funext fun d => Fin.ext (by match d with | ⟨0, _⟩ => rfl | ⟨1, _⟩ => rfl)
    rw [e7, val_main_call6_v6_apply, hv5 k]
    rfl
  have e10 : idx_main_call6_v8 (idx_main_call6_v10 (ix2 n j)) = ix1 n :=
    funext fun d => Fin.ext (by match d with | ⟨0, _⟩ => rfl)
  rw [val_main_v52_apply, val_main_call6_v10_apply, val_main_call6_v9_apply, val_main_call6_v8_apply, e10, hv7, hv5 j]
  simp only [Ideal.subf_def, Ideal.hostUnary_log_def]
  exact log_softmax_real (tailLogits (X n) P1 O1) (by norm_num) M j

/-- The gather's row word at row `n` is `n`. -/
private theorem rowword1 (n : Fin 4096) : val_main_v70 (F := Ideal) x1 (ix2 n (0 : Fin 2)) = BitVec.ofNat 32 n.val := by
  unfold val_main_v70
  refine (concat_cols_at0 _ _ _ n).trans ?_
  have e : idx_main_v68 (ix2 n (0 : Fin 1)) = ix1 n := funext fun d => Fin.ext (by match d with | ⟨0, _⟩ => rfl)
  rw [val_main_v68_apply, e, val_main_v62_apply, val_main_v59_apply, val_main_v2_apply, val_main_v58_apply, val_main_c_19_apply]
  have hn : (BitVec.ofNat 32 n.val).toNat < 2 ^ 31 := by rw [toNat_row _ (by have := n.isLt; omega)]; have := n.isLt; omega
  rw [not_neg_of_lt _ hn, select_zero]

/-- The gather's column word at row `n` is the label's clamped position inside the cluster. -/
private theorem colword1 (n : Fin 4096) :
    val_main_v70 (F := Ideal) x1 (ix2 n (1 : Fin 2)) = clampW 40256#32 (IntOp.subi (tgt (x1 (ix1 n))) 10000#32) := by
  unfold val_main_v70
  refine (concat_cols_at1 _ _ _ n).trans ?_
  have e : idx_main_v69 (ix2 n (0 : Fin 1)) = ix1 n := funext fun d => Fin.ext (by match d with | ⟨0, _⟩ => rfl)
  have h26 : val_main_v55 (F := Ideal) x1 (ix1 n) = clampW 40256#32 (IntOp.subi (tgt (x1 (ix1 n))) 10000#32) := by
    rw [val_main_v55_apply, val_main_call7_v4_apply, val_main_call7_v3_apply, val_main_c_18_apply, val_main_call7_v2_apply,
      val_main_call7_v1_apply, val_main_call7_v0_apply, val_main_c_17_apply, val_main_v54_apply, val_main_v53_apply,
      val_main_c_16_apply, val_main_v5_apply, val_main_v4_apply, val_main_v3_apply, val_main_c_apply, val_main_call1_v1_apply,
      val_main_call1_v0_apply, val_main_c_0_apply]
    rfl
  rw [val_main_v69_apply, e, val_main_v67_apply, val_main_v64_apply, val_main_v63_apply, val_main_c_21_apply, h26]
  have hc : (clampW 40256#32 (IntOp.subi (tgt (x1 (ix1 n))) 10000#32)).toNat < 2 ^ 31 :=
    lt_of_le_of_lt (clampW_le _ _ (by decide)) (by decide)
  rw [not_neg_of_lt _ hc, select_zero]

end Tail1

/-- The second cluster: the class's log-probability inside the cluster. -/
theorem tail1_eq (x5 : (⟨S64x1024, .f32⟩ : BufTy).Contents (Elt Ideal)) (x6 : (⟨S40257x64, .f32⟩ : BufTy).Contents (Elt Ideal)) (P1 : Fin 64 → Fin 1024 → ℝ) (O1 : Fin 40257 → Fin 64 → ℝ)
    (hx0 : ∀ n k, x0 (ix2 n k) = ((X n k : ℝ) : EReal)) (hx5 : ∀ a k, x5 (ix2 a k) = ((P1 a k : ℝ) : EReal))
    (hx6 : ∀ j a, x6 (ix2 j a) = ((O1 j a : ℝ) : EReal)) (n : Fin 4096) :
    val_main_v71 (F := Ideal) x0 x1 x5 x6 (ix1 n)
      = ((atW (tailLogits (X n) P1 O1) (clampW 40256#32 (IntOp.subi (tgt (x1 (ix1 n))) 10000#32)) - lse (tailLogits (X n) P1 O1) : ℝ) : EReal) := by
  have hw : (clampW 40256#32 (IntOp.subi (tgt (x1 (ix1 n))) 10000#32)).toNat ≤ (40256#32 : BitVec 32).toNat :=
    clampW_le _ _ (by decide)
  have h40256 : (40256#32 : BitVec 32).toNat = 40256 := rfl
  have hlt : (clampW 40256#32 (IntOp.subi (tgt (x1 (ix1 n))) 10000#32)).toNat < 40257 := by omega
  have hn := n.isLt
  unfold val_main_v71
  have hg : gather_S4096x40257_S4096x2_S4096_n_01_n_n_01_1_11
      = pairDims 4096 40257 Cert.ReferenceIdeal.Gen.gather_S4096x40257_S4096x2_S4096_n_01_n_n_01_1_11_wf := rfl
  rw [hg, gather_pair_apply _ _ _ n n ⟨_, hlt⟩]
  · rw [lsm1 x0 X x5 x6 P1 O1 hx0 hx5 hx6 n]
    unfold atW
    rw [dif_pos hlt]
  · rw [rowword1 x1 n, toInt_toNat_of_lt _ (by rw [toNat_row _ (by omega)]; omega), toNat_row _ (by omega)]
    exact min_eq_left (by omega)
  · rw [colword1 x1 n, toInt_toNat_of_lt _ (by omega)]
    exact min_eq_left (by omega)

end Cert.ReferenceIdeal.RefTails

end
-- ==== Proof.RefRow.lean ====
/-
  One row of the reference's weighted log-probabilities, as a real number: the head's log-probability at the clamped
  label, overridden by slot + in-cluster log-probability for the rows whose label lies in the first, then the
  second, tail cluster; times the row weight.
-/
import proofs.«409923_j27530740367371_2_alg».proof.Proof.RefHead
import proofs.«409923_j27530740367371_2_alg».proof.Proof.RefTails

set_option maxRecDepth 16384

noncomputable section

open Idealize.ShloMosaic Idealize.ShloMosaic.TcCoe Idealize.SL.Sem Idealize.ShloMosaic.ValueIdx

namespace Cert.ReferenceIdeal.RefRow

open Cert.ReferenceIdeal Cert.ReferenceIdeal.Gen Cert.ReferenceIdeal.ReadP Cert.Spec

/-- A choice between two real numbers, read in the extended reals, is the choice read there. -/
private theorem select_coe (b : BitVec 1) (u v : ℝ) :
    Scalar.select b ((u : ℝ) : EReal) ((v : ℝ) : EReal) = ((Scalar.select b u v : ℝ) : EReal) := by
  unfold Scalar.select
  split <;> rfl

/-- The row's term assembled: with all seven ingredients real, the two nested choices, the two sums and the
    product by the weight are those of the real numbers. -/
private theorem assemble (b1 b0 : BitVec 1) (s1 t1 s0 t0 hp w : ℝ) :
    FloatOps.mulf (F := Ideal) (φ := .f32)
        (Scalar.select b1 (FloatOps.addf (F := Ideal) (φ := .f32) ((s1 : ℝ) : EReal) ((t1 : ℝ) : EReal))
          (Scalar.select b0 (FloatOps.addf (F := Ideal) (φ := .f32) ((s0 : ℝ) : EReal) ((t0 : ℝ) : EReal)) ((hp : ℝ) : EReal)))
        ((w : ℝ) : EReal)
      = ((Scalar.select b1 (s1 + t1) (Scalar.select b0 (s0 + t0) hp) * w : ℝ) : EReal) := by
  rw [Ideal.mulf_def, Ideal.addf_def, Ideal.addf_def, ← EReal.coe_add, ← EReal.coe_add, select_coe, select_coe,
    ← EReal.coe_mul]

/-- One row of the reference: the weighted log-probability of the row's class, as a real number. -/
theorem ref_contrib (x0 : (⟨S4096x1024, .f32⟩ : BufTy).Contents (Elt Ideal)) (x1 : (⟨S4096, .i32⟩ : BufTy).Contents (Elt Ideal)) (x2 : (⟨S2002x1024, .f32⟩ : BufTy).Contents (Elt Ideal))
    (x3 : (⟨S256x1024, .f32⟩ : BufTy).Contents (Elt Ideal)) (x4 : (⟨S8000x256, .f32⟩ : BufTy).Contents (Elt Ideal)) (x5 : (⟨S64x1024, .f32⟩ : BufTy).Contents (Elt Ideal)) (x6 : (⟨S40257x64, .f32⟩ : BufTy).Contents (Elt Ideal))
    (X : Fin 4096 → Fin 1024 → ℝ) (HW : Fin 2002 → Fin 1024 → ℝ) (P0 : Fin 256 → Fin 1024 → ℝ) (O0 : Fin 8000 → Fin 256 → ℝ)
    (P1 : Fin 64 → Fin 1024 → ℝ) (O1 : Fin 40257 → Fin 64 → ℝ)
    (hx0 : ∀ n k, x0 (ix2 n k) = ((X n k : ℝ) : EReal)) (hx2 : ∀ j k, x2 (ix2 j k) = ((HW j k : ℝ) : EReal))
    (hx3 : ∀ a k, x3 (ix2 a k) = ((P0 a k : ℝ) : EReal)) (hx4 : ∀ j a, x4 (ix2 j a) = ((O0 j a : ℝ) : EReal))
    (hx5 : ∀ a k, x5 (ix2 a k) = ((P1 a k : ℝ) : EReal)) (hx6 : ∀ j a, x6 (ix2 j a) = ((O1 j a : ℝ) : EReal)) (n : Fin 4096) :
    val_main_v80 (F := Ideal) x0 x1 x2 x3 x4 x5 x6 (ix1 n)
      = ((contribR (X n) (x1 (ix1 n)) HW P0 O0 P1 O1 : ℝ) : EReal) := by
  rw [val_main_v80_apply, val_main_v78_apply, val_main_v77_apply, val_main_v74_apply, val_main_v76_apply,
    val_main_v73_apply, val_main_c_23_apply, val_main_v75_apply, val_main_c_24_apply, val_main_v72_apply,
    val_main_v49_apply, val_main_v48_apply, val_main_v45_apply, val_main_v47_apply, val_main_v44_apply,
    val_main_c_14_apply, val_main_v46_apply, val_main_c_15_apply, val_main_v43_apply,
    RefHead.tgt_eq x1 n, RefHead.vf_eq x1 n, RefHead.logp_eq x0 x1 x2 X HW hx0 hx2 n,
    RefHead.slot0_eq x0 x2 X HW hx0 hx2 n, RefHead.slot1_eq x0 x2 X HW hx0 hx2 n,
    RefTails.tail0_eq x0 x1 X x3 x4 P0 O0 hx0 hx3 hx4 n, RefTails.tail1_eq x0 x1 X x5 x6 P1 O1 hx0 hx5 hx6 n]
  exact assemble _ _ _ _ _ _ _ _

end Cert.ReferenceIdeal.RefRow

end
-- ==== Proof.lean ====
/-
  The kernel computes the adaptive-softmax loss of 4096 rows block by block: per row the head's log-softmax over 2002
  columns (padded to 2048 with −∞), and for each of the two tail clusters a chunked online softmax over the padded
  classes; the reference computes the same three log-softmaxes whole. Over the extended reals, with finite inputs,
  every logit is a real number, a log-sum-exp does not depend on the shift used to compute it, the −∞ columns add
  nothing, and the online recurrence ends at the same log-sum-exp: so each row's weighted log-probability, and each
  row weight, is the same real number on both sides, and the loss is the same quotient of the same two sums.
-/
import proofs.«409923_j27530740367371_2_alg».proof.Defs
import proofs.«409923_j27530740367371_2_alg».proof.Proof.Gen.Kernel
import proofs.«409923_j27530740367371_2_alg».proof.Proof.Gen.Kernel.Frame
import proofs.«409923_j27530740367371_2_alg».proof.Proof.Gen.KernelIdeal
import proofs.«409923_j27530740367371_2_alg».proof.Proof.Gen.KernelIdeal.Frame
import proofs.«409923_j27530740367371_2_alg».proof.Proof.Gen.ReferenceIdeal
import proofs.«409923_j27530740367371_2_alg».proof.Proof.RefRunHand
import proofs.«409923_j27530740367371_2_alg».proof.Proof.RefRead
import proofs.«409923_j27530740367371_2_alg».proof.Proof.Gen.Pre_finite_inputs
import proofs.«409923_j27530740367371_2_alg».proof.Proof.Finite
import proofs.«409923_j27530740367371_2_alg».proof.Proof.KernelValue
import proofs.«409923_j27530740367371_2_alg».proof.Proof.RefRow
import Idealize.ShloMosaic.Adequacy
import Idealize.ShloMosaic.Init

set_option maxRecDepth 16384

noncomputable section

namespace Cert.Proof

open Idealize.ShloMosaic Idealize.SL.Sem Idealize.ShloMosaic.ValueIdx Cert.Spec

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- The reference run's result term is the last stage of the reference read operation by operation. -/
theorem res84_eq {F : FTy → Type} [FloatOps F] (m : (ℓ : Loc Cert.ReferenceIdeal.nD Cert.ReferenceIdeal.τ Cert.ReferenceIdeal.sig) → Buf (Elt F) ℓ) (c : Dev Cert.ReferenceIdeal.nD) :
    Cert.ReferenceIdeal.HandRun.res84 (F := F) m c
      = Cert.ReferenceIdeal.ReadP.val_main_v84 (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) := by
  unfold Cert.ReferenceIdeal.HandRun.res84; rfl

/-- The three sites of the masking constant: the table gives it the value −∞. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl⟩

/-- The two programs end with the same loss: every row's weighted log-probability and weight agree as real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => @Cert.Finite.reals_of_pre Cert.Pre_finite_inputs.Gen.facts _ _ _ _ _ _ _ (hpre c)
  have h0 := fun c => (hfin c).1
  have h2 := fun c => (hfin c).2.1
  have h3 := fun c => (hfin c).2.2.1
  have h4 := fun c => (hfin c).2.2.2.1
  have h5 := fun c => (hfin c).2.2.2.2.1
  have h6 := fun c => (hfin c).2.2.2.2.2
  choose X hX using h0
  choose HW hHW using h2
  choose P0 hP0 using h3
  choose O0 hO0 using h4
  choose P1 hP1 using h5
  choose O1 hO1 using h6
  refine ⟨_, Cert.KernelIdeal.KernelValue.kernel_value m ρ X HW P0 O0 P1 O1 hX hHW hP0 hO0 hP1 hO1, ?_⟩
  refine (θ_run Cert.ReferenceIdeal.defs _ _).mono (fun r h c => ⟨(h c).1.trans ?_, (h c).2⟩)
    (Cert.ReferenceIdeal.HandRun.run (F := Ideal) m' ρ')
  rw [res84_eq]
  obtain ⟨g0, g1, g2, g3, g4, g5, g6⟩ := hagree c
  rw [g0, g1, g2, g3, g4, g5, g6]
  show Cert.KernelIdeal.Blocks.lossOf
    (Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (Cert.ReferenceIdeal.ReadP.val_main_v79 (F := Ideal) (m ((c.tc : Thread Cert.KernelIdeal.nD Cert.KernelIdeal.τ).loc Cert.KernelIdeal.main_arg1))) = _
  congr 1
  · funext i
    obtain ⟨n, rfl⟩ : ∃ n : Fin 4096, i = ix1 n := ⟨i 0, eq_ix1 i⟩
    exact Cert.ReferenceIdeal.RefRow.ref_contrib _ _ _ _ _ _ _ (X c) (HW c) (P0 c) (O0 c) (P1 c) (O1 c)
      (hX c) (hHW c) (hP0 c) (hO0 c) (hP1 c) (hO1 c) n
  · funext i
    obtain ⟨n, rfl⟩ : ∃ n : Fin 4096, i = ix1 n := ⟨i 0, eq_ix1 i⟩
    exact Cert.ReferenceIdeal.RefHead.vf_eq _ n

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
